-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x4096 : Shape := ⟨3, ![1, 4096, 4096]⟩
abbrev S2048 : Shape := ⟨1, ![2048]⟩
abbrev S4096x22016 : Shape := ⟨2, ![4096, 22016]⟩
abbrev S11008x4096 : Shape := ⟨2, ![11008, 4096]⟩
abbrev S_ : Shape := ⟨0, ![]⟩

class Facts : Prop where
  bcast_S_S1x4096x4096 : S_.BroadcastsInDim S1x4096x4096 (![] : Fin 0 → Fin S1x4096x4096.rank)
  reducesTo_S1x4096x4096_S_d0_1_2 : S1x4096x4096.ReducesTo [0, 1, 2] S_
  h_S_ : 0 < S_.numel
  bcast_S_S4096x22016 : S_.BroadcastsInDim S4096x22016 (![] : Fin 0 → Fin S4096x22016.rank)
  reducesTo_S4096x22016_S_d0_1 : S4096x22016.ReducesTo [0, 1] S_
  bcast_S_S11008x4096 : S_.BroadcastsInDim S11008x4096 (![] : Fin 0 → Fin S11008x4096.rank)
  reducesTo_S11008x4096_S_d0_1 : S11008x4096.ReducesTo [0, 1] S_

variable [Facts]

def fn_part1 {F : FTy → Type} [FloatOps F] (main_arg6 : FVec F S11008x4096 .f32) (main_v13 : IVec S_ 1) (main_v16 : IVec S4096x22016 1) : IVec S_ 1 :=
  let main_c_5 : IVec S_ 1 := constantI S_ 1 1#1
  let main_v17 : IVec S_ 1 := (fun x v => Host.reduce IntOp.andi x v reducesTo_S4096x22016_S_d0_1 h_S_) main_v16 main_c_5
  let main_v18 : IVec S_ 1 := andi main_v13 main_v17
  let main_v19 : FVec F S11008x4096 .f32 := Host.absf main_arg6
  let main_cst_6 : FVec F S_ .f32 := constant S_ .f32 0x7F800000#32
  let main_v20 : FVec F S11008x4096 .f32 := broadcastInDim S11008x4096 ![] bcast_S_S11008x4096 main_cst_6
  let main_v21 : IVec S11008x4096 1 := cmpf .olt main_v19 main_v20
  let main_c_7 : IVec S_ 1 := constantI S_ 1 1#1
  let main_v22 : IVec S_ 1 := (fun x v => Host.reduce IntOp.andi x v reducesTo_S11008x4096_S_d0_1 h_S_) main_v21 main_c_7
  let main_v23 : IVec S_ 1 := andi main_v18 main_v22
  main_v23

def fn {F : FTy → Type} [FloatOps F] (main_arg0 : FVec F S1x4096x4096 .f32) (main_arg1 : IVec S2048 32) (main_arg2 : IVec S2048 32) (main_arg3 : FVec F S4096x22016 .f32) (main_arg4 : FVec F S11008x4096 .f32) (main_arg5 : FVec F S4096x22016 .f32) (main_arg6 : FVec F S11008x4096 .f32) : IVec S_ 1 :=
  let main_v0 : FVec F S1x4096x4096 .f32 := Host.absf main_arg0
  let main_cst : FVec F S_ .f32 := constant S_ .f32 0x7F800000#32
  let main_v1 : FVec F S1x4096x4096 .f32 := broadcastInDim S1x4096x4096 ![] bcast_S_S1x4096x4096 main_cst
  let main_v2 : IVec S1x4096x4096 1 := cmpf .olt main_v0 main_v1
  let main_c : IVec S_ 1 := constantI S_ 1 1#1
  let main_v3 : IVec S_ 1 := (fun x v => Host.reduce IntOp.andi x v reducesTo_S1x4096x4096_S_d0_1_2 h_S_) main_v2 main_c
  let main_v4 : FVec F S4096x22016 .f32 := Host.absf main_arg3
  let main_cst_0 : FVec F S_ .f32 := constant S_ .f32 0x7F800000#32
  let main_v5 : FVec F S4096x22016 .f32 := broadcastInDim S4096x22016 ![] bcast_S_S4096x22016 main_cst_0
  let main_v6 : IVec S4096x22016 1 := cmpf .olt main_v4 main_v5
  let main_c_1 : IVec S_ 1 := constantI S_ 1 1#1
  let main_v7 : IVec S_ 1 := (fun x v => Host.reduce IntOp.andi x v reducesTo_S4096x22016_S_d0_1 h_S_) main_v6 main_c_1
  let main_v8 : IVec S_ 1 := andi main_v3 main_v7
  let main_v9 : FVec F S11008x4096 .f32 := Host.absf main_arg4
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x22016 .f32 := Host.absf main_arg5
  let main_cst_4 : FVec F S_ .f32 := constant S_ .f32 0x7F800000#32
  let main_v15 : FVec F S4096x22016 .f32 := broadcastInDim S4096x22016 ![] bcast_S_S4096x22016 main_cst_4
  let main_v16 : IVec S4096x22016 1 := cmpf .olt main_v14 main_v15
  fn_part1 (F := F) main_arg6 main_v13 main_v16
-- ==== Kernel.lean ====
abbrev S1x4096x4096 : Shape := ⟨3, ![1, 4096, 4096]⟩
abbrev S2048 : Shape := ⟨1, ![2048]⟩
abbrev S4096x22016 : Shape := ⟨2, ![4096, 22016]⟩
abbrev S11008x4096 : Shape := ⟨2, ![11008, 4096]⟩
abbrev S4096x4096 : Shape := ⟨2, ![4096, 4096]⟩
abbrev S_ : Shape := ⟨0, ![]⟩
abbrev S2048x1 : Shape := ⟨2, ![2048, 1]⟩
abbrev S2048x4096 : Shape := ⟨2, ![2048, 4096]⟩
abbrev S512x4096 : Shape := ⟨2, ![512, 4096]⟩
abbrev S4096x128 : Shape := ⟨2, ![4096, 128]⟩
abbrev S128x4096 : Shape := ⟨2, ![128, 4096]⟩
abbrev S512x128 : Shape := ⟨2, ![512, 128]⟩

abbrev nBuf : Space → Nat
  | .hbm => 51
  | .vmem => 20
  | .smem => 0
  | _ => 0

abbrev bufTy : (tb : Table) → Fin (tcTables nBuf tb) → BufTy
  | .hbm, ⟨0, _⟩ => ⟨S1x4096x4096, .f32⟩
  | .hbm, ⟨1, _⟩ => ⟨S2048, .i32⟩
  | .hbm, ⟨2, _⟩ => ⟨S2048, .i32⟩
  | .hbm, ⟨3, _⟩ => ⟨S4096x22016, .f32⟩
  | .hbm, ⟨4, _⟩ => ⟨S11008x4096, .f32⟩
  | .hbm, ⟨5, _⟩ => ⟨S4096x22016, .f32⟩
  | .hbm, ⟨6, _⟩ => ⟨S11008x4096, .f32⟩
  | .hbm, ⟨7, _⟩ => ⟨S4096x4096, .f32⟩
  | .hbm, ⟨8, _⟩ => ⟨S_, .i32⟩
  | .hbm, ⟨9, _⟩ => ⟨S2048, .i32⟩
  | .hbm, ⟨10, _⟩ => ⟨S2048, .i1⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S2048x1, .i32⟩
  | .hbm, ⟨16, _⟩ => ⟨S2048x4096, .f32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S2048x1, .i32⟩
  | .hbm, ⟨25, _⟩ => ⟨S2048x4096, .f32⟩
  | .hbm, ⟨26, _⟩ => ⟨S2048x4096, .bf16⟩
  | .hbm, ⟨27, _⟩ => ⟨S2048x4096, .f32⟩
  | .hbm, ⟨28, _⟩ => ⟨S2048x4096, .bf16⟩
  | .hbm, ⟨29, _⟩ => ⟨S2048x4096, .f32⟩
  | .hbm, ⟨30, _⟩ => ⟨S_, .f32⟩
  | .hbm, ⟨31, _⟩ => ⟨S4096x4096, .f32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S2048, .i32⟩
  | .hbm, ⟨39, _⟩ => ⟨S2048x1, .i32⟩
  | .hbm, ⟨40, _⟩ => ⟨S4096x4096, .f32⟩
  | .hbm, ⟨41, _⟩ => ⟨S_, .i32⟩
  | .hbm, ⟨42, _⟩ => ⟨S2048, .i32⟩
  | .hbm, ⟨43, _⟩ => ⟨S2048, .i1⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S2048x1, .i32⟩
  | .hbm, ⟨49, _⟩ => ⟨S4096x4096, .f32⟩
  | .hbm, ⟨50, _⟩ => ⟨S1x4096x4096, .f32⟩
  | .local _ .vmem, ⟨0, _⟩ => ⟨S512x4096, .bf16⟩
  | .local _ .vmem, ⟨1, _⟩ => ⟨S512x4096, .bf16⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S128x4096, .f32⟩
  | .local _ .vmem, ⟨7, _⟩ => ⟨S128x4096, .f32⟩
  | .local _ .vmem, ⟨8, _⟩ => ⟨S512x4096, .f32⟩
  | .local _ .vmem, ⟨9, _⟩ => ⟨S512x4096, .f32⟩
  | .local _ .vmem, ⟨10, _⟩ => ⟨S512x4096, .bf16⟩
  | .local _ .vmem, ⟨11, _⟩ => ⟨S512x4096, .bf16⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S128x4096, .f32⟩
  | .local _ .vmem, ⟨17, _⟩ => ⟨S128x4096, .f32⟩
  | .local _ .vmem, ⟨18, _⟩ => ⟨S512x4096, .f32⟩
  | .local _ .vmem, ⟨19, _⟩ => ⟨S512x4096, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![4, 86], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c86_i32 : BitVec 32 := 86#32
  let v0 : BitVec 32 := Scalar.addi c86_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 86], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c86_i32 : BitVec 32 := 86#32
  let v0 : BitVec 32 := Scalar.addi c86_i32 arg1
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S1x4096x4096_S4096x4096 : S1x4096x4096.ShapeCasts S4096x4096
  bcast_S_S2048 : S_.BroadcastsInDim S2048 (![] : Fin 0 → Fin S2048.rank)
  bcast_S2048_S2048x1_0 : S2048.BroadcastsInDim S2048x1 (![0] : Fin 1 → Fin S2048x1.rank)
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x128_S4096x128_0_0 : ∀ a, (![0, 0] : Fin 2 → Nat) a + S4096x128.size a ≤ S4096x128.size a
  h_S4096x128 : 0 < S4096x128.numel
  inb_S128x4096_S128x4096_0_0 : ∀ a, (![0, 0] : Fin 2 → Nat) a + S128x4096.size a ≤ S128x4096.size a
  h_S128x4096 : 0 < S128x4096.numel
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  gather_S4096x4096_S2048x1_S2048x4096_1_0_n_n_0_1_14096_wf : GatherDims.WF S4096x4096 S2048x1 S2048x4096 [1] [0] [] [0] [] 1 ![1, 4096]
  dot_S512x4096_S4096x128_S512x128_1_0_0_1_n_n_wf : DotDims.WF S512x4096 S4096x128 S512x128 [1] [0] [0] [1] [] []
  dot_S512x128_S128x4096_S512x4096_1_0_0_1_n_n_wf : DotDims.WF S512x128 S128x4096 S512x4096 [1] [0] [0] [1] [] []
  scatter_S4096x4096_S2048x1_S2048x4096_1_0_0_1_wf : ScatterDims.WF S4096x4096 S2048x1 S2048x4096 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S2048x4096.size a
  hwx0_0 : ∀ i : grid0.Coords, EltTy.bits .bf16 = 32 ∨ (Rect.block (s := S2048x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x22016.size a
  hwx0_1 : ∀ i : grid0.Coords, EltTy.bits .f32 = 32 ∨ (Rect.block (s := S4096x22016) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x22016.size a
  hwx0_2 : ∀ i : grid0.Coords, EltTy.bits .f32 = 32 ∨ (Rect.block (s := S4096x22016) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S11008x4096.size a
  hwx0_3 : ∀ i : grid0.Coords, EltTy.bits .f32 = 32 ∨ (Rect.block (s := S11008x4096) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S2048x4096.size a
  hwx0_4 : ∀ i : grid0.Coords, EltTy.bits .f32 = 32 ∨ (Rect.block (s := S2048x4096) S512x4096.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S2048x4096.size a
  hwx1_0 : ∀ i : grid1.Coords, EltTy.bits .bf16 = 32 ∨ (Rect.block (s := S2048x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x22016.size a
  hwx1_1 : ∀ i : grid1.Coords, EltTy.bits .f32 = 32 ∨ (Rect.block (s := S4096x22016) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S4096x22016.size a
  hwx1_2 : ∀ i : grid1.Coords, EltTy.bits .f32 = 32 ∨ (Rect.block (s := S4096x22016) S4096x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S11008x4096.size a
  hwx1_3 : ∀ i : grid1.Coords, EltTy.bits .f32 = 32 ∨ (Rect.block (s := S11008x4096) S128x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x4096.size a ≤ S2048x4096.size a
  hwx1_4 : ∀ i : grid1.Coords, EltTy.bits .f32 = 32 ∨ (Rect.block (s := S2048x4096) S512x4096.size (cc1_transform_4 i) (hinb1_4 i)).WholeWords (EltTy.packing .f32)

variable [Facts₀]

def gather_S4096x4096_S2048x1_S2048x4096_1_0_n_n_0_1_14096 : GatherDims S4096x4096 S2048x1 S2048x4096 where
  offsetDims := [1]
  collapsedSliceDims := [0]
  operandBatchingDims := []
  startIndicesBatchingDims := []
  startIndexMap := [0]
  indexVectorDim := 1
  sliceSizes := ![1, 4096]
  wf := gather_S4096x4096_S2048x1_S2048x4096_1_0_n_n_0_1_14096_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf
def scatter_S4096x4096_S2048x1_S2048x4096_1_0_0_1 : ScatterDims S4096x4096 S2048x1 S2048x4096 where
  updateWindowDims := [1]
  insertedWindowDims := [0]
  scatterDimsToOperandDims := [0]
  indexVectorDim := 1
  wf := scatter_S4096x4096_S2048x1_S2048x4096_1_0_0_1_wf

abbrev win0_0 : Pipeline.Window sig grid0 :=
  Pipeline.Window.ofSpec (Memref.whole main_v15) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v17) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18) S512x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x4096x4096 : Shape := ⟨3, ![1, 4096, 4096]⟩
abbrev S2048 : Shape := ⟨1, ![2048]⟩
abbrev S4096x22016 : Shape := ⟨2, ![4096, 22016]⟩
abbrev S11008x4096 : Shape := ⟨2, ![11008, 4096]⟩
abbrev S_ : Shape := ⟨0, ![]⟩
abbrev S2048x1 : Shape := ⟨2, ![2048, 1]⟩
abbrev S1x2048x4096 : Shape := ⟨3, ![1, 2048, 4096]⟩
abbrev S1x2048x22016 : Shape := ⟨3, ![1, 2048, 22016]⟩
abbrev S1x2048x11008 : Shape := ⟨3, ![1, 2048, 11008]⟩

abbrev nBuf : Space → Nat
  | .hbm => 73
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S2048, .i32⟩
  | .hbm, ⟨2, _⟩ => ⟨S2048, .i32⟩
  | .hbm, ⟨3, _⟩ => ⟨S4096x22016, .f32⟩
  | .hbm, ⟨4, _⟩ => ⟨S11008x4096, .f32⟩
  | .hbm, ⟨5, _⟩ => ⟨S4096x22016, .f32⟩
  | .hbm, ⟨6, _⟩ => ⟨S11008x4096, .f32⟩
  | .hbm, ⟨7, _⟩ => ⟨S_, .i32⟩
  | .hbm, ⟨8, _⟩ => ⟨S2048, .i32⟩
  | .hbm, ⟨9, _⟩ => ⟨S2048, .i1⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S2048x1, .i32⟩
  | .hbm, ⟨15, _⟩ => ⟨S1x2048x4096, .f32⟩
  | .hbm, ⟨16, _⟩ => ⟨S1x2048x22016, .f32⟩
  | .hbm, ⟨17, _⟩ => ⟨S1x2048x11008, .f32⟩
  | .hbm, ⟨18, _⟩ => ⟨S1x2048x11008, .f32⟩
  | .hbm, ⟨19, _⟩ => ⟨S1x2048x11008, .f32⟩
  | .hbm, ⟨20, _⟩ => ⟨S1x2048x11008, .f32⟩
  | .hbm, ⟨21, _⟩ => ⟨S_, .f32⟩
  | .hbm, ⟨22, _⟩ => ⟨S1x2048x11008, .f32⟩
  | .hbm, ⟨23, _⟩ => ⟨S1x2048x11008, .f32⟩
  | .hbm, ⟨24, _⟩ => ⟨S_, .f32⟩
  | .hbm, ⟨25, _⟩ => ⟨S1x2048x11008, .f32⟩
  | .hbm, ⟨26, _⟩ => ⟨S1x2048x11008, .f32⟩
  | .hbm, ⟨27, _⟩ => ⟨S1x2048x11008, .f32⟩
  | .hbm, ⟨28, _⟩ => ⟨S1x2048x11008, .f32⟩
  | .hbm, ⟨29, _⟩ => ⟨S1x2048x4096, .f32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048, .i32⟩
  | .hbm, ⟨37, _⟩ => ⟨S2048x1, .i32⟩
  | .hbm, ⟨38, _⟩ => ⟨S1x2048x4096, .f32⟩
  | .hbm, ⟨39, _⟩ => ⟨S1x2048x22016, .f32⟩
  | .hbm, ⟨40, _⟩ => ⟨S1x2048x11008, .f32⟩
  | .hbm, ⟨41, _⟩ => ⟨S1x2048x11008, .f32⟩
  | .hbm, ⟨42, _⟩ => ⟨S1x2048x11008, .f32⟩
  | .hbm, ⟨43, _⟩ => ⟨S1x2048x11008, .f32⟩
  | .hbm, ⟨44, _⟩ => ⟨S_, .f32⟩
  | .hbm, ⟨45, _⟩ => ⟨S1x2048x11008, .f32⟩
  | .hbm, ⟨46, _⟩ => ⟨S1x2048x11008, .f32⟩
  | .hbm, ⟨47, _⟩ => ⟨S_, .f32⟩
  | .hbm, ⟨48, _⟩ => ⟨S1x2048x11008, .f32⟩
  | .hbm, ⟨49, _⟩ => ⟨S1x2048x11008, .f32⟩
  | .hbm, ⟨50, _⟩ => ⟨S1x2048x11008, .f32⟩
  | .hbm, ⟨51, _⟩ => ⟨S1x2048x11008, .f32⟩
  | .hbm, ⟨52, _⟩ => ⟨S1x2048x4096, .f32⟩
  | .hbm, ⟨53, _⟩ => ⟨S_, .f32⟩
  | .hbm, ⟨54, _⟩ => ⟨S1x4096x4096, .f32⟩
  | .hbm, ⟨55, _⟩ => ⟨S_, .i32⟩
  | .hbm, ⟨56, _⟩ => ⟨S2048, .i32⟩
  | .hbm, ⟨57, _⟩ => ⟨S2048, .i1⟩
  | .hbm, ⟨58, _⟩ => ⟨S_, .i32⟩
  | .hbm, ⟨59, _⟩ => ⟨S2048, .i32⟩
  | .hbm, ⟨60, _⟩ => ⟨S2048, .i32⟩
  | .hbm, ⟨61, _⟩ => ⟨S2048, .i32⟩
  | .hbm, ⟨62, _⟩ => ⟨S2048x1, .i32⟩
  | .hbm, ⟨63, _⟩ => ⟨S1x4096x4096, .f32⟩
  | .hbm, ⟨64, _⟩ => ⟨S_, .i32⟩
  | .hbm, ⟨65, _⟩ => ⟨S2048, .i32⟩
  | .hbm, ⟨66, _⟩ => ⟨S2048, .i1⟩
  | .hbm, ⟨67, _⟩ => ⟨S_, .i32⟩
  | .hbm, ⟨68, _⟩ => ⟨S2048, .i32⟩
  | .hbm, ⟨69, _⟩ => ⟨S2048, .i32⟩
  | .hbm, ⟨70, _⟩ => ⟨S2048, .i32⟩
  | .hbm, ⟨71, _⟩ => ⟨S2048x1, .i32⟩
  | .hbm, ⟨72, _⟩ => ⟨S1x4096x4096, .f32⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst : Ref sig .tc := ⟨.hbm, 53, rfl⟩
abbrev main_v26 : Ref sig .tc := ⟨.hbm, 54, rfl⟩
abbrev main_c_3 : Ref sig .tc := ⟨.hbm, 55, rfl⟩
abbrev main_v27 : Ref sig .tc := ⟨.hbm, 56, rfl⟩
abbrev main_v28 : Ref sig .tc := ⟨.hbm, 57, rfl⟩
abbrev main_c_4 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c_5 : Ref sig .tc := ⟨.hbm, 64, rfl⟩
abbrev main_v34 : Ref sig .tc := ⟨.hbm, 65, rfl⟩
abbrev main_v35 : Ref sig .tc := ⟨.hbm, 66, rfl⟩
abbrev main_c_6 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  slices_S1x2048x22016_S1x2048x11008_0_0_0 : S1x2048x22016.Slices ![0, 0, 0] S1x2048x11008
  slices_S1x2048x22016_S1x2048x11008_0_0_11008 : S1x2048x22016.Slices ![0, 0, 11008] S1x2048x11008
  bcast_S_S1x2048x11008 : S_.BroadcastsInDim S1x2048x11008 (![] : Fin 0 → Fin S1x2048x11008.rank)
  bcast_S_S1x4096x4096 : S_.BroadcastsInDim S1x4096x4096 (![] : Fin 0 → Fin S1x4096x4096.rank)
  gather_S1x4096x4096_S2048x1_S1x2048x4096_02_1_n_n_1_1_114096_wf : GatherDims.WF S1x4096x4096 S2048x1 S1x2048x4096 [0, 2] [1] [] [1] [] 1 ![1, 1, 4096]
  dot_S1x2048x4096_S4096x22016_S1x2048x22016_2_0_01_1_n_n_wf : DotDims.WF S1x2048x4096 S4096x22016 S1x2048x22016 [2] [0] [0, 1] [1] [] []
  dot_S1x2048x11008_S11008x4096_S1x2048x4096_2_0_01_1_n_n_wf : DotDims.WF S1x2048x11008 S11008x4096 S1x2048x4096 [2] [0] [0, 1] [1] [] []
  scatter_S1x4096x4096_S2048x1_S1x2048x4096_02_1_1_1_wf : ScatterDims.WF S1x4096x4096 S2048x1 S1x2048x4096 [0, 2] [1] [1] 1

variable [Facts₀]

def gather_S1x4096x4096_S2048x1_S1x2048x4096_02_1_n_n_1_1_114096 : GatherDims S1x4096x4096 S2048x1 S1x2048x4096 where
  offsetDims := [0, 2]
  collapsedSliceDims := [1]
  operandBatchingDims := []
  startIndicesBatchingDims := []
  startIndexMap := [1]
  indexVectorDim := 1
  sliceSizes := ![1, 1, 4096]
  wf := gather_S1x4096x4096_S2048x1_S1x2048x4096_02_1_n_n_1_1_114096_wf
def dot_S1x2048x4096_S4096x22016_S1x2048x22016_2_0_01_1_n_n : DotDims S1x2048x4096 S4096x22016 S1x2048x22016 where
  lhsContracting := [2]
  rhsContracting := [0]
  lhsNonContracting := [0, 1]
  rhsNonContracting := [1]
  lhsBatch := []
  rhsBatch := []
  wf := dot_S1x2048x4096_S4096x22016_S1x2048x22016_2_0_01_1_n_n_wf
def dot_S1x2048x11008_S11008x4096_S1x2048x4096_2_0_01_1_n_n : DotDims S1x2048x11008 S11008x4096 S1x2048x4096 where
  lhsContracting := [2]
  rhsContracting := [0]
  lhsNonContracting := [0, 1]
  rhsNonContracting := [1]
  lhsBatch := []
  rhsBatch := []
  wf := dot_S1x2048x11008_S11008x4096_S1x2048x4096_2_0_01_1_n_n_wf
def scatter_S1x4096x4096_S2048x1_S1x2048x4096_02_1_1_1 : ScatterDims S1x4096x4096 S2048x1 S1x2048x4096 where
  updateWindowDims := [0, 2]
  insertedWindowDims := [1]
  scatterDimsToOperandDims := [1]
  indexVectorDim := 1
  wf := scatter_S1x4096x4096_S2048x1_S1x2048x4096_02_1_1_1_wf

class Facts : Prop extends Facts₀ where

variable [Facts]
-- ==== Proof.KernelIdeal.Shared0.lean ====
/-
  Launch 0 (the first expert's SwiGLU kernel, grid 4 × 86): what its body runs are stated over — the branch condition
  `i == 0` on the reduction axis in closed form over the grid, the staging memrefs at a point, and the view through which
  the output block's contents are stated.
-/
import proofs.«427235_j25761213841760_3_alg».proof.Proof.Gen.KernelIdeal.Launch
import proofs.«427235_j25761213841760_3_alg».proof.Proof.Gen.KernelIdeal.Skeleton
import proofs.«427235_j25761213841760_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: taken where the reduction coordinate is zero (the accumulator is reset there). -/
abbrev cond_R0 (i : grid0.Coords) : Prop := (Scalar.cmpi .ne (Scalar.extui (Scalar.cmpi .eq (BitVec.ofNat 32 (i 1).val) 0#32)) 0#32) = 1#1

/-- In row-major order over the 4 × 86 grid the reduction coordinate is the point's number modulo 86. -/
theorem hcond_R0 : ∀ t : Fin cfg0.N, cond_R0 (grid0.coords t) ↔ t.val % 86 = 0 :=
  (by decide +kernel : ∀ t : Fin grid0.N, cond_R0 (grid0.coords t) ↔ t.val % 86 = 0)

/-- One staging buffer of the output window, through which the block's contents are stated. -/
abbrev VO_R0 : View sig .tc .vmem S512x4096 .f32 := (Memref.whole cc0_stg4_0 : Memref sig .tc .vmem S512x4096 .f32).view

/-- Each window's current staging memref at point `t`, as the pipeline passes it, and its wholeness. -/
abbrev ms_R0_0 (t : Fin cfg0.N) : Memref sig .tc .vmem S512x4096 .bf16 := win0_0.stage (cfg0.slots t 0)
abbrev hs_R0_0 (t : Fin cfg0.N) : (ms_R0_0 t).IsWhole := hstage0_0 ((cfg0.slots t 0).cast nbuf0_0)
abbrev ms_R0_1 (t : Fin cfg0.N) : Memref sig .tc .vmem S4096x128 .f32 := win0_1.stage (cfg0.slots t 1)
abbrev hs_R0_1 (t : Fin cfg0.N) : (ms_R0_1 t).IsWhole := hstage0_1 ((cfg0.slots t 1).cast nbuf0_1)
abbrev ms_R0_2 (t : Fin cfg0.N) : Memref sig .tc .vmem S4096x128 .f32 := win0_2.stage (cfg0.slots t 2)
abbrev hs_R0_2 (t : Fin cfg0.N) : (ms_R0_2 t).IsWhole := hstage0_2 ((cfg0.slots t 2).cast nbuf0_2)
abbrev ms_R0_3 (t : Fin cfg0.N) : Memref sig .tc .vmem S128x4096 .f32 := win0_3.stage (cfg0.slots t 3)
abbrev hs_R0_3 (t : Fin cfg0.N) : (ms_R0_3 t).IsWhole := hstage0_3 ((cfg0.slots t 3).cast nbuf0_3)
abbrev ms_R0_4 (t : Fin cfg0.N) : Memref sig .tc .vmem S512x4096 .f32 := win0_4.stage (cfg0.slots t 4)
abbrev hs_R0_4 (t : Fin cfg0.N) : (ms_R0_4 t).IsWhole := hstage0_4 ((cfg0.slots t 4).cast nbuf0_4)

end Cert.KernelIdeal.Hand

end
-- ==== Proof.KernelIdeal.RunA0.lean ====
/-
  Launch 0's body at a point where the reduction coordinate is zero: the output block is reset to zero, then the
  block's contribution is added to what was just stored. The run's witness is the list of pieces the output's staging
  buffer ends with (last store first).
-/
import proofs.«427235_j25761213841760_3_alg».proof.Proof.KernelIdeal.Shared0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- From the four input staging buffers at their contents and the output's at anything, the body runs to its end with
    the inputs as they were and the output's buffer holding the listed pieces. -/
noncomputable def kernelRun_R0_A (c : Dev nD) (i : grid0.Coords) (arg2 : Memref sig .tc .vmem S512x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S512x4096 .f32) (harg6 : arg6.IsWhole) (hc0 : cond_R0 i)
    (x0 : Vec F S512x4096 .bf16) (x1 : Vec F S4096x128 .f32) (x2 : Vec F S4096x128 .f32) (x3 : Vec F S128x4096 .f32) :
    { L : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc0__swiglu_kernel i arg2 harg2 arg3 harg3 arg4 harg4 arg5 harg5 arg6 harg6) K } := by
  refine ⟨?_, fun E K => ?run⟩
  case run =>
    simp only [cc0__swiglu_kernel_eq_skeleton]; unfold cc0__swiglu_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KernelIdeal.RunB0.lean ====
/-
  Launch 0's body at a point where the reduction coordinate is not zero: the block's contribution is added to what the
  output's staging buffer holds from the point before.
-/
import proofs.«427235_j25761213841760_3_alg».proof.Proof.KernelIdeal.RunA0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- From the four input staging buffers at their contents and the output's at its running contents `xo`, the body runs
    to its end with the inputs as they were and the output's buffer holding the listed pieces. -/
noncomputable def kernelRun_R0_B (c : Dev nD) (i : grid0.Coords) (arg2 : Memref sig .tc .vmem S512x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S512x4096 .f32) (harg6 : arg6.IsWhole) (hc0 : ¬cond_R0 i)
    (x0 : Vec F S512x4096 .bf16) (x1 : Vec F S4096x128 .f32) (x2 : Vec F S4096x128 .f32) (x3 : Vec F S128x4096 .f32) (xo : Vec F S512x4096 .f32) :
    { L : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc0__swiglu_kernel i arg2 harg2 arg3 harg3 arg4 harg4 arg5 harg5 arg6 harg6) K } := by
  refine ⟨?_, fun E K => ?run⟩
  case run =>
    simp only [cc0__swiglu_kernel_eq_skeleton]; unfold cc0__swiglu_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KernelIdeal.Dat0.lean ====
/-
  Launch 0 entered from buffer contents `V`: each window's block at a grid point, what the output block's staging buffer
  holds after the body at each point (the running sum over the reduction axis, reset where it is zero), the pipeline's
  proof data, and the body obligation at every point. The fused gate/up weight is handed to the kernel through two
  windows (its gate columns and its up columns), so the two windows hold its array at the two halves of the full share.
-/
import proofs.«427235_j25761213841760_3_alg».proof.Proof.KernelIdeal.RunB0
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk_R0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved). -/
theorem before_R0_0_of {c : Dev nD} (dat : Dat τ (Elt F) Unit ℕ (UR sig nD τ) ℕ cfg0 c) (hA : dat.A 0 = V c (Pipeline.arrRef spec0 0))
    (hafter : ∀ t, dat.after 0 t = iblk_R0 V c 0 t) (t : Fin cfg0.N) (d) : dat.before 0 t d = iblk_R0 V c 0 t :=
  (dat.before_in_eq_fetched 0 rfl (fun _ => rfl) (fun _ _ _ => rfl) (fun t => by rw [hafter]; unfold Dat.blockOf iblk_R0; rw [hA]; try rfl) t d).trans
    (by unfold Dat.fetched Dat.blockOf iblk_R0; rw [hA]; try rfl)
theorem before_R0_1_of {c : Dev nD} (dat : Dat τ (Elt F) Unit ℕ (UR sig nD τ) ℕ cfg0 c) (hA : dat.A 1 = V c (Pipeline.arrRef spec0 1))
    (hafter : ∀ t, dat.after 1 t = iblk_R0 V c 1 t) (t : Fin cfg0.N) (d) : dat.before 1 t d = iblk_R0 V c 1 t :=
  (dat.before_in_eq_fetched 1 rfl (fun _ => rfl) (fun _ _ _ => rfl) (fun t => by rw [hafter]; unfold Dat.blockOf iblk_R0; rw [hA]; try rfl) t d).trans
    (by unfold Dat.fetched Dat.blockOf iblk_R0; rw [hA]; try rfl)
theorem before_R0_2_of {c : Dev nD} (dat : Dat τ (Elt F) Unit ℕ (UR sig nD τ) ℕ cfg0 c) (hA : dat.A 2 = V c (Pipeline.arrRef spec0 2))
    (hafter : ∀ t, dat.after 2 t = iblk_R0 V c 2 t) (t : Fin cfg0.N) (d) : dat.before 2 t d = iblk_R0 V c 2 t :=
  (dat.before_in_eq_fetched 2 rfl (fun _ => rfl) (fun _ _ _ => rfl) (fun t => by rw [hafter]; unfold Dat.blockOf iblk_R0; rw [hA]; try rfl) t d).trans
    (by unfold Dat.fetched Dat.blockOf iblk_R0; rw [hA]; try rfl)
theorem before_R0_3_of {c : Dev nD} (dat : Dat τ (Elt F) Unit ℕ (UR sig nD τ) ℕ cfg0 c) (hA : dat.A 3 = V c (Pipeline.arrRef spec0 3))
    (hafter : ∀ t, dat.after 3 t = iblk_R0 V c 3 t) (t : Fin cfg0.N) (d) : dat.before 3 t d = iblk_R0 V c 3 t :=
  (dat.before_in_eq_fetched 3 rfl (fun _ => rfl) (fun _ _ _ => rfl) (fun t => by rw [hafter]; unfold Dat.blockOf iblk_R0; rw [hA]; try rfl) t d).trans
    (by unfold Dat.fetched Dat.blockOf iblk_R0; rw [hA]; try rfl)

/-! ## What each case leaves in the output block's buffer -/

/-- The reset case's two whole-block stores cover the block. -/
theorem cover_R0_A (c : Dev nD) (i : grid0.Coords) (arg2 : Memref sig .tc .vmem S512x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S512x4096 .f32) (harg6 : arg6.IsWhole) (hc0 : cond_R0 i)
    (x0 : Vec F S512x4096 .bf16) (x1 : Vec F S4096x128 .f32) (x2 : Vec F S4096x128 .f32) (x3 : Vec F S128x4096 .f32) (y : S512x4096.Idx) :
    ∃ pc ∈ (kernelRun_R0_A c i arg2 harg2 arg3 harg3 arg4 harg4 arg5 harg5 arg6 harg6 hc0 x0 x1 x2 x3).1, y ∈ pc.1.set :=
  View.cover_of_tiledL (kernelRun_R0_A c i arg2 harg2 arg3 harg3 arg4 harg4 arg5 harg5 arg6 harg6 hc0 x0 x1 x2 x3).1 S512x4096.size (by sl_kernel_rfl) y

/-- What the reset case leaves in the output's staging buffer: its pieces read back. -/
def out_R0_A (c : Dev nD) (i : grid0.Coords) (arg2 : Memref sig .tc .vmem S512x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S512x4096 .f32) (harg6 : arg6.IsWhole) (hc0 : cond_R0 i)
    (x0 : Vec F S512x4096 .bf16) (x1 : Vec F S4096x128 .f32) (x2 : Vec F S4096x128 .f32) (x3 : Vec F S128x4096 .f32) : Vec F S512x4096 .f32 :=
  VO_R0.read (Elt F) (VO_R0.writes (Elt F) VO_R0.junk (kernelRun_R0_A c i arg2 harg2 arg3 harg3 arg4 harg4 arg5 harg5 arg6 harg6 hc0 x0 x1 x2 x3).1)

/-- The accumulating case's one whole-block store covers the block. -/
theorem cover_R0_B (c : Dev nD) (i : grid0.Coords) (arg2 : Memref sig .tc .vmem S512x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S512x4096 .f32) (harg6 : arg6.IsWhole) (hc0 : ¬cond_R0 i)
    (x0 : Vec F S512x4096 .bf16) (x1 : Vec F S4096x128 .f32) (x2 : Vec F S4096x128 .f32) (x3 : Vec F S128x4096 .f32) (xo : Vec F S512x4096 .f32) (y : S512x4096.Idx) :
    ∃ pc ∈ (kernelRun_R0_B c i arg2 harg2 arg3 harg3 arg4 harg4 arg5 harg5 arg6 harg6 hc0 x0 x1 x2 x3 xo).1, y ∈ pc.1.set :=
  View.cover_of_tiledL (kernelRun_R0_B c i arg2 harg2 arg3 harg3 arg4 harg4 arg5 harg5 arg6 harg6 hc0 x0 x1 x2 x3 xo).1 S512x4096.size (by sl_kernel_rfl) y

/-- What the accumulating case leaves in the output's staging buffer: its pieces read back. -/
def out_R0_B (c : Dev nD) (i : grid0.Coords) (arg2 : Memref sig .tc .vmem S512x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S512x4096 .f32) (harg6 : arg6.IsWhole) (hc0 : ¬cond_R0 i)
    (x0 : Vec F S512x4096 .bf16) (x1 : Vec F S4096x128 .f32) (x2 : Vec F S4096x128 .f32) (x3 : Vec F S128x4096 .f32) (xo : Vec F S512x4096 .f32) : Vec F S512x4096 .f32 :=
  VO_R0.read (Elt F) (VO_R0.writes (Elt F) VO_R0.junk (kernelRun_R0_B c i arg2 harg2 arg3 harg3 arg4 harg4 arg5 harg5 arg6 harg6 hc0 x0 x1 x2 x3 xo).1)

/-! ## The running sum, point by point -/

/-- What the output block's staging buffer holds after the body at position `n` of the grid: where the reduction
    coordinate is zero the reset case on the point's input blocks, elsewhere the accumulating case on them over what
    the point before left (the buffer is not written back in between). -/
def outsAt_R0 (c : Dev nD) : (n : ℕ) → n < cfg0.N → Vec F S512x4096 .f32
  | 0, hn => out_R0_A c (grid0.coords ⟨0, hn⟩) (ms_R0_0 ⟨0, hn⟩) (hs_R0_0 ⟨0, hn⟩) (ms_R0_1 ⟨0, hn⟩) (hs_R0_1 ⟨0, hn⟩) (ms_R0_2 ⟨0, hn⟩) (hs_R0_2 ⟨0, hn⟩) (ms_R0_3 ⟨0, hn⟩) (hs_R0_3 ⟨0, hn⟩) (ms_R0_4 ⟨0, hn⟩) (hs_R0_4 ⟨0, hn⟩) ((hcond_R0 ⟨0, hn⟩).mpr (Nat.zero_mod _)) (iblk_R0 V c 0 ⟨0, hn⟩) (iblk_R0 V c 1 ⟨0, hn⟩) (iblk_R0 V c 2 ⟨0, hn⟩) (iblk_R0 V c 3 ⟨0, hn⟩)
  | n + 1, hn =>
    if h0 : (n + 1) % 86 = 0 then
      out_R0_A c (grid0.coords ⟨n + 1, hn⟩) (ms_R0_0 ⟨n + 1, hn⟩) (hs_R0_0 ⟨n + 1, hn⟩) (ms_R0_1 ⟨n + 1, hn⟩) (hs_R0_1 ⟨n + 1, hn⟩) (ms_R0_2 ⟨n + 1, hn⟩) (hs_R0_2 ⟨n + 1, hn⟩) (ms_R0_3 ⟨n + 1, hn⟩) (hs_R0_3 ⟨n + 1, hn⟩) (ms_R0_4 ⟨n + 1, hn⟩) (hs_R0_4 ⟨n + 1, hn⟩) ((hcond_R0 ⟨n + 1, hn⟩).mpr h0) (iblk_R0 V c 0 ⟨n + 1, hn⟩) (iblk_R0 V c 1 ⟨n + 1, hn⟩) (iblk_R0 V c 2 ⟨n + 1, hn⟩) (iblk_R0 V c 3 ⟨n + 1, hn⟩)
    else
      out_R0_B c (grid0.coords ⟨n + 1, hn⟩) (ms_R0_0 ⟨n + 1, hn⟩) (hs_R0_0 ⟨n + 1, hn⟩) (ms_R0_1 ⟨n + 1, hn⟩) (hs_R0_1 ⟨n + 1, hn⟩) (ms_R0_2 ⟨n + 1, hn⟩) (hs_R0_2 ⟨n + 1, hn⟩) (ms_R0_3 ⟨n + 1, hn⟩) (hs_R0_3 ⟨n + 1, hn⟩) (ms_R0_4 ⟨n + 1, hn⟩) (hs_R0_4 ⟨n + 1, hn⟩) (fun h => h0 ((hcond_R0 ⟨n + 1, hn⟩).mp h)) (iblk_R0 V c 0 ⟨n + 1, hn⟩) (iblk_R0 V c 1 ⟨n + 1, hn⟩) (iblk_R0 V c 2 ⟨n + 1, hn⟩) (iblk_R0 V c 3 ⟨n + 1, hn⟩) (outsAt_R0 c n (Nat.lt_of_succ_lt hn))

theorem outsAt_R0_A (c : Dev nD) (t : Fin cfg0.N) (h0 : t.val % 86 = 0) :
    outsAt_R0 V c t.val t.isLt = out_R0_A c (grid0.coords t) (ms_R0_0 t) (hs_R0_0 t) (ms_R0_1 t) (hs_R0_1 t) (ms_R0_2 t) (hs_R0_2 t) (ms_R0_3 t) (hs_R0_3 t) (ms_R0_4 t) (hs_R0_4 t) ((hcond_R0 t).mpr h0) (iblk_R0 V c 0 t) (iblk_R0 V c 1 t) (iblk_R0 V c 2 t) (iblk_R0 V c 3 t) := by
  obtain ⟨n, hn⟩ := t
  cases n with
  | zero => exact rfl
  | succ n => exact (dif_pos h0).trans rfl

theorem outsAt_R0_B (c : Dev nD) (t : Fin cfg0.N) (h0 : ¬t.val % 86 = 0) :
    outsAt_R0 V c t.val t.isLt = out_R0_B c (grid0.coords t) (ms_R0_0 t) (hs_R0_0 t) (ms_R0_1 t) (hs_R0_1 t) (ms_R0_2 t) (hs_R0_2 t) (ms_R0_3 t) (hs_R0_3 t) (ms_R0_4 t) (hs_R0_4 t) (fun h => h0 ((hcond_R0 t).mp h)) (iblk_R0 V c 0 t) (iblk_R0 V c 1 t) (iblk_R0 V c 2 t) (iblk_R0 V c 3 t) (outsAt_R0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of launch 0 on core `c`: the arrays as the launch finds them; after the body each input's buffer at
    its block and the output's at the running sum; the class invariant (the scoped rest and the generator register);
    nothing owed; the gate and up windows hold the fused weight's array at the two halves of the full share. -/
def dat_R0 (c : Dev nD) : Dat τ (Elt F) Unit ℕ (UR sig nD τ) ℕ cfg0 c where
  A w := V c (Pipeline.arrRef spec0 w)
  after w t := match w with
    | ⟨0, _⟩ => iblk_R0 V c 0 t
    | ⟨1, _⟩ => iblk_R0 V c 1 t
    | ⟨2, _⟩ => iblk_R0 V c 2 t
    | ⟨3, _⟩ => iblk_R0 V c 3 t
    | ⟨4, _⟩ => outsAt_R0 V c t.val t.isLt
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq_R0 (c : Dev nD) (w : Fin cfg0.W) : (dat_R0 V c).A w = V c (Pipeline.arrRef spec0 w) := by
  dsimp only [dat_R0]

theorem after_R0_0 (c : Dev nD) (t : Fin cfg0.N) : (dat_R0 V c).after 0 t = iblk_R0 V c 0 t := by dsimp only [dat_R0]
theorem after_R0_1 (c : Dev nD) (t : Fin cfg0.N) : (dat_R0 V c).after 1 t = iblk_R0 V c 1 t := by dsimp only [dat_R0]
theorem after_R0_2 (c : Dev nD) (t : Fin cfg0.N) : (dat_R0 V c).after 2 t = iblk_R0 V c 2 t := by dsimp only [dat_R0]
theorem after_R0_3 (c : Dev nD) (t : Fin cfg0.N) : (dat_R0 V c).after 3 t = iblk_R0 V c 3 t := by dsimp only [dat_R0]
theorem after_R0_4 (c : Dev nD) (t : Fin cfg0.N) : (dat_R0 V c).after 4 t = outsAt_R0 V c t.val t.isLt := by dsimp only [dat_R0]

theorem before_R0_0 (c : Dev nD) (t : Fin cfg0.N) (d) : (dat_R0 V c).before 0 t d = iblk_R0 V c 0 t :=
  before_R0_0_of V (dat_R0 V c) (A_eq_R0 V c 0) (after_R0_0 V c) t d
theorem before_R0_1 (c : Dev nD) (t : Fin cfg0.N) (d) : (dat_R0 V c).before 1 t d = iblk_R0 V c 1 t :=
  before_R0_1_of V (dat_R0 V c) (A_eq_R0 V c 1) (after_R0_1 V c) t d
theorem before_R0_2 (c : Dev nD) (t : Fin cfg0.N) (d) : (dat_R0 V c).before 2 t d = iblk_R0 V c 2 t :=
  before_R0_2_of V (dat_R0 V c) (A_eq_R0 V c 2) (after_R0_2 V c) t d
theorem before_R0_3 (c : Dev nD) (t : Fin cfg0.N) (d) : (dat_R0 V c).before 3 t d = iblk_R0 V c 3 t :=
  before_R0_3_of V (dat_R0 V c) (A_eq_R0 V c 3) (after_R0_3 V c) t d

/-- Away from the reset points the output's current staging buffer holds what the body left at the point before: the
    point is not the first, and the buffer was not written back in between (write-backs happen where the reduction
    coordinate is 85, just before a reset point). -/
theorem before_R0_4_B (c : Dev nD) (t : Fin cfg0.N) (h0 : ¬t.val % 86 = 0) (d) :
    (dat_R0 V c).before 4 t d = outsAt_R0 V c (t.val - 1) (Nat.lt_of_le_of_lt (Nat.sub_le _ _) t.isLt) := by
  have hN : t.val < 344 := lt_of_lt_of_eq t.isLt (show cfg0.N = 344 from N_0)
  rw [Dat.before_out_kept _ 4 rfl t (by omega) (Bool.eq_false_iff.mpr fun h => by have := (flush0_4 _).mp h; dsimp only at this; omega)
    (fun _ => rfl) (fun _ _ => rfl)]
  dsimp only [dat_R0]

/-! ## The body obligation -/

def bodyPre_R0 (c : Dev nD) (t : Fin cfg0.N) : sProp 𝕄 :=
  iprop((dat_R0 V c).Φ t.castSucc ∗ (dat_R0 V c).owesAt () t.castSucc
    ∗ (∃ d, owns (c : Thread nD τ) (ms_R0_0 t) fullShare ((dat_R0 V c).before 0 t d))
    ∗ (∃ d, owns (c : Thread nD τ) (ms_R0_1 t) fullShare ((dat_R0 V c).before 1 t d))
    ∗ (∃ d, owns (c : Thread nD τ) (ms_R0_2 t) fullShare ((dat_R0 V c).before 2 t d))
    ∗ (∃ d, owns (c : Thread nD τ) (ms_R0_3 t) fullShare ((dat_R0 V c).before 3 t d))
    ∗ (∃ d, owns (c : Thread nD τ) (ms_R0_4 t) fullShare ((dat_R0 V c).before 4 t d)))

def bodyPost_R0 (c : Dev nD) (t : Fin cfg0.N) : sProp 𝕄 :=
  iprop((dat_R0 V c).Φ t.succ ∗ (dat_R0 V c).owesAt () t.succ
    ∗ owns (c : Thread nD τ) (ms_R0_0 t) fullShare ((dat_R0 V c).after 0 t)
    ∗ owns (c : Thread nD τ) (ms_R0_1 t) fullShare ((dat_R0 V c).after 1 t)
    ∗ owns (c : Thread nD τ) (ms_R0_2 t) fullShare ((dat_R0 V c).after 2 t)
    ∗ owns (c : Thread nD τ) (ms_R0_3 t) fullShare ((dat_R0 V c).after 3 t)
    ∗ owns (c : Thread nD τ) (ms_R0_4 t) fullShare ((dat_R0 V c).after 4 t))

set_option maxHeartbeats 1600000 in
/-- The body at any point: the inputs' buffers hold their blocks; the closed form of the branch condition says which
    case the point is in; away from the reset points the output's buffer holds what the point before left; so the
    case's run applies, and the invariant and the core's dues pass through unread. -/
theorem sound_body_R0 (c : Dev nD) (t : Fin cfg0.N) :
    bodyPre_R0 V c t ⊢ wp frame (wpE (defs₀ (F := F)) Variants.none c none) Set.univ (bodyAt0 t) (fun _ => bodyPost_R0 V c t) := by
  unfold bodyPre_R0 bodyPost_R0 bodyAt0
  simp only [before_R0_0, before_R0_1, before_R0_2, before_R0_3]
  rw [show (dat_R0 V c).Φ t.succ = (dat_R0 V c).Φ t.castSucc from rfl,
    show (dat_R0 V c).owesAt () t.succ = (dat_R0 V c).owesAt () t.castSucc from rfl,
    after_R0_0, after_R0_1, after_R0_2, after_R0_3, after_R0_4]
  have hN : t.val < 344 := lt_of_lt_of_eq t.isLt (show cfg0.N = 344 from N_0)
  by_cases h0 : t.val % 86 = 0
  · rw [outsAt_R0_A V c t h0]
    unfold out_R0_A
    iintro ⟨HΦ, Ho, ⟨%d0, H0⟩, ⟨%d1, H1⟩, ⟨%d2, H2⟩, ⟨%d3, H3⟩, ⟨%d4, H4⟩⟩
    iapply ((kernelRun_R0_A c (grid0.coords t) _ _ _ _ _ _ _ _ _ _ ((hcond_R0 t).mpr h0) (iblk_R0 V c 0 t) (iblk_R0 V c 1 t) (iblk_R0 V c 2 t) (iblk_R0 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_R0_A c _ _ _ _ _ _ _ _ _ _ _ _ _ _ _ _)
  · rw [outsAt_R0_B V c t h0]
    simp only [before_R0_4_B V c t h0]
    unfold out_R0_B
    iintro ⟨HΦ, Ho, ⟨%d0, H0⟩, ⟨%d1, H1⟩, ⟨%d2, H2⟩, ⟨%d3, H3⟩, ⟨%d4, H4⟩⟩
    iapply ((kernelRun_R0_B c (grid0.coords t) _ _ _ _ _ _ _ _ _ _ (fun h => h0 ((hcond_R0 t).mp h)) (iblk_R0 V c 0 t) (iblk_R0 V c 1 t) (iblk_R0 V c 2 t) (iblk_R0 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_R0_B c _ _ _ _ _ _ _ _ _ _ _ _ _ _ _ _ _)

/-- The library's body obligation, at every point. -/
theorem body_obligation_R0 (c : Dev nD) : BodyObligation (dat_R0 (F := F) V c) (defs₀ (F := F)) Variants.none () Set.univ := fun t => by
  rw [bigSep_W0, bigSep_W0]
  exact sound_body_R0 V c t

end Cert.KernelIdeal.Hand

end
-- ==== Proof.KernelIdeal.Arrays0.lean ====
/-
  Launch 0's arrays among the core's unscoped buffers: the five windows stand on four distinct arrays (the fused gate/up
  weight is read through two windows), so at entry the weight's full share is dealt in halves to its two windows, and
  at exit the halves are joined again.
-/
import proofs.«427235_j25761213841760_3_alg».proof.Proof.KernelIdeal.Dat0
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind launch 0's windows, one by one. -/
theorem arrBufs_R0_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v15) ↦{fullShare} Vv main_v15) ∗ (((c : Thread nD τ).loc main_arg3) ↦{fullShare} Vv main_arg3)
          ∗ (((c : Thread nD τ).loc main_arg4) ↦{fullShare} Vv main_arg4) ∗ (((c : Thread nD τ).loc main_v16) ↦{fullShare} Vv main_v16)) := by
  unfold Pipeline.arrBufs
  exact bigSep_eq_bigSepL_of_eq [main_v15, main_arg3, main_arg4, main_v16] (by decide) (by decide) _

/-- The proof data's arrays, window by window. -/
theorem arrays_R0_eq (c : Dev nD) (G : (w : Fin cfg0.W) → Buf (Elt F) ((cfg0.win w).arr.view.loc (c : Thread nD τ))) :
    ((dat_R0 V c).arrays G : sProp 𝕄)
      = iprop((((c : Thread nD τ).loc main_v15) ↦{fullShare} G 0) ∗ (((c : Thread nD τ).loc main_arg3) ↦{fullShare.left} G 1)
          ∗ (((c : Thread nD τ).loc main_arg3) ↦{fullShare.right} G 2) ∗ (((c : Thread nD τ).loc main_arg4) ↦{fullShare} G 3)
          ∗ (((c : Thread nD τ).loc main_v16) ↦{fullShare} G 4)) := by
  unfold Dat.arrays
  rw [bigSep_W0, (arr_whole0 0).set_eq_univ, (arr_whole0 1).set_eq_univ, (arr_whole0 3).set_eq_univ, (arr_whole0 4).set_eq_univ]
  rfl

/-- ENTRY: the core's unscoped buffers at `V c` are launch 0's arrays at contents read off `V c` — the fused weight's
    full share dealt in halves to its two windows — beside the unscoped buffers no window stands on. -/
theorem entry_R0 (c : Dev nD) (G : (w : Fin cfg0.W) → Buf (Elt F) ((cfg0.win w).arr.view.loc (c : Thread nD τ)))
    (hG : ∀ w, G w = V c (Pipeline.arrRef spec0 w)) :
    (unscopedBufs c (V c) : sProp 𝕄)
      ⊢ iprop((dat_R0 V c).arrays G ∗ Pipeline.unscopedRest (Ix := Unit) (Name := ℕ) (U := UR sig nD τ) (Lvl := ℕ) spec0 c (V c)) := by
  have e0 : G 0 = V c main_v15 := hG 0
  have e1 : G 1 = V c main_arg3 := hG 1
  have e2 : G 2 = V c main_arg3 := hG 2
  have e3 : G 3 = V c main_arg4 := hG 3
  have e4 : G 4 = V c main_v16 := hG 4
  have hs : (unscopedBufs c (V c) : sProp 𝕄) = iprop(Pipeline.arrBufs spec0 c (V c) ∗ Pipeline.unscopedRest spec0 c (V c)) :=
    Pipeline.unscopedBufs_split₀ cfgs 0 winFacts₀0.arr_unscoped c (V c)
  rw [hs, arrBufs_R0_eq, arrays_R0_eq, e0, e1, e2, e3, e4]
  iintro ⟨⟨H15, H3, H4, H16⟩, Hrest⟩
  have hsp : ((((c : Thread nD τ).loc main_arg3) ↦{fullShare} V c main_arg3) : sProp 𝕄)
      ⊢ iprop((((c : Thread nD τ).loc main_arg3) ↦{fullShare.left} V c main_arg3) ∗ (((c : Thread nD τ).loc main_arg3) ↦{fullShare.right} V c main_arg3)) :=
    (pointsTo_share (PosShare.mem_left_op_right fullShare)).1
  ihave H3' := hsp $$ H3
  icases H3' with ⟨H3l, H3r⟩
  isplitr [Hrest]
  · isplitl [H15]; · iexact H15
    isplitl [H3l]; · iexact H3l
    isplitl [H3r]; · iexact H3r
    isplitl [H4]; · iexact H4
    iexact H16
  iexact Hrest

/-- EXIT: launch 0's arrays at contents `G` and the other unscoped buffers at `V c` are the core's unscoped buffers at any
    contents `V'` that have the arrays at `G` and agree with `V c` elsewhere — the fused weight's halves joined. -/
theorem exit_R0 (c : Dev nD) (G : (w : Fin cfg0.W) → Buf (Elt F) ((cfg0.win w).arr.view.loc (c : Thread nD τ)))
    (V' : (b : Ref sig .tc) → Buf (Elt F) ((c : Thread nD τ).loc b))
    (hG : ∀ w, G w = V' (Pipeline.arrRef spec0 w))
    (hrest : ∀ b, b ∉ Finset.univ.image (Pipeline.arrRef spec0) → V' b = V c b) :
    iprop((dat_R0 V c).arrays G ∗ Pipeline.unscopedRest (Ix := Unit) (Name := ℕ) (U := UR sig nD τ) (Lvl := ℕ) spec0 c (V c))
      ⊢ (unscopedBufs c V' : sProp 𝕄) := by
  have e0 : G 0 = V' main_v15 := hG 0
  have e1 : G 1 = V' main_arg3 := hG 1
  have e2 : G 2 = V' main_arg3 := hG 2
  have e3 : G 3 = V' main_arg4 := hG 3
  have e4 : G 4 = V' main_v16 := hG 4
  have hr : (Pipeline.unscopedRest (Ix := Unit) (Name := ℕ) (U := UR sig nD τ) (Lvl := ℕ) spec0 c (V c) : sProp 𝕄)
      = Pipeline.unscopedRest spec0 c V' := by
    unfold Pipeline.unscopedRest
    exact bigSep_congr fun b hb => by rw [hrest b (Finset.mem_sdiff.mp hb).2]
  have hs : (unscopedBufs c V' : sProp 𝕄) = iprop(Pipeline.arrBufs spec0 c V' ∗ Pipeline.unscopedRest spec0 c V') :=
    Pipeline.unscopedBufs_split₀ cfgs 0 winFacts₀0.arr_unscoped c V'
  rw [hs, arrBufs_R0_eq, arrays_R0_eq, e0, e1, e2, e3, e4, hr]
  iintro ⟨⟨H15, H3l, H3r, H4, H16⟩, Hrest⟩
  have hjn : (iprop((((c : Thread nD τ).loc main_arg3) ↦{fullShare.left} V' main_arg3) ∗ (((c : Thread nD τ).loc main_arg3) ↦{fullShare.right} V' main_arg3)) : sProp 𝕄)
      ⊢ (((c : Thread nD τ).loc main_arg3) ↦{fullShare} V' main_arg3) :=
    (pointsTo_share (PosShare.mem_left_op_right fullShare)).2
  ihave H3 := hjn $$ [H3l H3r]
  · isplitl [H3l]; · iexact H3l
    iexact H3r
  isplitr [Hrest]
  · isplitl [H15]; · iexact H15
    isplitl [H3]; · iexact H3
    isplitl [H4]; · iexact H4
    iexact H16
  iexact Hrest

end Cert.KernelIdeal.Hand

end
-- ==== Proof.KernelIdeal.Segs.lean ====
/-
  @main from the launch to the return: the buffers' contents at each boundary between its five items (a stretch of host
  operations, launch 0, a stretch, launch 1, a stretch), every launch's proof data at its entry contents, and each
  launch as a segment over the thread state that holds every unscoped buffer at the boundary's contents.
-/
import proofs.«427235_j25761213841760_3_alg».proof.Proof.KernelIdeal.Arrays0
import proofs.«427235_j25761213841760_3_alg».proof.Proof.KernelIdeal.Arrays1
import proofs.«427235_j25761213841760_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 (c : Dev nD) : Valuation τ sig (Elt F) := fun b => m (c, b)
/-- After the first stretch of host operations (launch 0's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- What launch 0's write-backs leave in its output array. -/
def arr_R0 (c : Dev nD) : Buf (Elt F) ((c : Thread nD τ).loc main_v16) := (dat_R0 (V1 m) c).arrAt 4 cfg0.N
/-- After launch 0: its output array at what it left, every other buffer as entered. -/
def W2 (c : Dev nD) : Valuation τ sig (Elt F) := Function.update (W1 m c) main_v16 (arr_R0 m c)
abbrev V2 : (c : Dev nD) → (b : Ref sig .tc) → Buf (Elt F) ((c : Thread nD τ).loc b) := fun c b => W2 m c b
/-- After the second stretch (launch 1's entry). -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- What launch 1's write-backs leave in its output array. -/
def arr_R1 (c : Dev nD) : Buf (Elt F) ((c : Thread nD τ).loc main_v18) := (dat_R1 (V3 m) c).arrAt 4 cfg1.N
/-- After launch 1. -/
def W4 (c : Dev nD) : Valuation τ sig (Elt F) := Function.update (W3 m c) main_v18 (arr_R1 m c)
abbrev V4 : (c : Dev nD) → (b : Ref sig .tc) → Buf (Elt F) ((c : Thread nD τ).loc b) := fun c b => W4 m c b
/-- After the last stretch: what the final state holds. -/
abbrev W5 (c : Dev nD) : Valuation τ sig (Elt F) := StableHlo.after hostOps2 (W4 m c)

theorem W2_out (c : Dev nD) : W2 m c main_v16 = arr_R0 m c := by
  unfold W2; exact Function.update_self ..
theorem W2_of_ne (c : Dev nD) (b : Ref sig .tc) (h : b ≠ main_v16) : W2 m c b = W1 m c b := by
  unfold W2; exact Function.update_of_ne (StableHlo.devRef_ne_of_ne h) ..
theorem W4_out (c : Dev nD) : W4 m c main_v18 = arr_R1 m c := by
  unfold W4; exact Function.update_self ..
theorem W4_of_ne (c : Dev nD) (b : Ref sig .tc) (h : b ≠ main_v18) : W4 m c b = W3 m c b := by
  unfold W4; exact Function.update_of_ne (StableHlo.devRef_ne_of_ne h) ..

/-- At launch 0's exit each of its arrays holds what the pipeline leaves (an input array is never written), -/
theorem hF_R0 (c : Dev nD) (w : Fin cfg0.W) : (dat_R0 (V1 m) c).arrAt w cfg0.N = V2 m c (Pipeline.arrRef spec0 w) := by
  fin_cases w
  · exact ((dat_R0 (V1 m) c).arrAt_in 0 rfl _).trans (W2_of_ne m c main_v15 (by decide)).symm
  · exact ((dat_R0 (V1 m) c).arrAt_in 1 rfl _).trans (W2_of_ne m c main_arg3 (by decide)).symm
  · exact ((dat_R0 (V1 m) c).arrAt_in 2 rfl _).trans (W2_of_ne m c main_arg3 (by decide)).symm
  · exact ((dat_R0 (V1 m) c).arrAt_in 3 rfl _).trans (W2_of_ne m c main_arg4 (by decide)).symm
  · exact (W2_out m c).symm
/-- and every other buffer what it held at entry. -/
theorem hrest_R0 (c : Dev nD) : ∀ b, b ∉ Finset.univ.image (Pipeline.arrRef spec0) → V2 m c b = V1 m c b :=
  fun b hb => W2_of_ne m c b fun e => hb (Finset.mem_image.mpr ⟨4, Finset.mem_univ _, e.symm⟩)
theorem hF_R1 (c : Dev nD) (w : Fin cfg1.W) : (dat_R1 (V3 m) c).arrAt w cfg1.N = V4 m c (Pipeline.arrRef spec1 w) := by
  fin_cases w
  · exact ((dat_R1 (V3 m) c).arrAt_in 0 rfl _).trans (W4_of_ne m c main_v17 (by decide)).symm
  · exact ((dat_R1 (V3 m) c).arrAt_in 1 rfl _).trans (W4_of_ne m c main_arg5 (by decide)).symm
  · exact ((dat_R1 (V3 m) c).arrAt_in 2 rfl _).trans (W4_of_ne m c main_arg5 (by decide)).symm
  · exact ((dat_R1 (V3 m) c).arrAt_in 3 rfl _).trans (W4_of_ne m c main_arg6 (by decide)).symm
  · exact (W4_out m c).symm
theorem hrest_R1 (c : Dev nD) : ∀ b, b ∉ Finset.univ.image (Pipeline.arrRef spec1) → V4 m c b = V3 m c b :=
  fun b hb => W4_of_ne m c b fun e => hb (Finset.mem_image.mpr ⟨4, Finset.mem_univ _, e.symm⟩)

/-! ## The proof data family and the thread state -/

/-- No launch has a prefetched table. -/
abbrev adm : (p : Fin 2) → (pcfgs (F := F) p).Adm := fun p => (cfgs p).toPCfg_adm
/-- Every launch's proof data, each at its entry contents. -/
def pdats : (p : Fin 2) → (c : Dev nD) → Dat τ (Elt F) Unit ℕ (UR sig nD τ) ℕ (Pipeline.pin (pcfgs (F := F)) adm p) c
  | ⟨0, _⟩ => fun c => dat_R0 (V1 m) c
  | ⟨1, _⟩ => fun c => dat_R1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ## The launches as segments -/

-- a library lemma stated over the pinned configuration unifies with the printed one only when unification may unfold
-- plain definitions in a metavariable's type
set_option backward.isDefEq.respectTransparency.types false in
/-- Launch 0 over the thread state "every unscoped buffer at the boundary's contents, the generator register at some state,
    nothing owed": its arrays split out of the unscoped buffers at entry and put back at exit with the output array at
    what the write-backs leave; the generator register goes into the class invariant and comes back. -/
def reg_R0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation_R0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := entry_R0 (V1 m) c ((pdats m 0 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_R0 (V1 m) c ((pdats m 0 c).arrAt · cfg0.N) (V2 m c) (hF_R0 m c) (hrest_R0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Launch 1 over the thread state "every unscoped buffer at the boundary's contents, the generator register at some state,
    nothing owed": its arrays split out of the unscoped buffers at entry and put back at exit with the output array at
    what the write-backs leave; the generator register goes into the class invariant and comes back. -/
def reg_R1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation_R1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := entry_R1 (V3 m) c ((pdats m 1 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit_R1 (V3 m) c ((pdats m 1 c).arrAt · cfg1.N) (V4 m c) (hF_R1 m c) (hrest_R1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KernelIdeal.Run.lean ====
/-
  THE RUN of @main: from any memory with zero counters every weakly fair execution terminates, nothing faulting, and
  the final memory holds every unscoped buffer at the last boundary's contents — the launch's contents carried through
  the three stretches of host operations and the two launches.
-/
import proofs.«427235_j25761213841760_3_alg».proof.Proof.KernelIdeal.Segs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues. -/
abbrev Tₙ (c : Dev nD) : sProp 𝕄 := iprop(StableHlo.held (c : Thread nD τ) (Pipeline.ucRefs τ sig) (W5 m c) ∗ ∃ r, prngReg c r)

/-- @main's five items in order. -/
abbrev segs : List (Pipeline.Seg (pcfgs (F := F)) adm (pdats m) () defs₀ 𝒱₀ L lv) :=
  [ .host (hseg hostOps0 hostOps0_sub hostOps0_fresh (W0 m)),
    .region (reg_R0 m),
    .host (hseg hostOps1 hostOps1_sub hostOps1_fresh (W2 m)),
    .region (reg_R1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- The run. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c =>
      show (iprop(StableHlo.held (c : Thread nD τ) (Pipeline.ucRefs τ sig) (W5 m c) ∗ R c) : sProp 𝕄)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.KernelIdeal.HostValue.lean ====
/-
  The kernel program's host operations as pure terms.

  Around its two kernel launches the program runs three stretches of array operations: before the first launch it
  flattens the token array to a matrix, turns each index vector into a column of row numbers (a negative index `i`
  read as `i + 4096`), gathers each expert's rows and rounds the first expert's rows to sixteen bits; between the
  launches it rounds the second expert's rows; after them it scatters the two launches' results into a zero matrix,
  first expert first, and puts the unit batch axis back. Each stretch's results are written here as terms over the
  buffers the stretch starts from, whatever those hold; the second part reads the layout operations at an index over
  the extended reals.
-/
import proofs.«427235_j25761213841760_3_alg».proof.Proof.Gen.KernelIdeal.Launch
import proofs.«427235_j25761213841760_3_alg».proof.Proof.Gen.KernelIdeal.Regions
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.SL.Sem
  Idealize.ShloMosaic.StableHlo Idealize.ShloMosaic.ValueIdx

section Stretches

variable {F : FTy → Type} [FloatOps F]

/-- An index vector as a column of row numbers: a negative index `i` is read as `i + 4096`. -/
def normIdx (ids : (⟨S2048, .i32⟩ : BufTy).Contents (Elt F)) : (⟨S2048x1, .i32⟩ : BufTy).Contents (Elt F) :=
  broadcastInDim S2048x1 ![0] bcast_S2048_S2048x1_0
    (select (cmpi .slt ids (broadcastInDim S2048 ![] bcast_S_S2048 (constantI S_ 32 0#32)))
      (addi ids (broadcastInDim S2048 ![] bcast_S_S2048 (constantI S_ 32 4096#32))) ids)

/-- The rows of the flattened token matrix an index vector selects. -/
def gathered (x0 : (⟨S1x4096x4096, .f32⟩ : BufTy).Contents (Elt F)) (ids : (⟨S2048, .i32⟩ : BufTy).Contents (Elt F)) :
    (⟨S2048x4096, .f32⟩ : BufTy).Contents (Elt F) :=
  Host.gather gather_S4096x4096_S2048x1_S2048x4096_1_0_n_n_0_1_14096
    (shapeCast S4096x4096 x0 shapeCasts_S1x4096x4096_S4096x4096) (normIdx ids)

/-- Before the first launch: the first expert's rows, rounded to sixteen bits. -/
theorem hostOps0_v15 (W : Valuation τ sig (Elt F)) :
    StableHlo.after hostOps0 W (Proc.devRef .tc main_v15)
      = (truncf .bf16 · bitsLt_bf16_f32) (gathered (W main_arg0) (W main_arg1)) := by
  show StableHlo.after hostOps0 W (Proc.devRef .tc main_v15) = _
  after_results
  rfl

/-- Before the first launch: the second expert's rows. -/
theorem hostOps0_v14 (W : Valuation τ sig (Elt F)) :
    StableHlo.after hostOps0 W (Proc.devRef .tc main_v14) = gathered (W main_arg0) (W main_arg2) := by
  show StableHlo.after hostOps0 W (Proc.devRef .tc main_v14) = _
  after_results
  rfl

/-- The first stretch leaves every buffer it does not write as it was. -/
theorem hostOps0_of (W : Valuation τ sig (Elt F)) (r : Ref sig .tc) (h : r ∉ hostOps0_W) :
    StableHlo.after hostOps0 W (Proc.devRef .tc r) = W r :=
  StableHlo.after_of_writes_sub hostOps0 W hostOps0_writes h

theorem hostOps0_arg0 (W : Valuation τ sig (Elt F)) :
    StableHlo.after hostOps0 W (Proc.devRef .tc main_arg0) = W main_arg0 := hostOps0_of W main_arg0 (by decide)
theorem hostOps0_arg1 (W : Valuation τ sig (Elt F)) :
    StableHlo.after hostOps0 W (Proc.devRef .tc main_arg1) = W main_arg1 := hostOps0_of W main_arg1 (by decide)
theorem hostOps0_arg2 (W : Valuation τ sig (Elt F)) :
    StableHlo.after hostOps0 W (Proc.devRef .tc main_arg2) = W main_arg2 := hostOps0_of W main_arg2 (by decide)
theorem hostOps0_arg3 (W : Valuation τ sig (Elt F)) :
    StableHlo.after hostOps0 W (Proc.devRef .tc main_arg3) = W main_arg3 := hostOps0_of W main_arg3 (by decide)
theorem hostOps0_arg4 (W : Valuation τ sig (Elt F)) :
    StableHlo.after hostOps0 W (Proc.devRef .tc main_arg4) = W main_arg4 := hostOps0_of W main_arg4 (by decide)
theorem hostOps0_arg5 (W : Valuation τ sig (Elt F)) :
    StableHlo.after hostOps0 W (Proc.devRef .tc main_arg5) = W main_arg5 := hostOps0_of W main_arg5 (by decide)
theorem hostOps0_arg6 (W : Valuation τ sig (Elt F)) :
    StableHlo.after hostOps0 W (Proc.devRef .tc main_arg6) = W main_arg6 := hostOps0_of W main_arg6 (by decide)

/-- Between the launches: the second expert's rows, rounded to sixteen bits. -/
theorem hostOps1_v17 (W : Valuation τ sig (Elt F)) :
    StableHlo.after hostOps1 W (Proc.devRef .tc main_v17) = (truncf .bf16 · bitsLt_bf16_f32) (W main_v14) := by
  show StableHlo.after hostOps1 W (Proc.devRef .tc main_v17) = _
  after_results

/-- The second stretch leaves every buffer but the one it writes as it was. -/
theorem hostOps1_of (W : Valuation τ sig (Elt F)) (r : Ref sig .tc) (h : r ∉ hostOps1_W) :
    StableHlo.after hostOps1 W (Proc.devRef .tc r) = W r :=
  StableHlo.after_of_writes_sub hostOps1 W hostOps1_writes h

/-- After the launches: the two results scattered into a zero matrix, the first expert's first, with the unit batch
    axis put back. -/
theorem hostOps2_v34 (W : Valuation τ sig (Elt F)) :
    StableHlo.after hostOps2 W (Proc.devRef .tc main_v34)
      = broadcastInDim S1x4096x4096 ![1, 2] bcast_S4096x4096_S1x4096x4096_1_2
          (Host.scatter scatter_S4096x4096_S2048x1_S2048x4096_1_0_0_1 (fun _ b => b)
            (Host.scatter scatter_S4096x4096_S2048x1_S2048x4096_1_0_0_1 (fun _ b => b)
              (broadcastInDim S4096x4096 ![] bcast_S_S4096x4096 (constant (F := F) S_ .f32 0x00000000#32))
              (normIdx (W main_arg1)) (W main_v16))
            (normIdx (W main_arg2)) (W main_v18)) := by
  show StableHlo.after hostOps2 W (Proc.devRef .tc main_v34) = _
  after_results_simp
  rfl

/-- The third stretch leaves every buffer it does not write as it was. -/
theorem hostOps2_of (W : Valuation τ sig (Elt F)) (r : Ref sig .tc) (h : r ∉ hostOps2_W) :
    StableHlo.after hostOps2 W (Proc.devRef .tc r) = W r :=
  StableHlo.after_of_writes_sub hostOps2 W hostOps2_writes h

end Stretches

/-! ## The layout operations read at an index, over the extended reals -/

section AtIndex

/-- Putting the unit batch axis back moves no element: entry `(0, r, c)` is the matrix's entry `(r, c)`. -/
theorem bcast12_apply (x : S4096x4096.Idx → EReal) (r c : Fin 4096) :
    broadcastInDim S1x4096x4096 ![1, 2] bcast_S4096x4096_S1x4096x4096_1_2 x (ix3 0 r c) = x (ix2 r c) :=
  broadcastInDim_apply _ bcast_S4096x4096_S1x4096x4096_1_2 x (ix3 0 r c) (ix2 r c) (fun a => match a with
    | ⟨0, _⟩ => by show r.val = if (4096 : Nat) = 1 then 0 else r.val; rw [if_neg (by decide)]
    | ⟨1, _⟩ => by show c.val = if (4096 : Nat) = 1 then 0 else c.val; rw [if_neg (by decide)])

/-- Dropping the unit batch axis moves no element: the matrix's entry `(r, c)` is entry `(0, r, c)`, the two having
    the same row-major position `r · 4096 + c`. -/
theorem reshape_apply (x0 : S1x4096x4096.Idx → EReal) (r c : Fin 4096) :
    shapeCast S4096x4096 x0 shapeCasts_S1x4096x4096_S4096x4096 (ix2 r c) = x0 (ix3 0 r c) := by
  refine shapeCast_apply x0 _ (ix2 r c) (ix3 0 r c) ?_
  rw [Shape.rowMajor_val_three, Shape.rowMajor_val_two]
  show ((0 : Fin 1).val * 4096 + r.val) * 4096 + c.val = r.val * 4096 + c.val
  simp

/-- A scalar zero broadcast to any shape is zero at every index. -/
theorem zeros_apply {t : Shape} (dims : Fin S_.rank → Fin t.rank) (h : S_.BroadcastsInDim t dims) (i : t.Idx) :
    broadcastInDim t dims h (constant (F := Ideal) S_ .f32 0x00000000#32) i = 0 := by
  rw [broadcastInDim_apply dims h _ i (fun a => a.elim0) (fun a => a.elim0)]
  exact Ideal.ofBits_zero_f32

/-- The zero matrix the scatters start from. -/
theorem zeros2_apply (i : S4096x4096.Idx) :
    broadcastInDim S4096x4096 ![] bcast_S_S4096x4096 (constant (F := Ideal) S_ .f32 0x00000000#32) i = 0 :=
  zeros_apply _ _ i

/-- A zero array of shape `[1, 4096, 4096]`. -/
theorem zeros3_apply (h : S_.BroadcastsInDim S1x4096x4096 (![] : Fin 0 → Fin S1x4096x4096.rank)) (i : S1x4096x4096.Idx) :
    broadcastInDim S1x4096x4096 ![] h (constant (F := Ideal) S_ .f32 0x00000000#32) i = 0 :=
  zeros_apply _ _ i

end AtIndex

end Cert.KernelIdeal.Hand

end
-- ==== Proof.KernelIdeal.Args.lean ====
/-
  No item of @main writes an argument: a buffer that no stretch of host operations writes and no launch may change
  holds, at each boundary, what it held at launch. Walking back from a boundary, every stretch leaves the buffers outside
  its list of result buffers alone, and a launch changes only its output array.
-/
import proofs.«427235_j25761213841760_3_alg».proof.Proof.KernelIdeal.Segs
import proofs.«427235_j25761213841760_3_alg».proof.Proof.KernelIdeal.HostValue

noncomputable section

namespace Cert.KernelIdeal.Hand

open Cert.KernelIdeal Cert.KernelIdeal.Gen
open Idealize.ShloMosaic Idealize.ShloMosaic.TcCoe
open Idealize.SL.Sem

variable {F : FTy → Type} [FloatOps F] (m : (ℓ : Loc nD τ sig) → Buf (Elt F) ℓ)

/-- A buffer the first stretch does not write is, at launch 0's entry, as launched. -/
theorem W1_arg (c : Dev nD) (r : Ref sig .tc) (h0 : r ∉ hostOps0_W) :
    W1 m c (Proc.devRef .tc r) = m ((c : Thread nD τ).loc r) :=
  (hostOps0_of (W0 m c) r h0).trans rfl

/-- A buffer the first three items leave alone is, at launch 1's entry, as launched. -/
theorem W3_arg (c : Dev nD) (r : Ref sig .tc) (h1 : r ∉ hostOps1_W) (h16 : r ≠ main_v16) (h0 : r ∉ hostOps0_W) :
    W3 m c (Proc.devRef .tc r) = m ((c : Thread nD τ).loc r) :=
  (hostOps1_of (W2 m c) r h1).trans <| (W2_of_ne m c r h16).trans <| W1_arg m c r h0

/-- A buffer the first four items leave alone is, after launch 1, as launched. -/
theorem W4_arg (c : Dev nD) (r : Ref sig .tc) (h18 : r ≠ main_v18) (h1 : r ∉ hostOps1_W) (h16 : r ≠ main_v16)
    (h0 : r ∉ hostOps0_W) : W4 m c (Proc.devRef .tc r) = m ((c : Thread nD τ).loc r) :=
  (W4_of_ne m c r h18).trans (W3_arg m c r h1 h16 h0)

/-- A buffer no item writes holds at the end what it held at launch. -/
theorem W5_of (c : Dev nD) (r : Ref sig .tc) (h2 : r ∉ hostOps2_W) (h18 : r ≠ main_v18) (h1 : r ∉ hostOps1_W)
    (h16 : r ≠ main_v16) (h0 : r ∉ hostOps0_W) :
    W5 m c (Proc.devRef .tc r) = m ((c : Thread nD τ).loc r) :=
  (hostOps2_of (W4 m c) r h2).trans (W4_arg m c r h18 h1 h16 h0)

theorem W5_arg0 (c : Dev nD) : W5 m c (Proc.devRef .tc main_arg0) = m ((c : Thread nD τ).loc main_arg0) :=
  W5_of m c main_arg0 (by decide) (by decide) (by decide) (by decide) (by decide)
theorem W5_arg1 (c : Dev nD) : W5 m c (Proc.devRef .tc main_arg1) = m ((c : Thread nD τ).loc main_arg1) :=
  W5_of m c main_arg1 (by decide) (by decide) (by decide) (by decide) (by decide)
theorem W5_arg2 (c : Dev nD) : W5 m c (Proc.devRef .tc main_arg2) = m ((c : Thread nD τ).loc main_arg2) :=
  W5_of m c main_arg2 (by decide) (by decide) (by decide) (by decide) (by decide)
theorem W5_arg3 (c : Dev nD) : W5 m c (Proc.devRef .tc main_arg3) = m ((c : Thread nD τ).loc main_arg3) :=
  W5_of m c main_arg3 (by decide) (by decide) (by decide) (by decide) (by decide)
theorem W5_arg4 (c : Dev nD) : W5 m c (Proc.devRef .tc main_arg4) = m ((c : Thread nD τ).loc main_arg4) :=
  W5_of m c main_arg4 (by decide) (by decide) (by decide) (by decide) (by decide)
theorem W5_arg5 (c : Dev nD) : W5 m c (Proc.devRef .tc main_arg5) = m ((c : Thread nD τ).loc main_arg5) :=
  W5_of m c main_arg5 (by decide) (by decide) (by decide) (by decide) (by decide)
theorem W5_arg6 (c : Dev nD) : W5 m c (Proc.devRef .tc main_arg6) = m ((c : Thread nD τ).loc main_arg6) :=
  W5_of m c main_arg6 (by decide) (by decide) (by decide) (by decide) (by decide)

end Cert.KernelIdeal.Hand

end
-- ==== Proof.Spec.lean ====
/-
  The mathematics both programs compute, over the extended reals, token by token.

  One expert's SwiGLU MLP of a token matrix `x : [2048, 4096]` with a fused gate/up weight `wgu : [4096, 22016]`
  (gate columns `0 … 11007`, up columns `11008 … 22015`) and a down projection `wd : [11008, 4096]`:
  `pre t k = Σ_h x[t,h] · wgu[h,k]`, `act t k = (pre t k · σ(pre t k)) · pre t (11008 + k)` with `σ` the logistic
  function, and `mlpAt t j = Σ_{k < 11008} act t k · wd[k, j]`. The hidden axis `11008 = 86 · 128` is also cut into 86
  blocks of 128 (`blockC`), the order in which a blocked evaluation accumulates it (`partialC`).
-/
import Idealize.ShloMosaic.PureOps.Ideal
import Idealize.ShloMosaic.Lib.ValueIdx

noncomputable section

namespace Cert.Spec

open Idealize.ShloMosaic Idealize.ShloMosaic.ValueIdx

abbrev SX : Shape := ⟨2, ![2048, 4096]⟩
abbrev SWgu : Shape := ⟨2, ![4096, 22016]⟩
abbrev SWd : Shape := ⟨2, ![11008, 4096]⟩

/-- A token's pre-activation at column `k` of the fused gate/up weight. -/
def pre (x : SX.Idx → EReal) (wgu : SWgu.Idx → EReal) (t : Fin 2048) (k : Fin 22016) : EReal :=
  ∑ h : Fin 4096, x (ix2 t h) * wgu (ix2 h k)

/-- The gate column and the up column of hidden unit `k`. -/
abbrev gcol (k : Fin 11008) : Fin 22016 := ⟨k.val, by omega⟩
abbrev ucol (k : Fin 11008) : Fin 22016 := ⟨11008 + k.val, by omega⟩

/-- The gated hidden activation: `silu(gate) · up`. -/
def act (x : SX.Idx → EReal) (wgu : SWgu.Idx → EReal) (t : Fin 2048) (k : Fin 11008) : EReal :=
  (pre x wgu t (gcol k) * Ideal.logistic (pre x wgu t (gcol k))) * pre x wgu t (ucol k)

/-- The MLP's output at token `t`, feature `j`. -/
def mlpAt (x : SX.Idx → EReal) (wgu : SWgu.Idx → EReal) (wd : SWd.Idx → EReal) (t : Fin 2048) (j : Fin 4096) : EReal :=
  ∑ k : Fin 11008, act x wgu t k * wd (ix2 k j)

/-- Hidden unit `k'` of block `i` (blocks of 128 units). -/
abbrev hid (i : Fin 86) (k' : Fin 128) : Fin 11008 := ⟨i.val * 128 + k'.val, by omega⟩

/-- Block `i`'s contribution to the output. -/
def blockC (x : SX.Idx → EReal) (wgu : SWgu.Idx → EReal) (wd : SWd.Idx → EReal) (t : Fin 2048) (j : Fin 4096) (i : Fin 86) : EReal :=
  ∑ k' : Fin 128, act x wgu t (hid i k') * wd (ix2 (hid i k') j)

/-- The first `n` blocks' contributions, summed. -/
def partialC (x : SX.Idx → EReal) (wgu : SWgu.Idx → EReal) (wd : SWd.Idx → EReal) (t : Fin 2048) (j : Fin 4096) (n : ℕ) : EReal :=
  ∑ i : Fin 86, if i.val < n then blockC x wgu wd t j i else 0

/-- The MLP's output as a matrix. -/
def mlpMat (x : SX.Idx → EReal) (wgu : SWgu.Idx → EReal) (wd : SWd.Idx → EReal) : SX.Idx → EReal :=
  fun i => mlpAt x wgu wd (i 0) (i 1)

theorem mlpMat_apply (x : SX.Idx → EReal) (wgu : SWgu.Idx → EReal) (wd : SWd.Idx → EReal) (t : Fin 2048) (j : Fin 4096) :
    mlpMat x wgu wd (ix2 t j) = mlpAt x wgu wd t j := rfl

end Cert.Spec

end
-- ==== Proof.KernelIdeal.KernelOut.lean ====
/-
  The idealized kernel's result as one term of its seven arguments: each expert's tokens gathered by their (normalised)
  ids, the expert's MLP of them, the two results scattered — the first expert's rows first, then the second's over
  them — into a zero matrix, and the leading unit axis put back.
-/
import proofs.«427235_j25761213841760_3_alg».proof.Proof.KernelIdeal.HostValue
import proofs.«427235_j25761213841760_3_alg».proof.Proof.Spec

noncomputable section

namespace Cert.KernelIdeal.Hand

open Cert.KernelIdeal Cert.KernelIdeal.Gen Idealize.ShloMosaic Idealize.ShloMosaic.TcCoe Idealize.SL.Sem Idealize.ShloMosaic.StableHlo Idealize.ShloMosaic.ValueIdx

/-- One expert's output rows: the MLP of the tokens its ids pick. -/
def expertOut (x0 : (⟨S1x4096x4096, .f32⟩ : BufTy).Contents (Elt Ideal)) (ids : (⟨S2048, .i32⟩ : BufTy).Contents (Elt Ideal))
    (wgu : (⟨S4096x22016, .f32⟩ : BufTy).Contents (Elt Ideal)) (wd : (⟨S11008x4096, .f32⟩ : BufTy).Contents (Elt Ideal)) :
    (⟨S2048x4096, .f32⟩ : BufTy).Contents (Elt Ideal) :=
  Cert.Spec.mlpMat (truncf (F := Ideal) (s := S2048x4096) (φ := .f32) .bf16 (gathered (F := Ideal) x0 ids) bitsLt_bf16_f32) wgu wd

/-- The kernel's result. -/
def kernelOut (x0 : (⟨S1x4096x4096, .f32⟩ : BufTy).Contents (Elt Ideal)) (x1 x2 : (⟨S2048, .i32⟩ : BufTy).Contents (Elt Ideal))
    (x3 : (⟨S4096x22016, .f32⟩ : BufTy).Contents (Elt Ideal)) (x4 : (⟨S11008x4096, .f32⟩ : BufTy).Contents (Elt Ideal))
    (x5 : (⟨S4096x22016, .f32⟩ : BufTy).Contents (Elt Ideal)) (x6 : (⟨S11008x4096, .f32⟩ : BufTy).Contents (Elt Ideal)) :
    (⟨S1x4096x4096, .f32⟩ : BufTy).Contents (Elt Ideal) :=
  broadcastInDim S1x4096x4096 ![1, 2] bcast_S4096x4096_S1x4096x4096_1_2
    (Host.scatter scatter_S4096x4096_S2048x1_S2048x4096_1_0_0_1 (fun _ b => b)
      (Host.scatter scatter_S4096x4096_S2048x1_S2048x4096_1_0_0_1 (fun _ b => b)
        (broadcastInDim S4096x4096 ![] bcast_S_S4096x4096 (constant (F := Ideal) S_ .f32 0x00000000#32))
        (normIdx x1) (expertOut x0 x1 x3 x4))
      (normIdx x2) (expertOut x0 x2 x5 x6))

end Cert.KernelIdeal.Hand

end
-- ==== Proof.KerPay.lean ====
/-
  One grid step of the blocked SwiGLU MLP, read at an element.

  A grid step holds a token block `x : [512, 4096]`, one 128-column block of the gate weights and of the up weights
  (`[4096, 128]` each) and the matching 128-row block of the down projection (`[128, 4096]`). Its payload is
  `acc + ((g · σ(g)) · u) · wd` with `g = x · wgate`, `u = x · wup`; at element `(p, q)` this is
  `acc[p,q] + Σ_{k' < 128} ((g[p,k'] · σ(g[p,k'])) · u[p,k']) · wd[k',q]`, every contraction a plain finite sum over the
  extended reals and every format change the identity there. The first step along the hidden axis starts from the
  zero block.

  Then the algebra of accumulating the hidden axis `11008 = 86 · 128` block by block: the partial sums start at zero,
  each step adds one block's contribution, and after 86 steps the partial sum is the whole hidden-axis sum.
-/
import proofs.«427235_j25761213841760_3_alg».proof.Proof.Gen.KernelIdeal.Skeleton
import proofs.«427235_j25761213841760_3_alg».proof.Proof.Spec
import Idealize.ShloMosaic.PureOps.Ideal.Laws
import Idealize.ShloMosaic.Lib.ValueIdx
import Idealize.ShloMosaic.Lib.Pipeline.Value

noncomputable section

namespace Cert.KernelIdeal.KerPay

open Cert.KernelIdeal Cert.KernelIdeal.Gen Idealize.ShloMosaic Idealize.ShloMosaic.ValueIdx

/-! ## The two contractions' operand indices, axis by axis -/

theorem lhs_gu_0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem lhs_gu_1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
theorem rhs_gu_0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
theorem rhs_gu_1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

theorem lhs_dn_0 (i : S512x4096.Idx) (q : dot_S512x128_S128x4096_S512x4096_1_0_0_1_n_n.contr.Idx) :
    (dot_S512x128_S128x4096_S512x4096_1_0_0_1_n_n.lhsIdx i q 0).val = (i 0).val := by
  unfold DotDims.lhsIdx
  rw [dif_neg (show ¬(0 : Fin S512x128.rank) ∈ dot_S512x128_S128x4096_S512x4096_1_0_0_1_n_n.lhsBatch by decide), dif_pos (show (0 : Fin S512x128.rank) ∈ dot_S512x128_S128x4096_S512x4096_1_0_0_1_n_n.lhsNonContracting by decide)]
  rfl
theorem lhs_dn_1 (i : S512x4096.Idx) (q : dot_S512x128_S128x4096_S512x4096_1_0_0_1_n_n.contr.Idx) :
    (dot_S512x128_S128x4096_S512x4096_1_0_0_1_n_n.lhsIdx i q 1).val = (q ⟨0, by decide⟩).val :=
  dot_S512x128_S128x4096_S512x4096_1_0_0_1_n_n.lhsIdx_val_of_single rfl i q
theorem rhs_dn_0 (i : S512x4096.Idx) (q : dot_S512x128_S128x4096_S512x4096_1_0_0_1_n_n.contr.Idx) :
    (dot_S512x128_S128x4096_S512x4096_1_0_0_1_n_n.rhsIdx i q 0).val = (q ⟨0, by decide⟩).val :=
  dot_S512x128_S128x4096_S512x4096_1_0_0_1_n_n.rhsIdx_val_of_single rfl i q
theorem rhs_dn_1 (i : S512x4096.Idx) (q : dot_S512x128_S128x4096_S512x4096_1_0_0_1_n_n.contr.Idx) :
    (dot_S512x128_S128x4096_S512x4096_1_0_0_1_n_n.rhsIdx i q 1).val = (i 1).val := by
  unfold DotDims.rhsIdx
  rw [dif_neg (show ¬(1 : Fin S128x4096.rank) ∈ dot_S512x128_S128x4096_S512x4096_1_0_0_1_n_n.rhsBatch by decide), dif_pos (show (1 : Fin S128x4096.rank) ∈ dot_S512x128_S128x4096_S512x4096_1_0_0_1_n_n.rhsNonContracting by decide)]
  rfl

/-! ## Each contraction into a zero accumulator, read at an index: the plain row-by-column sum -/

theorem matmul_gu_apply (l : FVec Ideal S512x4096 .bf16) (r : FVec Ideal S4096x128 .bf16) (p : Fin 512) (q : Fin 128) :
    matmul dot_S512x4096_S4096x128_S512x128_1_0_0_1_n_n none l r (constant (F := Ideal) S512x128 .f32 0x00000000#32) (ix2 p q)
      = ∑ h : Fin 4096, l (ix2 p h) * r (ix2 h q) := by
  simp only [matmul]
  rw [Ideal.matmul_constant_zero_apply, ← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  have el : dot_S512x4096_S4096x128_S512x128_1_0_0_1_n_n.lhsIdx (ix2 p q) ((contrEquiv1 dot_S512x4096_S4096x128_S512x128_1_0_0_1_n_n 4096 rfl rfl).symm k) = ix2 p k := funext fun a => Fin.ext (by
    match a with
    | ⟨0, _⟩ => exact lhs_gu_0 _ _
    | ⟨1, _⟩ => exact (lhs_gu_1 _ _).trans hk)
  have er : dot_S512x4096_S4096x128_S512x128_1_0_0_1_n_n.rhsIdx (ix2 p q) ((contrEquiv1 dot_S512x4096_S4096x128_S512x128_1_0_0_1_n_n 4096 rfl rfl).symm k) = ix2 k q := funext fun a => Fin.ext (by
    match a with
    | ⟨0, _⟩ => exact (rhs_gu_0 _ _).trans hk
    | ⟨1, _⟩ => exact rhs_gu_1 _ _)
  rw [el, er]

theorem matmul_dn_apply (l : FVec Ideal S512x128 .bf16) (r : FVec Ideal S128x4096 .bf16) (p : Fin 512) (q : Fin 4096) :
    matmul dot_S512x128_S128x4096_S512x4096_1_0_0_1_n_n none l r (constant (F := Ideal) S512x4096 .f32 0x00000000#32) (ix2 p q)
      = ∑ h : Fin 128, l (ix2 p h) * r (ix2 h q) := by
  simp only [matmul]
  rw [Ideal.matmul_constant_zero_apply, ← Equiv.sum_comp (contrEquiv1 dot_S512x128_S128x4096_S512x4096_1_0_0_1_n_n 128 rfl rfl).symm]
  refine Finset.sum_congr rfl fun k _ => ?_
  have hk := contrEquiv1_symm_val dot_S512x128_S128x4096_S512x4096_1_0_0_1_n_n 128 rfl rfl k
  have el : dot_S512x128_S128x4096_S512x4096_1_0_0_1_n_n.lhsIdx (ix2 p q) ((contrEquiv1 dot_S512x128_S128x4096_S512x4096_1_0_0_1_n_n 128 rfl rfl).symm k) = ix2 p k := funext fun a => Fin.ext (by
    match a with
    | ⟨0, _⟩ => exact lhs_dn_0 _ _
    | ⟨1, _⟩ => exact (lhs_dn_1 _ _).trans hk)
  have er : dot_S512x128_S128x4096_S512x4096_1_0_0_1_n_n.rhsIdx (ix2 p q) ((contrEquiv1 dot_S512x128_S128x4096_S512x4096_1_0_0_1_n_n 128 rfl rfl).symm k) = ix2 k q := funext fun a => Fin.ext (by
    match a with
    | ⟨0, _⟩ => exact (rhs_dn_0 _ _).trans hk
    | ⟨1, _⟩ => exact rhs_dn_1 _ _)
  rw [el, er]

/-! ## The gated activation at an index -/

/-- `silu(g) · u` narrowed to bf16, at an index: the format change is the identity on extended reals. -/
theorem act_apply (g u : FVec Ideal S512x128 .f32) (i : S512x128.Idx) :
    (truncf .bf16 (mulf (mulf g (logistic g)) u) bitsLt_bf16_f32 : FVec Ideal S512x128 .bf16) i
      = (g i * Ideal.logistic (g i)) * u i := rfl

/-! ## The payloads at an index -/

/-- The zero block the first grid step along the hidden axis writes. -/
theorem k0_pay1_apply (p : Fin 512) (q : Fin 4096) : k0_pay1 (F := Ideal) (ix2 p q) = 0 := by
  unfold k0_pay1
  exact Ideal.ofBits_zero_f32

/-- One grid step's payload: the accumulator block plus this hidden block's contribution,
    `Σ_{k'} ((g · σ(g)) · u) · wd[k', q]` with `g`, `u` the gate and up pre-activations of the block. -/
theorem k0_pay2_apply (v3 : Vec Ideal S512x4096 .bf16) (v5 v7 : Vec Ideal S4096x128 .f32) (v9 : Vec Ideal S128x4096 .f32)
    (v17 : Vec Ideal S512x4096 .f32) (p : Fin 512) (q : Fin 4096) :
    k0_pay2 v3 v5 v7 v9 v17 (ix2 p q) = v17 (ix2 p q) + ∑ k' : Fin 128,
      (((∑ h : Fin 4096, v3 (ix2 p h) * v5 (ix2 h k')) * Ideal.logistic (∑ h : Fin 4096, v3 (ix2 p h) * v5 (ix2 h k')))
        * (∑ h : Fin 4096, v3 (ix2 p h) * v7 (ix2 h k'))) * v9 (ix2 k' q) := by
  unfold k0_pay2
  -- the two same-shape casts are the identity
  rw [shapeCast_self v17, shapeCast_self v3]
  -- the sum at the index, its first term the accumulator
  refine (addf_apply _ _ _).trans ?_
  refine congrArg (v17 (ix2 p q) + ·) ?_
  -- the down projection, row by column; the format changes are the identity on extended reals
  refine (matmul_dn_apply _ _ p q).trans ?_
  refine Finset.sum_congr rfl fun k' _ => ?_
  refine congrArg (· * v9 (ix2 k' q)) ?_
  -- the gate and up pre-activations of hidden unit k'
  have hg : matmul dot_S512x4096_S4096x128_S512x128_1_0_0_1_n_n none v3 (truncf .bf16 v5 bitsLt_bf16_f32)
      (constant (F := Ideal) S512x128 .f32 0x00000000#32) (ix2 p k') = ∑ h : Fin 4096, v3 (ix2 p h) * v5 (ix2 h k') :=
    matmul_gu_apply _ _ p k'
  have hu : matmul dot_S512x4096_S4096x128_S512x128_1_0_0_1_n_n none v3 (truncf .bf16 v7 bitsLt_bf16_f32)
      (constant (F := Ideal) S512x128 .f32 0x00000000#32) (ix2 p k') = ∑ h : Fin 4096, v3 (ix2 p h) * v7 (ix2 h k') :=
    matmul_gu_apply _ _ p k'
  refine (act_apply _ _ _).trans ?_
  exact congrArg₂ (· * ·) (congrArg₂ (· * ·) hg (congrArg Ideal.logistic hg)) hu

/-- The zero block the first grid step along the hidden axis writes. -/
theorem k1_pay1_apply (p : Fin 512) (q : Fin 4096) : k1_pay1 (F := Ideal) (ix2 p q) = 0 := by
  unfold k1_pay1
  exact Ideal.ofBits_zero_f32

/-- One grid step's payload: the accumulator block plus this hidden block's contribution,
    `Σ_{k'} ((g · σ(g)) · u) · wd[k', q]` with `g`, `u` the gate and up pre-activations of the block. -/
theorem k1_pay2_apply (v3 : Vec Ideal S512x4096 .bf16) (v5 v7 : Vec Ideal S4096x128 .f32) (v9 : Vec Ideal S128x4096 .f32)
    (v17 : Vec Ideal S512x4096 .f32) (p : Fin 512) (q : Fin 4096) :
    k1_pay2 v3 v5 v7 v9 v17 (ix2 p q) = v17 (ix2 p q) + ∑ k' : Fin 128,
      (((∑ h : Fin 4096, v3 (ix2 p h) * v5 (ix2 h k')) * Ideal.logistic (∑ h : Fin 4096, v3 (ix2 p h) * v5 (ix2 h k')))
        * (∑ h : Fin 4096, v3 (ix2 p h) * v7 (ix2 h k'))) * v9 (ix2 k' q) := by
  unfold k1_pay2
  -- the two same-shape casts are the identity
  rw [shapeCast_self v17, shapeCast_self v3]
  -- the sum at the index, its first term the accumulator
  refine (addf_apply _ _ _).trans ?_
  refine congrArg (v17 (ix2 p q) + ·) ?_
  -- the down projection, row by column; the format changes are the identity on extended reals
  refine (matmul_dn_apply _ _ p q).trans ?_
  refine Finset.sum_congr rfl fun k' _ => ?_
  refine congrArg (· * v9 (ix2 k' q)) ?_
  -- the gate and up pre-activations of hidden unit k'
  have hg : matmul dot_S512x4096_S4096x128_S512x128_1_0_0_1_n_n none v3 (truncf .bf16 v5 bitsLt_bf16_f32)
      (constant (F := Ideal) S512x128 .f32 0x00000000#32) (ix2 p k') = ∑ h : Fin 4096, v3 (ix2 p h) * v5 (ix2 h k') :=
    matmul_gu_apply _ _ p k'
  have hu : matmul dot_S512x4096_S4096x128_S512x128_1_0_0_1_n_n none v3 (truncf .bf16 v7 bitsLt_bf16_f32)
      (constant (F := Ideal) S512x128 .f32 0x00000000#32) (ix2 p k') = ∑ h : Fin 4096, v3 (ix2 p h) * v7 (ix2 h k') :=
    matmul_gu_apply _ _ p k'
  refine (act_apply _ _ _).trans ?_
  exact congrArg₂ (· * ·) (congrArg₂ (· * ·) hg (congrArg Ideal.logistic hg)) hu

end Cert.KernelIdeal.KerPay

/-! ## The blocked evaluation of the hidden-axis sum -/

namespace Cert.Spec

open Idealize.ShloMosaic Idealize.ShloMosaic.ValueIdx

/-- No block has been added yet: the partial sum is zero. -/
theorem partialC_zero (x : SX.Idx → EReal) (wgu : SWgu.Idx → EReal) (wd : SWd.Idx → EReal) (t : Fin 2048) (j : Fin 4096) :
    partialC x wgu wd t j 0 = 0 := by
  unfold partialC
  exact Finset.sum_eq_zero fun i _ => if_neg (Nat.not_lt_zero _)

/-- Adding block `n` to the first `n` blocks gives the first `n + 1`. -/
theorem partialC_succ (x : SX.Idx → EReal) (wgu : SWgu.Idx → EReal) (wd : SWd.Idx → EReal) (t : Fin 2048) (j : Fin 4096)
    (n : ℕ) (hn : n < 86) :
    partialC x wgu wd t j (n + 1) = partialC x wgu wd t j n + blockC x wgu wd t j ⟨n, hn⟩ := by
  unfold partialC
  have hb : blockC x wgu wd t j ⟨n, hn⟩ = ∑ i : Fin 86, if i = ⟨n, hn⟩ then blockC x wgu wd t j i else 0 := by
    rw [Finset.sum_ite_eq' Finset.univ (⟨n, hn⟩ : Fin 86) (fun i => blockC x wgu wd t j i), if_pos (Finset.mem_univ _)]
  rw [hb, ← Finset.sum_add_distrib]
  refine Finset.sum_congr rfl fun i _ => ?_
  rcases Nat.lt_trichotomy i.val n with h | h | h
  · rw [if_pos (Nat.lt_succ_of_lt h), if_pos h, if_neg (fun e => by rw [e] at h; exact Nat.lt_irrefl _ h), add_zero]
  · have e : i = ⟨n, hn⟩ := Fin.ext h
    rw [if_pos (by rw [h]; exact Nat.lt_succ_self n), if_neg (by rw [h]; exact Nat.lt_irrefl n), if_pos e, zero_add]
  · rw [if_neg (by omega), if_neg (by omega), if_neg (fun e => by rw [e] at h; exact Nat.lt_irrefl _ h), add_zero]

/-- The hidden axis as 86 blocks of 128: `(i, k') ↦ i · 128 + k'` is a bijection onto `Fin 11008`. -/
def hidEquiv : Fin 86 × Fin 128 ≃ Fin 11008 where
  toFun a := hid a.1 a.2
  invFun k := (⟨k.val / 128, by have := k.isLt; omega⟩, ⟨k.val % 128, Nat.mod_lt _ (by decide)⟩)
  left_inv a := by
    obtain ⟨i, k'⟩ := a
    have hi := i.isLt
    have hk := k'.isLt
    refine Prod.ext (Fin.ext ?_) (Fin.ext ?_)
    · show (i.val * 128 + k'.val) / 128 = i.val
      omega
    · show (i.val * 128 + k'.val) % 128 = k'.val
      omega
  right_inv k := by
    refine Fin.ext ?_
    show k.val / 128 * 128 + k.val % 128 = k.val
    omega

/-- The full hidden-axis sum is the sum of all 86 blocks. -/
theorem mlpAt_eq_partialC (x : SX.Idx → EReal) (wgu : SWgu.Idx → EReal) (wd : SWd.Idx → EReal) (t : Fin 2048) (j : Fin 4096) :
    mlpAt x wgu wd t j = partialC x wgu wd t j 86 := by
  unfold mlpAt partialC
  rw [← Equiv.sum_comp hidEquiv (fun k : Fin 11008 => act x wgu t k * wd (ix2 k j)), Fintype.sum_prod_type]
  refine Finset.sum_congr rfl fun i _ => ?_
  rw [if_pos i.isLt]
  rfl

end Cert.Spec

end
-- ==== Proof.KernelIdeal.RegionValue0.lean ====
/-
  Launch 0's result array is the SwiGLU MLP of every row.

  The grid is 4 × 86: point `n` works on token block `n / 86` (512 rows) and hidden block `n % 86` (128 hidden units).
  After the body at point `n` the output block's row `p` holds the first `n % 86 + 1` hidden blocks' contributions to row
  `(n / 86) · 512 + p` of the MLP: at a reset point (`n % 86 = 0`) the block is zeroed and the first contribution added;
  at the others the point's contribution is added to what the point before left. The output block is written back
  where the hidden coordinate is 85, when the partial sum is the whole hidden-axis sum; the four token blocks tile
  the `[2048, 4096]` result, so it ends holding `mlpAt t j` at every `(t, j)`.
-/
import proofs.«427235_j25761213841760_3_alg».proof.Proof.KernelIdeal.Dat0
import proofs.«427235_j25761213841760_3_alg».proof.Proof.KerPay
import proofs.«427235_j25761213841760_3_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Pieces
variable {F : FTy → Type} [FloatOps F]

/-- Offsets `[0, 0]` are the zero offsets. -/
theorem hz_R0 : (![0, 0] : Fin 2 → Nat) = fun _ => 0 := funext fun a => by fin_cases a <;> rfl

/-- Away from the reset points the body leaves, in the output block's buffer holding `xo`, the payload of its one
    whole-block store: `xo` plus the block's contribution. -/
theorem out_R0_B_eq (c : Dev nD) (i : grid0.Coords) (arg2 : Memref sig .tc .vmem S512x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S512x4096 .f32) (harg6 : arg6.IsWhole) (hc0 : ¬cond_R0 i)
    (x0 : Vec F S512x4096 .bf16) (x1 : Vec F S4096x128 .f32) (x2 : Vec F S4096x128 .f32) (x3 : Vec F S128x4096 .f32) (xo : Vec F S512x4096 .f32) :
    out_R0_B c i arg2 harg2 arg3 harg3 arg4 harg4 arg5 harg5 arg6 harg6 hc0 x0 x1 x2 x3 xo = k0_pay2 x0 x1 x2 x3 xo := by
  unfold out_R0_B
  rw [View.read_writes_eq_canon _ _ _ (cover_R0_B c i arg2 harg2 arg3 harg3 arg4 harg4 arg5 harg5 arg6 harg6 hc0 x0 x1 x2 x3 xo)]
  unfold kernelRun_R0_B
  dsimp only
  sl_unfold_words
  rw [View.canon_unit_zero hz_R0]
  simp only [View.readAt_eq_ld, harg2.read_unread, harg3.read_unread, harg4.read_unread, harg5.read_unread, harg6.read_unread,
    View.ld_unit_zero (S := S512x4096) hz_R0, View.ld_unit_zero (S := S4096x128) hz_R0, View.ld_unit_zero (S := S128x4096) hz_R0]

/-- At a reset point the body stores the zero block, reads it back and leaves the zero block plus the block's
    contribution. -/
theorem out_R0_A_eq (c : Dev nD) (i : grid0.Coords) (arg2 : Memref sig .tc .vmem S512x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S512x4096 .f32) (harg6 : arg6.IsWhole) (hc0 : cond_R0 i)
    (x0 : Vec F S512x4096 .bf16) (x1 : Vec F S4096x128 .f32) (x2 : Vec F S4096x128 .f32) (x3 : Vec F S128x4096 .f32) :
    out_R0_A c i arg2 harg2 arg3 harg3 arg4 harg4 arg5 harg5 arg6 harg6 hc0 x0 x1 x2 x3 = k0_pay2 x0 x1 x2 x3 (k0_pay1 (F := F)) := by
  unfold out_R0_A
  rw [View.read_writes_eq_canon _ _ _ (cover_R0_A c i arg2 harg2 arg3 harg3 arg4 harg4 arg5 harg5 arg6 harg6 hc0 x0 x1 x2 x3)]
  unfold kernelRun_R0_A
  dsimp only
  sl_unfold_words
  rw [View.canon_cons_unit_zero (S := S512x4096) hz_R0, View.readCov_unit_zero (S := S512x4096) _ hz_R0]
  simp only [View.readAt_eq_ld, harg2.read_unread, harg3.read_unread, harg4.read_unread, harg5.read_unread,
    View.ld_unit_zero (S := S512x4096) hz_R0, View.ld_unit_zero (S := S4096x128) hz_R0, View.ld_unit_zero (S := S128x4096) hz_R0]

end Pieces

/-! ## The windows' blocks, read at an element

A block's element `(p, q)` is the array's element at block index × block size + the coordinate inside the block, on each
axis; the block indices over the 4 × 86 grid in row-major order are `t / 86` (the token block) and `t % 86` (the hidden
block), the up columns starting 86 blocks after the gate columns. -/

section Blocks
variable {F : FTy → Type} [FloatOps F]
variable (V : (c : Dev nD) → (b : Ref sig .tc) → Buf (Elt F) ((c : Thread nD τ).loc b))

/-- The arrays the launch reads, at their literal types. -/
abbrev xarr_R0 (c : Dev nD) : Vec F S2048x4096 .bf16 := V c main_v15
abbrev wguarr_R0 (c : Dev nD) : Vec F S4096x22016 .f32 := V c main_arg3
abbrev wdarr_R0 (c : Dev nD) : Vec F S11008x4096 .f32 := V c main_arg4

/-- The four input blocks at a point, at their literal types. -/
abbrev xblk_R0 (c : Dev nD) (t : Fin cfg0.N) : Vec F S512x4096 .bf16 := iblk_R0 V c 0 t
abbrev gblk_R0 (c : Dev nD) (t : Fin cfg0.N) : Vec F S4096x128 .f32 := iblk_R0 V c 1 t
abbrev ublk_R0 (c : Dev nD) (t : Fin cfg0.N) : Vec F S4096x128 .f32 := iblk_R0 V c 2 t
abbrev dblk_R0 (c : Dev nD) (t : Fin cfg0.N) : Vec F S128x4096 .f32 := iblk_R0 V c 3 t

theorem idx_R0_0 : ∀ t : Fin cfg0.N, win0_0.index t 0 = t.val / 86 ∧ win0_0.index t 1 = 0 :=
  (by decide +kernel : ∀ t : Fin grid0.N, win0_0.index t 0 = t.val / 86 ∧ win0_0.index t 1 = 0)
theorem idx_R0_1 : ∀ t : Fin cfg0.N, win0_1.index t 0 = 0 ∧ win0_1.index t 1 = t.val % 86 :=
  (by decide +kernel : ∀ t : Fin grid0.N, win0_1.index t 0 = 0 ∧ win0_1.index t 1 = t.val % 86)
theorem idx_R0_2 : ∀ t : Fin cfg0.N, win0_2.index t 0 = 0 ∧ win0_2.index t 1 = 86 + t.val % 86 :=
  (by decide +kernel : ∀ t : Fin grid0.N, win0_2.index t 0 = 0 ∧ win0_2.index t 1 = 86 + t.val % 86)
theorem idx_R0_3 : ∀ t : Fin cfg0.N, win0_3.index t 0 = t.val % 86 ∧ win0_3.index t 1 = 0 :=
  (by decide +kernel : ∀ t : Fin grid0.N, win0_3.index t 0 = t.val % 86 ∧ win0_3.index t 1 = 0)
theorem idx_R0_4 : ∀ t : Fin cfg0.N, win0_4.index t 0 = t.val / 86 ∧ win0_4.index t 1 = 0 :=
  (by decide +kernel : ∀ t : Fin grid0.N, win0_4.index t 0 = t.val / 86 ∧ win0_4.index t 1 = 0)

/-- The token block: rows `(t / 86) · 512 …` of `x`. -/
theorem xblk_apply_R0 (c : Dev nD) (t : Fin cfg0.N) (p : Fin 512) (h : Fin 4096) (r : Fin 2048) (hr : r.val = t.val / 86 * 512 + p.val) :
    xblk_R0 V c t (ix2 p h) = xarr_R0 V c (ix2 r h) := by
  unfold xblk_R0 xarr_R0 iblk_R0
  rw [View.read_apply]
  show V c main_v15 _ = V c main_v15 _
  refine congrArg (V c main_v15) ?_
  funext a
  apply Fin.ext
  match a with
  | ⟨0, _⟩ => show win0_0.index t 0 * 512 + 1 * p.val = r.val; rw [(idx_R0_0 t).1, hr]; omega
  | ⟨1, _⟩ => show win0_0.index t 1 * 4096 + 1 * h.val = h.val; rw [(idx_R0_0 t).2]; omega

/-- The gate block: columns `(t % 86) · 128 …` of the fused weight. -/
theorem gblk_apply_R0 (c : Dev nD) (t : Fin cfg0.N) (h : Fin 4096) (k' : Fin 128) (col : Fin 22016) (hc : col.val = t.val % 86 * 128 + k'.val) :
    gblk_R0 V c t (ix2 h k') = wguarr_R0 V c (ix2 h col) := by
  unfold gblk_R0 wguarr_R0 iblk_R0
  rw [View.read_apply]
  show V c main_arg3 _ = V c main_arg3 _
  refine congrArg (V c main_arg3) ?_
  funext a
  apply Fin.ext
  match a with
  | ⟨0, _⟩ => show win0_1.index t 0 * 4096 + 1 * h.val = h.val; rw [(idx_R0_1 t).1]; omega
  | ⟨1, _⟩ => show win0_1.index t 1 * 128 + 1 * k'.val = col.val; rw [(idx_R0_1 t).2, hc]; omega

/-- The up block: columns `11008 + (t % 86) · 128 …` of the fused weight. -/
theorem ublk_apply_R0 (c : Dev nD) (t : Fin cfg0.N) (h : Fin 4096) (k' : Fin 128) (col : Fin 22016) (hc : col.val = 11008 + (t.val % 86 * 128 + k'.val)) :
    ublk_R0 V c t (ix2 h k') = wguarr_R0 V c (ix2 h col) := by
  unfold ublk_R0 wguarr_R0 iblk_R0
  rw [View.read_apply]
  show V c main_arg3 _ = V c main_arg3 _
  refine congrArg (V c main_arg3) ?_
  funext a
  apply Fin.ext
  match a with
  | ⟨0, _⟩ => show win0_2.index t 0 * 4096 + 1 * h.val = h.val; rw [(idx_R0_2 t).1]; omega
  | ⟨1, _⟩ => show win0_2.index t 1 * 128 + 1 * k'.val = col.val; rw [(idx_R0_2 t).2, hc]; omega

/-- The down-projection block: rows `(t % 86) · 128 …` of `wd`. -/
theorem dblk_apply_R0 (c : Dev nD) (t : Fin cfg0.N) (k' : Fin 128) (q : Fin 4096) (row : Fin 11008) (hw : row.val = t.val % 86 * 128 + k'.val) :
    dblk_R0 V c t (ix2 k' q) = wdarr_R0 V c (ix2 row q) := by
  unfold dblk_R0 wdarr_R0 iblk_R0
  rw [View.read_apply]
  show V c main_arg4 _ = V c main_arg4 _
  refine congrArg (V c main_arg4) ?_
  funext a
  apply Fin.ext
  match a with
  | ⟨0, _⟩ => show win0_3.index t 0 * 128 + 1 * k'.val = row.val; rw [(idx_R0_3 t).1, hw]; omega
  | ⟨1, _⟩ => show win0_3.index t 1 * 4096 + 1 * q.val = q.val; rw [(idx_R0_3 t).2]; omega

/-- The output block of any contents `G` of the result array: rows `(t / 86) · 512 …`. -/
theorem oblk_apply_R0 (c : Dev nD) (G : Buf (Elt F) ((cfg0.win 4).arr.view.loc (c.tc : Thread nD τ))) (t : Fin cfg0.N) (p : Fin 512) (q : Fin 4096)
    (r : Fin 2048) (hr : r.val = t.val / 86 * 512 + p.val) :
    (((cfg0.win 4).blk t).view.read (Elt F) G : Vec F S512x4096 .f32) (ix2 p q) = (G : Vec F S2048x4096 .f32) (ix2 r q) := by
  rw [View.read_apply]
  show G _ = G _
  refine congrArg G ?_
  funext a
  apply Fin.ext
  match a with
  | ⟨0, _⟩ => show win0_4.index t 0 * 512 + 1 * p.val = r.val; rw [(idx_R0_4 t).1, hr]; omega
  | ⟨1, _⟩ => show win0_4.index t 1 * 4096 + 1 * q.val = q.val; rw [(idx_R0_4 t).2]; omega

end Blocks

/-! ## The running sum is the blocked evaluation's partial sum -/

section Value
variable (V : (c : Dev nD) → (b : Ref sig .tc) → Buf (Elt Ideal) ((c : Thread nD τ).loc b))

/-- One point's addend: with the blocks read off their arrays it is hidden block `t % 86`'s contribution to row
    `(t / 86) · 512 + p` of the MLP. -/
theorem contrib_R0_eq (c : Dev nD) (t : Fin cfg0.N) (p : Fin 512) (q : Fin 4096) (r : Fin 2048) (hr : r.val = t.val / 86 * 512 + p.val)
    (i : Fin 86) (hi : i.val = t.val % 86) :
    (∑ k' : Fin 128,
      (((∑ h : Fin 4096, xblk_R0 V c t (ix2 p h) * gblk_R0 V c t (ix2 h k')) * Ideal.logistic (∑ h : Fin 4096, xblk_R0 V c t (ix2 p h) * gblk_R0 V c t (ix2 h k')))
        * (∑ h : Fin 4096, xblk_R0 V c t (ix2 p h) * ublk_R0 V c t (ix2 h k'))) * dblk_R0 V c t (ix2 k' q))
      = Cert.Spec.blockC (xarr_R0 V c) (wguarr_R0 V c) (wdarr_R0 V c) r q i := by
  unfold Cert.Spec.blockC Cert.Spec.act Cert.Spec.pre
  refine Finset.sum_congr rfl fun k' _ => ?_
  have eg : (∑ h : Fin 4096, xblk_R0 V c t (ix2 p h) * gblk_R0 V c t (ix2 h k'))
      = ∑ h : Fin 4096, xarr_R0 V c (ix2 r h) * wguarr_R0 V c (ix2 h (Cert.Spec.gcol (Cert.Spec.hid i k'))) :=
    Finset.sum_congr rfl fun h _ => congrArg₂ (· * ·) (xblk_apply_R0 V c t p h r hr)
      (gblk_apply_R0 V c t h k' (Cert.Spec.gcol (Cert.Spec.hid i k')) (by show i.val * 128 + k'.val = _; rw [hi]))
  have eu : (∑ h : Fin 4096, xblk_R0 V c t (ix2 p h) * ublk_R0 V c t (ix2 h k'))
      = ∑ h : Fin 4096, xarr_R0 V c (ix2 r h) * wguarr_R0 V c (ix2 h (Cert.Spec.ucol (Cert.Spec.hid i k'))) :=
    Finset.sum_congr rfl fun h _ => congrArg₂ (· * ·) (xblk_apply_R0 V c t p h r hr)
      (ublk_apply_R0 V c t h k' (Cert.Spec.ucol (Cert.Spec.hid i k')) (by show 11008 + (i.val * 128 + k'.val) = _; rw [hi]))
  have ed : dblk_R0 V c t (ix2 k' q) = wdarr_R0 V c (ix2 (Cert.Spec.hid i k') q) :=
    dblk_apply_R0 V c t k' q (Cert.Spec.hid i k') (by show i.val * 128 + k'.val = _; rw [hi])
  exact congrArg₂ (· * ·) (congrArg₂ (· * ·) (congrArg₂ (· * ·) eg (congrArg Ideal.logistic eg)) eu) ed

/-- At a reset point the output block holds the first hidden block's contribution. -/
theorem outsAt_R0_reset (c : Dev nD) (t : Fin cfg0.N) (h0 : t.val % 86 = 0) (p : Fin 512) (q : Fin 4096) (r : Fin 2048)
    (hr : r.val = t.val / 86 * 512 + p.val) :
    outsAt_R0 V c t.val t.isLt (ix2 p q) = Cert.Spec.partialC (xarr_R0 V c) (wguarr_R0 V c) (wdarr_R0 V c) r q 1 := by
  rw [outsAt_R0_A V c t h0]
  refine (congrFun (out_R0_A_eq (F := Ideal) c (grid0.coords t) (ms_R0_0 t) (hs_R0_0 t) (ms_R0_1 t) (hs_R0_1 t) (ms_R0_2 t) (hs_R0_2 t) (ms_R0_3 t) (hs_R0_3 t) (ms_R0_4 t) (hs_R0_4 t) ((hcond_R0 t).mpr h0)
    (iblk_R0 V c 0 t) (iblk_R0 V c 1 t) (iblk_R0 V c 2 t) (iblk_R0 V c 3 t)) (ix2 p q)).trans ?_
  refine (KerPay.k0_pay2_apply (xblk_R0 V c t) (gblk_R0 V c t) (ublk_R0 V c t) (dblk_R0 V c t) (k0_pay1 (F := Ideal)) p q).trans ?_
  rw [Cert.Spec.partialC_succ (xarr_R0 V c) (wguarr_R0 V c) (wdarr_R0 V c) r q 0 (by decide), Cert.Spec.partialC_zero]
  exact congrArg₂ (· + ·) (KerPay.k0_pay1_apply p q) (contrib_R0_eq V c t p q r hr ⟨0, by decide⟩ h0.symm)

/-- Away from the reset points the output block gains hidden block `t % 86`'s contribution. -/
theorem outsAt_R0_step (c : Dev nD) (n : ℕ) (hn : n + 1 < cfg0.N) (h0 : ¬(n + 1) % 86 = 0) (p : Fin 512) (q : Fin 4096) (r : Fin 2048)
    (hr : r.val = (n + 1) / 86 * 512 + p.val)
    (ih : outsAt_R0 V c n (Nat.lt_of_succ_lt hn) (ix2 p q) = Cert.Spec.partialC (xarr_R0 V c) (wguarr_R0 V c) (wdarr_R0 V c) r q ((n + 1) % 86)) :
    outsAt_R0 V c (n + 1) hn (ix2 p q) = Cert.Spec.partialC (xarr_R0 V c) (wguarr_R0 V c) (wdarr_R0 V c) r q ((n + 1) % 86 + 1) := by
  rw [outsAt_R0_B V c ⟨n + 1, hn⟩ h0]
  refine (congrFun (out_R0_B_eq (F := Ideal) c (grid0.coords ⟨n + 1, hn⟩) (ms_R0_0 ⟨n + 1, hn⟩) (hs_R0_0 ⟨n + 1, hn⟩) (ms_R0_1 ⟨n + 1, hn⟩) (hs_R0_1 ⟨n + 1, hn⟩) (ms_R0_2 ⟨n + 1, hn⟩) (hs_R0_2 ⟨n + 1, hn⟩) (ms_R0_3 ⟨n + 1, hn⟩) (hs_R0_3 ⟨n + 1, hn⟩) (ms_R0_4 ⟨n + 1, hn⟩) (hs_R0_4 ⟨n + 1, hn⟩) (fun h => h0 ((hcond_R0 ⟨n + 1, hn⟩).mp h))
    (iblk_R0 V c 0 ⟨n + 1, hn⟩) (iblk_R0 V c 1 ⟨n + 1, hn⟩) (iblk_R0 V c 2 ⟨n + 1, hn⟩) (iblk_R0 V c 3 ⟨n + 1, hn⟩)
    (outsAt_R0 V c n (Nat.lt_of_succ_lt hn))) (ix2 p q)).trans ?_
  refine (KerPay.k0_pay2_apply (xblk_R0 V c ⟨n + 1, hn⟩) (gblk_R0 V c ⟨n + 1, hn⟩) (ublk_R0 V c ⟨n + 1, hn⟩) (dblk_R0 V c ⟨n + 1, hn⟩)
    (outsAt_R0 V c n (Nat.lt_of_succ_lt hn)) p q).trans ?_
  rw [Cert.Spec.partialC_succ (xarr_R0 V c) (wguarr_R0 V c) (wdarr_R0 V c) r q ((n + 1) % 86) (Nat.mod_lt _ (by decide))]
  exact congrArg₂ (· + ·) ih (contrib_R0_eq V c ⟨n + 1, hn⟩ p q r hr ⟨(n + 1) % 86, Nat.mod_lt _ (by decide)⟩ rfl)

/-- After the body at point `n` the output block's row `p` holds the first `n % 86 + 1` hidden blocks' contributions to
    row `(n / 86) · 512 + p`. -/
theorem outsAt_R0_eq (c : Dev nD) : ∀ (n : ℕ) (hn : n < cfg0.N) (p : Fin 512) (q : Fin 4096) (r : Fin 2048),
    r.val = n / 86 * 512 + p.val →
    outsAt_R0 V c n hn (ix2 p q) = Cert.Spec.partialC (xarr_R0 V c) (wguarr_R0 V c) (wdarr_R0 V c) r q (n % 86 + 1) := by
  intro n
  induction n with
  | zero =>
    intro hn p q r hr
    exact outsAt_R0_reset V c ⟨0, hn⟩ rfl p q r hr
  | succ n ih =>
    intro hn p q r hr
    by_cases h0 : (n + 1) % 86 = 0
    · rw [h0]
      exact outsAt_R0_reset V c ⟨n + 1, hn⟩ h0 p q r hr
    · have hd : (n + 1) / 86 = n / 86 := by omega
      have hm : n % 86 + 1 = (n + 1) % 86 := by omega
      have ih' := ih (Nat.lt_of_succ_lt hn) p q r (by rw [hr, hd])
      rw [hm] at ih'
      exact outsAt_R0_step V c n hn h0 p q r hr ih'

/-! ## The result array -/

/-- What a write-back writes, at the points where the hidden coordinate is 85: its block of the MLP's array. -/
theorem flushed_R0_eq (c : Dev nD) (t : Fin cfg0.N) (hf : (cfg0.win 4).flush t = true) :
    (dat_R0 V c).flushed 4 t
      = ((cfg0.win 4).blk t).view.read (Elt Ideal) (Cert.Spec.mlpMat (xarr_R0 V c) (wguarr_R0 V c) (wdarr_R0 V c)) := by
  have h85 : t.val % 86 = 85 := (flush0_4 t).mp hf
  have hN : t.val < 344 := lt_of_lt_of_eq t.isLt (show cfg0.N = 344 from N_0)
  show (cfg0.win 4).cut (grid0.coords t) ((dat_R0 V c).after 4 t) = _
  rw [after_R0_4]
  refine funext fun (j : S512x4096.Idx) => ?_
  obtain ⟨p, q, rfl⟩ : ∃ p q, j = ix2 p q := ⟨j 0, j 1, eq_ix2 j⟩
  have hp : p.val < 512 := p.isLt
  have e := outsAt_R0_eq V c t.val t.isLt p q ⟨t.val / 86 * 512 + p.val, by omega⟩ rfl
  rw [h85, ← Cert.Spec.mlpAt_eq_partialC] at e
  refine Eq.trans (show outsAt_R0 V c t.val t.isLt (ix2 p q) = _ from e) ?_
  exact (oblk_apply_R0 (F := Ideal) c (Cert.Spec.mlpMat (xarr_R0 V c) (wguarr_R0 V c) (wdarr_R0 V c)) t p q ⟨t.val / 86 * 512 + p.val, by omega⟩ rfl).symm

/-- The write-backs' blocks cover the result array: row `r` is in token block `r / 512`, written back at its last
    hidden block. -/
theorem cover_R0 (i : S2048x4096.Idx) : ∃ t : Fin cfg0.N, (cfg0.win 4).flush t = true ∧ i ∈ ((cfg0.win 4).blk t).view.set := by
  have hi0 : (i 0).val < 2048 := idx2_lt0 i
  have hi1 : (i 1).val < 4096 := idx2_lt1 i
  have hN : cfg0.N = 344 := N_0
  obtain ⟨t, ht⟩ : ∃ t : Fin cfg0.N, t.val = (i 0).val / 512 * 86 + 85 := ⟨⟨(i 0).val / 512 * 86 + 85, by rw [hN]; omega⟩, rfl⟩
  refine ⟨t, (flush0_4 t).mpr (by rw [ht]; omega), ?_⟩
  show i ∈ ((View.whole main_v16).slice (win0_4.rect t)).set
  rw [View.set_slice_whole, Rect.mem_set_unit]
  intro a
  match a with
  | ⟨0, _⟩ =>
    show win0_4.index t 0 * 512 ≤ (i 0).val ∧ (i 0).val < win0_4.index t 0 * 512 + 512
    rw [(idx_R0_4 t).1, ht]; omega
  | ⟨1, _⟩ =>
    show win0_4.index t 1 * 4096 ≤ (i 1).val ∧ (i 1).val < win0_4.index t 1 * 4096 + 4096
    rw [(idx_R0_4 t).2]; omega

/-- After launch 0 the result array holds the MLP of every row. -/
theorem region_value_R0 (c : Dev nD) :
    (dat_R0 (F := Ideal) V c).arrAt 4 cfg0.N = Cert.Spec.mlpMat (V c main_v15) (V c main_arg3) (V c main_arg4) :=
  (dat_R0 V c).arrAt_eq_of_cover 4 (Cert.Spec.mlpMat (xarr_R0 V c) (wguarr_R0 V c) (wdarr_R0 V c)) (flushed_R0_eq V c) cover_R0

end Value

end Cert.KernelIdeal.Hand

end
-- ==== Proof.KernelIdeal.KernelValue.lean ====
/-
  What the result buffer holds at the end of @main, over the extended reals.

  Each launch leaves in its output array the MLP of its token operand with its two weight operands. Launch 0's token
  operand is the first expert's gathered rows rounded to sixteen bits, written by the first stretch of host operations;
  launch 1's is the second expert's, gathered by the first stretch and rounded by the second; the weights are
  arguments, which nothing writes. The last stretch scatters the two output arrays into a zero matrix and puts the unit
  batch axis back, so the result buffer ends at the kernel's result term of the seven arguments' launch contents.
-/
import proofs.«427235_j25761213841760_3_alg».proof.Proof.KernelIdeal.Args
import proofs.«427235_j25761213841760_3_alg».proof.Proof.KernelIdeal.KernelOut
import proofs.«427235_j25761213841760_3_alg».proof.Proof.KernelIdeal.RegionValue0
import proofs.«427235_j25761213841760_3_alg».proof.Proof.KernelIdeal.RegionValue1

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ)

/-- Launch 0's token operand: the first expert's gathered rows, rounded to sixteen bits. -/
theorem V1_v15 (c : Dev nD) :
    V1 m c main_v15 = truncf (F := Ideal) (s := S2048x4096) (φ := .f32) .bf16
      (gathered (F := Ideal) (m ((c : Thread nD τ).loc main_arg0)) (m ((c : Thread nD τ).loc main_arg1))) bitsLt_bf16_f32 :=
  hostOps0_v15 (W0 m c)

/-- Launch 1's token operand: the second expert's gathered rows, rounded to sixteen bits. -/
theorem V3_v17 (c : Dev nD) :
    V3 m c main_v17 = truncf (F := Ideal) (s := S2048x4096) (φ := .f32) .bf16
      (gathered (F := Ideal) (m ((c : Thread nD τ).loc main_arg0)) (m ((c : Thread nD τ).loc main_arg2))) bitsLt_bf16_f32 := by
  have h14 : W1 m c (Proc.devRef .tc main_v14)
      = gathered (F := Ideal) (m ((c : Thread nD τ).loc main_arg0)) (m ((c : Thread nD τ).loc main_arg2)) :=
    hostOps0_v14 (W0 m c)
  show StableHlo.after hostOps1 (W2 m c) (Proc.devRef .tc main_v17) = _
  rw [hostOps1_v17 (W2 m c), W2_of_ne m c main_v14 (by decide), h14]

/-- What launch 0 leaves in its output array: the first expert's output rows. -/
theorem arr_R0_eq (c : Dev nD) :
    arr_R0 m c = expertOut (m ((c : Thread nD τ).loc main_arg0)) (m ((c : Thread nD τ).loc main_arg1))
      (m ((c : Thread nD τ).loc main_arg3)) (m ((c : Thread nD τ).loc main_arg4)) := by
  unfold arr_R0
  rw [region_value_R0 (V1 m) c, V1_v15 m c]
  show Cert.Spec.mlpMat _ (W1 m c (Proc.devRef .tc main_arg3)) (W1 m c (Proc.devRef .tc main_arg4)) = _
  rw [W1_arg m c main_arg3 (by decide), W1_arg m c main_arg4 (by decide)]
  rfl

/-- What launch 1 leaves in its output array: the second expert's output rows. -/
theorem arr_R1_eq (c : Dev nD) :
    arr_R1 m c = expertOut (m ((c : Thread nD τ).loc main_arg0)) (m ((c : Thread nD τ).loc main_arg2))
      (m ((c : Thread nD τ).loc main_arg5)) (m ((c : Thread nD τ).loc main_arg6)) := by
  unfold arr_R1
  rw [region_value_R1 (V3 m) c, V3_v17 m c]
  show Cert.Spec.mlpMat _ (W3 m c (Proc.devRef .tc main_arg5)) (W3 m c (Proc.devRef .tc main_arg6)) = _
  rw [W3_arg m c main_arg5 (by decide) (by decide) (by decide), W3_arg m c main_arg6 (by decide) (by decide) (by decide)]
  rfl

/-- The result buffer at the end: the kernel's result term at the launch contents of the seven arguments. -/
theorem W5_v34 (c : Dev nD) :
    W5 m c (Proc.devRef .tc main_v34)
      = kernelOut (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  have e16 : W4 m c (Proc.devRef .tc main_v16)
      = expertOut (m ((c : Thread nD τ).loc main_arg0)) (m ((c : Thread nD τ).loc main_arg1))
          (m ((c : Thread nD τ).loc main_arg3)) (m ((c : Thread nD τ).loc main_arg4)) := by
    rw [W4_of_ne m c main_v16 (by decide)]
    show StableHlo.after hostOps1 (W2 m c) (Proc.devRef .tc main_v16) = _
    rw [hostOps1_of (W2 m c) main_v16 (by decide), W2_out m c, arr_R0_eq m c]
  have e18 : W4 m c (Proc.devRef .tc main_v18)
      = expertOut (m ((c : Thread nD τ).loc main_arg0)) (m ((c : Thread nD τ).loc main_arg2))
          (m ((c : Thread nD τ).loc main_arg5)) (m ((c : Thread nD τ).loc main_arg6)) := by
    rw [W4_out m c, arr_R1_eq m c]
  show StableHlo.after hostOps2 (W4 m c) (Proc.devRef .tc main_v34) = _
  rw [hostOps2_v34 (W4 m c), e16, e18, W4_arg m c main_arg1 (by decide) (by decide) (by decide) (by decide),
    W4_arg m c main_arg2 (by decide) (by decide) (by decide) (by decide)]
  rfl

end Cert.KernelIdeal.Hand

end
-- ==== Proof.RefMlp.lean ====
/-
  The reference program's per-expert SwiGLU MLP, read one element at a time.

  For one expert the reference computes `gu = x · Wgu` (a contraction over the 4096 hidden features), cuts `gu` into
  its gate half (columns `0 … 11007`) and its up half (columns `11008 … 22015`), forms
  `silu(gate) · up` with `silu(g) = g · (1 / (1 + exp (-g)))`, and contracts the result with `Wd` over the 11008
  hidden units. Over the extended reals `1 / (1 + exp (-g))` is the logistic function, so the element at token `t`,
  feature `j` is `Cert.Spec.mlpAt` of the gathered token matrix, whatever that matrix is.
-/
import proofs.«427235_j25761213841760_3_alg».proof.Proof.Gen.ReferenceIdeal.Read
import proofs.«427235_j25761213841760_3_alg».proof.Proof.Spec

noncomputable section

namespace Cert.RefMlp

open Cert.ReferenceIdeal Cert.ReferenceIdeal.Read Idealize.ShloMosaic Idealize.ShloMosaic.ValueIdx

/-- The `f32` pattern `0x3F800000` (sign 0, exponent 127, fraction 0) denotes the real number one. -/
theorem one_f32 : Ideal.ofBits .f32 0x3F800000#32 = 1 := by
  simp [Ideal.ofBits, Ideal.ieee, -EReal.coe_mul]; norm_num

/-- `g · (1 / (1 + exp (-g)))`, as the program spells it with the literal one, is `g · σ(g)`. -/
theorem silu_term (x : Ideal .f32) :
    FloatOps.mulf x (FloatOps.hostDivf (FloatOps.ofBits (F := Ideal) .f32 0x3F800000#32)
      (FloatOps.addf (FloatOps.ofBits (F := Ideal) .f32 0x3F800000#32) (FloatOps.hostUnary .exp (FloatOps.hostNegf x))))
      = x * Ideal.logistic x := by
  show x * Ideal.div (Ideal.ofBits .f32 0x3F800000#32) (Ideal.ofBits .f32 0x3F800000#32 + Ideal.exp (-x)) = x * Ideal.logistic x
  rw [one_f32]; rfl

/-- The gate/up pre-activation: the contraction of the gathered tokens with the fused weight is `Spec.pre`. -/
theorem v7_eq_pre (x0 : (⟨S1x4096x4096, .f32⟩ : BufTy).Contents (Elt Ideal)) (x1 : (⟨S2048, .i32⟩ : BufTy).Contents (Elt Ideal))
    (x3 : (⟨S4096x22016, .f32⟩ : BufTy).Contents (Elt Ideal))
    (g : Cert.Spec.SX.Idx → EReal)
    (hg : ∀ (t : Fin 2048) (h : Fin 4096), val_main_v6 (F := Ideal) x0 x1 (ix3 0 t h) = g (ix2 t h))
    (t : Fin 2048) (c : Fin 22016) :
    val_main_v7 (F := Ideal) x0 x1 x3 (ix3 0 t c) = Cert.Spec.pre g x3 t c := by
  rw [val_main_v7_apply]
  unfold Cert.Spec.pre
  refine Finset.sum_congr rfl fun h _ => ?_
  have e1 : lidx_main_v7 (ix3 0 t c) h = ix3 0 t h := funext fun a => Fin.ext (by
    match a with | ⟨0, _⟩ => rfl | ⟨1, _⟩ => rfl | ⟨2, _⟩ => rfl)
  have e2 : ridx_main_v7 (ix3 0 t c) h = ix2 h c := funext fun a => Fin.ext (by
    match a with | ⟨0, _⟩ => rfl | ⟨1, _⟩ => rfl)
  rw [e1, e2, hg]

/-- The hidden activation `silu(gate) · up` of the first expert is `Spec.act`. -/
theorem v11_eq_act (x0 : (⟨S1x4096x4096, .f32⟩ : BufTy).Contents (Elt Ideal)) (x1 : (⟨S2048, .i32⟩ : BufTy).Contents (Elt Ideal))
    (x3 : (⟨S4096x22016, .f32⟩ : BufTy).Contents (Elt Ideal))
    (g : Cert.Spec.SX.Idx → EReal)
    (hg : ∀ (t : Fin 2048) (h : Fin 4096), val_main_v6 (F := Ideal) x0 x1 (ix3 0 t h) = g (ix2 t h))
    (t : Fin 2048) (k : Fin 11008) :
    val_main_v11 (F := Ideal) x0 x1 x3 (ix3 0 t k) = Cert.Spec.act g x3 t k := by
  have eg : idx_main_v8 (ix3 0 t k) = ix3 0 t (Cert.Spec.gcol k) := funext fun a => Fin.ext (by
    match a with | ⟨0, _⟩ => rfl | ⟨1, _⟩ => rfl | ⟨2, _⟩ => rfl)
  have eu : idx_main_v9 (ix3 0 t k) = ix3 0 t (Cert.Spec.ucol k) := funext fun a => Fin.ext (by
    match a with | ⟨0, _⟩ => rfl | ⟨1, _⟩ => rfl | ⟨2, _⟩ => rfl)
  have hgate : val_main_v8 (F := Ideal) x0 x1 x3 (ix3 0 t k) = Cert.Spec.pre g x3 t (Cert.Spec.gcol k) := by
    rw [val_main_v8_apply, eg, v7_eq_pre x0 x1 x3 g hg]
  have hup : val_main_v9 (F := Ideal) x0 x1 x3 (ix3 0 t k) = Cert.Spec.pre g x3 t (Cert.Spec.ucol k) := by
    rw [val_main_v9_apply, eu, v7_eq_pre x0 x1 x3 g hg]
  rw [val_main_v11_apply, val_main_v10_apply, val_main_call0_v5_apply, val_main_call0_v4_apply, val_main_call0_cst_0_apply,
    val_main_call0_v3_apply, val_main_call0_v2_apply, val_main_call0_cst_apply, val_main_call0_v1_apply,
    val_main_call0_v0_apply, hgate, hup, silu_term]
  rfl

/-- The first expert's output at token `t`, feature `j`. -/
theorem v12_eq_mlp (x0 : (⟨S1x4096x4096, .f32⟩ : BufTy).Contents (Elt Ideal)) (x1 : (⟨S2048, .i32⟩ : BufTy).Contents (Elt Ideal))
    (x3 : (⟨S4096x22016, .f32⟩ : BufTy).Contents (Elt Ideal)) (x4 : (⟨S11008x4096, .f32⟩ : BufTy).Contents (Elt Ideal))
    (g : Cert.Spec.SX.Idx → EReal)
    (hg : ∀ (t : Fin 2048) (h : Fin 4096), val_main_v6 (F := Ideal) x0 x1 (ix3 0 t h) = g (ix2 t h))
    (t : Fin 2048) (j : Fin 4096) :
    val_main_v12 (F := Ideal) x0 x1 x3 x4 (ix3 0 t j) = Cert.Spec.mlpAt g x3 x4 t j := by
  rw [val_main_v12_apply]
  unfold Cert.Spec.mlpAt
  refine Finset.sum_congr rfl fun k _ => ?_
  have e1 : lidx_main_v12 (ix3 0 t j) k = ix3 0 t k := funext fun a => Fin.ext (by
    match a with | ⟨0, _⟩ => rfl | ⟨1, _⟩ => rfl | ⟨2, _⟩ => rfl)
  have e2 : ridx_main_v12 (ix3 0 t j) k = ix2 k j := funext fun a => Fin.ext (by
    match a with | ⟨0, _⟩ => rfl | ⟨1, _⟩ => rfl)
  rw [e1, e2, v11_eq_act x0 x1 x3 g hg]

/-- The second expert's gate/up pre-activation is `Spec.pre` of its own gathered tokens and fused weight. -/
theorem v20_eq_pre (x0 : (⟨S1x4096x4096, .f32⟩ : BufTy).Contents (Elt Ideal)) (x2 : (⟨S2048, .i32⟩ : BufTy).Contents (Elt Ideal))
    (x5 : (⟨S4096x22016, .f32⟩ : BufTy).Contents (Elt Ideal))
    (g : Cert.Spec.SX.Idx → EReal)
    (hg : ∀ (t : Fin 2048) (h : Fin 4096), val_main_v19 (F := Ideal) x0 x2 (ix3 0 t h) = g (ix2 t h))
    (t : Fin 2048) (c : Fin 22016) :
    val_main_v20 (F := Ideal) x0 x2 x5 (ix3 0 t c) = Cert.Spec.pre g x5 t c := by
  rw [val_main_v20_apply]
  unfold Cert.Spec.pre
  refine Finset.sum_congr rfl fun h _ => ?_
  have e1 : lidx_main_v20 (ix3 0 t c) h = ix3 0 t h := funext fun a => Fin.ext (by
    match a with | ⟨0, _⟩ => rfl | ⟨1, _⟩ => rfl | ⟨2, _⟩ => rfl)
  have e2 : ridx_main_v20 (ix3 0 t c) h = ix2 h c := funext fun a => Fin.ext (by
    match a with | ⟨0, _⟩ => rfl | ⟨1, _⟩ => rfl)
  rw [e1, e2, hg]

/-- The hidden activation `silu(gate) · up` of the second expert is `Spec.act`. -/
theorem v24_eq_act (x0 : (⟨S1x4096x4096, .f32⟩ : BufTy).Contents (Elt Ideal)) (x2 : (⟨S2048, .i32⟩ : BufTy).Contents (Elt Ideal))
    (x5 : (⟨S4096x22016, .f32⟩ : BufTy).Contents (Elt Ideal))
    (g : Cert.Spec.SX.Idx → EReal)
    (hg : ∀ (t : Fin 2048) (h : Fin 4096), val_main_v19 (F := Ideal) x0 x2 (ix3 0 t h) = g (ix2 t h))
    (t : Fin 2048) (k : Fin 11008) :
    val_main_v24 (F := Ideal) x0 x2 x5 (ix3 0 t k) = Cert.Spec.act g x5 t k := by
  have eg : idx_main_v21 (ix3 0 t k) = ix3 0 t (Cert.Spec.gcol k) := funext fun a => Fin.ext (by
    match a with | ⟨0, _⟩ => rfl | ⟨1, _⟩ => rfl | ⟨2, _⟩ => rfl)
  have eu : idx_main_v22 (ix3 0 t k) = ix3 0 t (Cert.Spec.ucol k) := funext fun a => Fin.ext (by
    match a with | ⟨0, _⟩ => rfl | ⟨1, _⟩ => rfl | ⟨2, _⟩ => rfl)
  have hgate : val_main_v21 (F := Ideal) x0 x2 x5 (ix3 0 t k) = Cert.Spec.pre g x5 t (Cert.Spec.gcol k) := by
    rw [val_main_v21_apply, eg, v20_eq_pre x0 x2 x5 g hg]
  have hup : val_main_v22 (F := Ideal) x0 x2 x5 (ix3 0 t k) = Cert.Spec.pre g x5 t (Cert.Spec.ucol k) := by
    rw [val_main_v22_apply, eu, v20_eq_pre x0 x2 x5 g hg]
  rw [val_main_v24_apply, val_main_v23_apply, val_main_call1_v5_apply, val_main_call1_v4_apply, val_main_call1_cst_0_apply,
    val_main_call1_v3_apply, val_main_call1_v2_apply, val_main_call1_cst_apply, val_main_call1_v1_apply,
    val_main_call1_v0_apply, hgate, hup, silu_term]
  rfl

/-- The second expert's output at token `t`, feature `j`. -/
theorem v25_eq_mlp (x0 : (⟨S1x4096x4096, .f32⟩ : BufTy).Contents (Elt Ideal)) (x2 : (⟨S2048, .i32⟩ : BufTy).Contents (Elt Ideal))
    (x5 : (⟨S4096x22016, .f32⟩ : BufTy).Contents (Elt Ideal)) (x6 : (⟨S11008x4096, .f32⟩ : BufTy).Contents (Elt Ideal))
    (g : Cert.Spec.SX.Idx → EReal)
    (hg : ∀ (t : Fin 2048) (h : Fin 4096), val_main_v19 (F := Ideal) x0 x2 (ix3 0 t h) = g (ix2 t h))
    (t : Fin 2048) (j : Fin 4096) :
    val_main_v25 (F := Ideal) x0 x2 x5 x6 (ix3 0 t j) = Cert.Spec.mlpAt g x5 x6 t j := by
  rw [val_main_v25_apply]
  unfold Cert.Spec.mlpAt
  refine Finset.sum_congr rfl fun k _ => ?_
  have e1 : lidx_main_v25 (ix3 0 t j) k = ix3 0 t k := funext fun a => Fin.ext (by
    match a with | ⟨0, _⟩ => rfl | ⟨1, _⟩ => rfl | ⟨2, _⟩ => rfl)
  have e2 : ridx_main_v25 (ix3 0 t j) k = ix2 k j := funext fun a => Fin.ext (by
    match a with | ⟨0, _⟩ => rfl | ⟨1, _⟩ => rfl)
  rw [e1, e2, v24_eq_act x0 x2 x5 g hg]

end Cert.RefMlp

end
-- ==== Proof.LibRowLift.lean ====
/-
  A LEADING UNIT AXIS DOES NOT CHANGE A ROW LOOKUP OR A ROW WRITE.

  A matrix `x2 : [N, M]` and the same data behind a leading unit axis, `x3 : [1, N, M]` with `x3[0, r, c] = x2[r, c]`.
  With start indices `idx : [n, 1]` (arbitrary signed words, nothing assumed of their range):

  * the row lookup `x2[ids] : [n, M]` and the lookup `x3[:, ids] : [1, n, M]` read the same element at `(t, h)` and
    `(0, t, h)`: both read row `clamp(idx[t, 0], 0, N − 1)`, column `h` (`gather_rows_lift`);
  * the row write `x2.at[ids].set(u2)` with updates `u2 : [n, M]` and the write `x3.at[:, ids].set(u3)` with
    `u3[0, t, j] = u2[t, j]` give the same matrix (`scatter_rows_lift`): the scatter is a left fold over the update
    elements in row-major order; position `k` of `[1, n, M]` is `(0, t, j)` exactly when position `k` of `[n, M]` is
    `(t, j)`; that element lands on row `v = idx[t, 0]` (read signed, not clamped), column `j`, when `0 ≤ v < N`, and
    is dropped otherwise, on both sides alike; so one step keeps the two accumulators equal, and by induction on the
    list of positions so does the whole fold. The combining function `f` is arbitrary (for `set` it returns the update).

  The dimension numbers are variables with their fields as hypotheses, so the lemmas apply to any record with these
  fields. The lemmas are proved for all extents `N`, `M`, `n` and stated last at the extents 4096, 4096, 2048.
-/
import Idealize.ShloMosaic.PureOps.ShapeOps
import Idealize.ShloMosaic.Lib.ValueIdx

namespace Cert.RowLift

open Idealize.ShloMosaic Idealize.ShloMosaic.ValueIdx

/-! ## Gather: the operand index of a row lookup, coordinate by coordinate -/

section Gather
variable {N M n w : Nat}

/-- Row lookup behind a unit axis: on the row axis the operand index is the start index of token `t`, read signed and
    clamped into `[0, N − 1]`. -/
theorem op3_val1
    (d3 : GatherDims ⟨3, ![1, N, M]⟩ ⟨2, ![n, 1]⟩ ⟨3, ![1, n, M]⟩)
    (h3 : d3.offsetDims = [0, 2] ∧ d3.collapsedSliceDims = [1] ∧ d3.operandBatchingDims = [] ∧
      d3.startIndicesBatchingDims = [] ∧ d3.startIndexMap = [1] ∧ d3.indexVectorDim = 1 ∧ d3.sliceSizes = ![1, 1, M])
    (idx : IVec ⟨2, ![n, 1]⟩ w) (z : Fin 1) (t : Fin n) (h : Fin M) :
    (d3.operandIdx (ix3 z t h) idx 1).val = min (idx (ix2 t 0)).toInt.toNat (N - 1) := by
  obtain ⟨od, cd, ob, sb, sm, iv, ss, wf⟩ := d3
  obtain ⟨h1, h2, h3, h4, h5, h6, h7⟩ := h3
  dsimp only at h1 h2 h3 h4 h5 h6 h7
  subst h1 h2 h3 h4 h5 h6 h7
  show GatherDims.start _ _ idx 1 + GatherDims.batchCoord _ _ 1 + GatherDims.offCoord _ _ 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  refine congrArg (fun X => min (idx X).toInt.toNat (N - 1)) ?_
  funext b; refine Fin.ext ?_
  match b with
  | ⟨0, _⟩ => rfl
  | ⟨1, _⟩ => rfl

/-- Row lookup behind a unit axis: on the column axis the operand index is the result's column. -/
theorem op3_val2
    (d3 : GatherDims ⟨3, ![1, N, M]⟩ ⟨2, ![n, 1]⟩ ⟨3, ![1, n, M]⟩)
    (h3 : d3.offsetDims = [0, 2] ∧ d3.collapsedSliceDims = [1] ∧ d3.operandBatchingDims = [] ∧
      d3.startIndicesBatchingDims = [] ∧ d3.startIndexMap = [1] ∧ d3.indexVectorDim = 1 ∧ d3.sliceSizes = ![1, 1, M])
    (idx : IVec ⟨2, ![n, 1]⟩ w) (z : Fin 1) (t : Fin n) (h : Fin M) :
    (d3.operandIdx (ix3 z t h) idx 2).val = h.val := by
  obtain ⟨od, cd, ob, sb, sm, iv, ss, wf⟩ := d3
  obtain ⟨h1, h2, h3, h4, h5, h6, h7⟩ := h3
  dsimp only at h1 h2 h3 h4 h5 h6 h7
  subst h1 h2 h3 h4 h5 h6 h7
  show GatherDims.start _ _ idx 2 + GatherDims.batchCoord _ _ 2 + GatherDims.offCoord _ _ 2 = _
  rw [GatherDims.batchCoord_eq_zero _ _ _ List.not_mem_nil]
  unfold GatherDims.start
  rw [dif_neg (show (2 : Fin 3) ∉ [1] by decide)]
  simp only [Nat.add_zero, Nat.zero_add]
  unfold GatherDims.offCoord
  rw [dif_pos ((GatherDims.mem_sKept _ _).mpr ⟨show (2 : Fin 3) ∉ [1] by decide, List.not_mem_nil⟩)]
  rfl

/-- Plain row lookup: on the row axis the operand index is the start index of token `t`, read signed and clamped into
    `[0, N − 1]`. -/
theorem op2_val0
    (d2 : GatherDims ⟨2, ![N, M]⟩ ⟨2, ![n, 1]⟩ ⟨2, ![n, M]⟩)
    (h2 : d2.offsetDims = [1] ∧ d2.collapsedSliceDims = [0] ∧ d2.operandBatchingDims = [] ∧
      d2.startIndicesBatchingDims = [] ∧ d2.startIndexMap = [0] ∧ d2.indexVectorDim = 1 ∧ d2.sliceSizes = ![1, M])
    (idx : IVec ⟨2, ![n, 1]⟩ w) (t : Fin n) (h : Fin M) :
    (d2.operandIdx (ix2 t h) idx 0).val = min (idx (ix2 t 0)).toInt.toNat (N - 1) := by
  obtain ⟨od, cd, ob, sb, sm, iv, ss, wf⟩ := d2
  obtain ⟨h1, h2, h3, h4, h5, h6, h7⟩ := h2
  dsimp only at h1 h2 h3 h4 h5 h6 h7
  subst h1 h2 h3 h4 h5 h6 h7
  show GatherDims.start _ _ idx 0 + GatherDims.batchCoord _ _ 0 + GatherDims.offCoord _ _ 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  refine congrArg (fun X => min (idx X).toInt.toNat (N - 1)) ?_
  funext b; refine Fin.ext ?_
  match b with
  | ⟨0, _⟩ => rfl
  | ⟨1, _⟩ => rfl

/-- Plain row lookup: on the column axis the operand index is the result's column. -/
theorem op2_val1
    (d2 : GatherDims ⟨2, ![N, M]⟩ ⟨2, ![n, 1]⟩ ⟨2, ![n, M]⟩)
    (h2 : d2.offsetDims = [1] ∧ d2.collapsedSliceDims = [0] ∧ d2.operandBatchingDims = [] ∧
      d2.startIndicesBatchingDims = [] ∧ d2.startIndexMap = [0] ∧ d2.indexVectorDim = 1 ∧ d2.sliceSizes = ![1, M])
    (idx : IVec ⟨2, ![n, 1]⟩ w) (t : Fin n) (h : Fin M) :
    (d2.operandIdx (ix2 t h) idx 1).val = h.val := by
  obtain ⟨od, cd, ob, sb, sm, iv, ss, wf⟩ := d2
  obtain ⟨h1, h2, h3, h4, h5, h6, h7⟩ := h2
  dsimp only at h1 h2 h3 h4 h5 h6 h7
  subst h1 h2 h3 h4 h5 h6 h7
  show GatherDims.start _ _ idx 1 + GatherDims.batchCoord _ _ 1 + GatherDims.offCoord _ _ 1 = _
  rw [GatherDims.batchCoord_eq_zero _ _ _ List.not_mem_nil]
  unfold GatherDims.start
  rw [dif_neg (show (1 : Fin 2) ∉ [0] by decide)]
  simp only [Nat.add_zero, Nat.zero_add]
  unfold GatherDims.offCoord
  rw [dif_pos ((GatherDims.mem_sKept _ _).mpr ⟨show (1 : Fin 2) ∉ [0] by decide, List.not_mem_nil⟩)]
  rfl

/-- A row lookup `x[ids]` of a matrix and the lookup `x[:, ids]` of the same data behind a leading unit axis read the
    same element: both clamp token `t`'s start index into the rows and keep the column. -/
theorem gather_rows_lift_gen {α : Type}
    (d3 : GatherDims ⟨3, ![1, N, M]⟩ ⟨2, ![n, 1]⟩ ⟨3, ![1, n, M]⟩)
    (h3 : d3.offsetDims = [0, 2] ∧ d3.collapsedSliceDims = [1] ∧ d3.operandBatchingDims = [] ∧
      d3.startIndicesBatchingDims = [] ∧ d3.startIndexMap = [1] ∧ d3.indexVectorDim = 1 ∧ d3.sliceSizes = ![1, 1, M])
    (d2 : GatherDims ⟨2, ![N, M]⟩ ⟨2, ![n, 1]⟩ ⟨2, ![n, M]⟩)
    (h2 : d2.offsetDims = [1] ∧ d2.collapsedSliceDims = [0] ∧ d2.operandBatchingDims = [] ∧
      d2.startIndicesBatchingDims = [] ∧ d2.startIndexMap = [0] ∧ d2.indexVectorDim = 1 ∧ d2.sliceSizes = ![1, M])
    (x3 : (⟨3, ![1, N, M]⟩ : Shape).Idx → α) (x2 : (⟨2, ![N, M]⟩ : Shape).Idx → α)
    (hx : ∀ (r : Fin N) (c : Fin M), x3 (ix3 0 r c) = x2 (ix2 r c))
    (idx : IVec ⟨2, ![n, 1]⟩ w) (t : Fin n) (h : Fin M) :
    Host.gather d3 x3 idx (ix3 0 t h) = Host.gather d2 x2 idx (ix2 t h) := by
  unfold Host.gather
  obtain ⟨ρ, c', e2⟩ : ∃ (ρ : Fin N) (c' : Fin M), d2.operandIdx (ix2 t h) idx = ix2 ρ c' := ⟨_, _, eq_ix2 _⟩
  have e3 : d3.operandIdx (ix3 0 t h) idx = ix3 0 ρ c' := by
    funext a; refine Fin.ext ?_
    match a with
    | ⟨0, _⟩ =>
      have hlt := (d3.operandIdx (ix3 0 t h) idx ⟨0, Nat.zero_lt_succ 2⟩).isLt
      change _ < 1 at hlt
      show _ = (0 : Nat)
      omega
    | ⟨1, _⟩ =>
      exact (op3_val1 d3 h3 idx 0 t h).trans
        ((op2_val0 d2 h2 idx t h).symm.trans (congrArg (fun i => (i 0).val) e2))
    | ⟨2, _⟩ =>
      exact (op3_val2 d3 h3 idx 0 t h).trans
        ((op2_val1 d2 h2 idx t h).symm.trans (congrArg (fun i => (i 1).val) e2))
  rw [e3, e2, hx]

end Gather

/-! ## Scatter: where an update row lands, and the fold that writes the rows -/

section Scatter
variable {N M n w : Nat}

/-- The axes a shape keeps when `axes` are removed are the ones not in `axes`. -/
theorem mem_kept {s : Shape} (axes : List (Fin s.rank)) (a : Fin s.rank) : a ∈ s.kept axes ↔ a ∉ axes := by
  simp [Shape.kept]

/-- Row write behind a unit axis, leading axis: start `0` plus the update's leading coordinate, which is `0`. -/
theorem sw3_0
    (d3 : ScatterDims ⟨3, ![1, N, M]⟩ ⟨2, ![n, 1]⟩ ⟨3, ![1, n, M]⟩)
    (h3 : d3.updateWindowDims = [0, 2] ∧ d3.insertedWindowDims = [1] ∧ d3.scatterDimsToOperandDims = [1] ∧
      d3.indexVectorDim = 1)
    (idx : IVec ⟨2, ![n, 1]⟩ w) (z : Fin 1) (t : Fin n) (j : Fin M) :
    d3.start (ix3 z t j) idx 0 + (d3.window (ix3 z t j) 0 : Int) = 0 := by
  obtain ⟨uw, iw, sd, iv, wf⟩ := d3
  obtain ⟨h1, h2, h3, h4⟩ := h3
  dsimp only at h1 h2 h3 h4
  subst h1 h2 h3 h4
  unfold ScatterDims.start ScatterDims.window
  rw [dif_neg (show (0 : Fin 3) ∉ [1] by decide), dif_pos ((mem_kept _ _).2 (show (0 : Fin 3) ∉ [1] by decide))]
  show (0 : Int) + ((z.val : Nat) : Int) = 0
  have := z.isLt
  omega

/-- Row write behind a unit axis, row axis: token `t`'s start index read signed, no window coordinate. -/
theorem sw3_1
    (d3 : ScatterDims ⟨3, ![1, N, M]⟩ ⟨2, ![n, 1]⟩ ⟨3, ![1, n, M]⟩)
    (h3 : d3.updateWindowDims = [0, 2] ∧ d3.insertedWindowDims = [1] ∧ d3.scatterDimsToOperandDims = [1] ∧
      d3.indexVectorDim = 1)
    (idx : IVec ⟨2, ![n, 1]⟩ w) (z : Fin 1) (t : Fin n) (j : Fin M) :
    d3.start (ix3 z t j) idx 1 + (d3.window (ix3 z t j) 1 : Int) = (idx (ix2 t 0)).toInt := by
  obtain ⟨uw, iw, sd, iv, wf⟩ := d3
  obtain ⟨h1, h2, h3, h4⟩ := h3
  dsimp only at h1 h2 h3 h4
  subst h1 h2 h3 h4
  unfold ScatterDims.start ScatterDims.window
  rw [dif_pos (List.mem_singleton.mpr rfl), dif_neg (fun h => (mem_kept _ _).1 h (List.mem_singleton.mpr rfl))]
  show (idx _).toInt + (0 : Int) = _
  rw [Int.add_zero]
  refine congrArg (fun X => (idx X).toInt) ?_
  funext b; refine Fin.ext ?_
  match b with
  | ⟨0, _⟩ => rfl
  | ⟨1, _⟩ => rfl

/-- Row write behind a unit axis, column axis: start `0` plus the update's column. -/
theorem sw3_2
    (d3 : ScatterDims ⟨3, ![1, N, M]⟩ ⟨2, ![n, 1]⟩ ⟨3, ![1, n, M]⟩)
    (h3 : d3.updateWindowDims = [0, 2] ∧ d3.insertedWindowDims = [1] ∧ d3.scatterDimsToOperandDims = [1] ∧
      d3.indexVectorDim = 1)
    (idx : IVec ⟨2, ![n, 1]⟩ w) (z : Fin 1) (t : Fin n) (j : Fin M) :
    d3.start (ix3 z t j) idx 2 + (d3.window (ix3 z t j) 2 : Int) = (j.val : Int) := by
  obtain ⟨uw, iw, sd, iv, wf⟩ := d3
  obtain ⟨h1, h2, h3, h4⟩ := h3
  dsimp only at h1 h2 h3 h4
  subst h1 h2 h3 h4
  unfold ScatterDims.start ScatterDims.window
  rw [dif_neg (show (2 : Fin 3) ∉ [1] by decide), dif_pos ((mem_kept _ _).2 (show (2 : Fin 3) ∉ [1] by decide))]
  show (0 : Int) + ((j.val : Nat) : Int) = _
  rw [Int.zero_add]

/-- Plain row write, row axis: token `t`'s start index read signed, no window coordinate. -/
theorem sw2_0
    (d2 : ScatterDims ⟨2, ![N, M]⟩ ⟨2, ![n, 1]⟩ ⟨2, ![n, M]⟩)
    (h2 : d2.updateWindowDims = [1] ∧ d2.insertedWindowDims = [0] ∧ d2.scatterDimsToOperandDims = [0] ∧
      d2.indexVectorDim = 1)
    (idx : IVec ⟨2, ![n, 1]⟩ w) (t : Fin n) (j : Fin M) :
    d2.start (ix2 t j) idx 0 + (d2.window (ix2 t j) 0 : Int) = (idx (ix2 t 0)).toInt := by
  obtain ⟨uw, iw, sd, iv, wf⟩ := d2
  obtain ⟨h1, h2, h3, h4⟩ := h2
  dsimp only at h1 h2 h3 h4
  subst h1 h2 h3 h4
  unfold ScatterDims.start ScatterDims.window
  rw [dif_pos (List.mem_singleton.mpr rfl), dif_neg (fun h => (mem_kept _ _).1 h (List.mem_singleton.mpr rfl))]
  show (idx _).toInt + (0 : Int) = _
  rw [Int.add_zero]
  refine congrArg (fun X => (idx X).toInt) ?_
  funext b; refine Fin.ext ?_
  match b with
  | ⟨0, _⟩ => rfl
  | ⟨1, _⟩ => rfl

/-- Plain row write, column axis: start `0` plus the update's column. -/
theorem sw2_1
    (d2 : ScatterDims ⟨2, ![N, M]⟩ ⟨2, ![n, 1]⟩ ⟨2, ![n, M]⟩)
    (h2 : d2.updateWindowDims = [1] ∧ d2.insertedWindowDims = [0] ∧ d2.scatterDimsToOperandDims = [0] ∧
      d2.indexVectorDim = 1)
    (idx : IVec ⟨2, ![n, 1]⟩ w) (t : Fin n) (j : Fin M) :
    d2.start (ix2 t j) idx 1 + (d2.window (ix2 t j) 1 : Int) = (j.val : Int) := by
  obtain ⟨uw, iw, sd, iv, wf⟩ := d2
  obtain ⟨h1, h2, h3, h4⟩ := h2
  dsimp only at h1 h2 h3 h4
  subst h1 h2 h3 h4
  unfold ScatterDims.start ScatterDims.window
  rw [dif_neg (show (1 : Fin 2) ∉ [0] by decide), dif_pos ((mem_kept _ _).2 (show (1 : Fin 2) ∉ [0] by decide))]
  show (0 : Int) + ((j.val : Nat) : Int) = _
  rw [Int.zero_add]

end Scatter

section ScatterFold
variable {N M n w : Nat}

/-- WHERE A ROW WRITE LANDS, behind a unit axis: update element `(0, t, j)` lands at `(0, v, j)` with `v` token `t`'s
    start index read signed, when `0 ≤ v < N`; otherwise it is dropped. -/
theorem resultIdx3
    (d3 : ScatterDims ⟨3, ![1, N, M]⟩ ⟨2, ![n, 1]⟩ ⟨3, ![1, n, M]⟩)
    (h3 : d3.updateWindowDims = [0, 2] ∧ d3.insertedWindowDims = [1] ∧ d3.scatterDimsToOperandDims = [1] ∧
      d3.indexVectorDim = 1)
    (idx : IVec ⟨2, ![n, 1]⟩ w) (z : Fin 1) (t : Fin n) (j : Fin M) :
    d3.resultIdx? (ix3 z t j) idx =
      if hv : 0 ≤ (idx (ix2 t 0)).toInt ∧ (idx (ix2 t 0)).toInt < N then
        some (ix3 0 ⟨(idx (ix2 t 0)).toInt.toNat, by omega⟩ j)
      else none := by
  have e0 : ∀ h0, d3.start (ix3 z t j) idx ⟨0, h0⟩ + (d3.window (ix3 z t j) ⟨0, h0⟩ : Int) = 0 :=
    fun _ => sw3_0 d3 h3 idx z t j
  have e1 : ∀ h1, d3.start (ix3 z t j) idx ⟨1, h1⟩ + (d3.window (ix3 z t j) ⟨1, h1⟩ : Int) = (idx (ix2 t 0)).toInt :=
    fun _ => sw3_1 d3 h3 idx z t j
  have e2 : ∀ h2, d3.start (ix3 z t j) idx ⟨2, h2⟩ + (d3.window (ix3 z t j) ⟨2, h2⟩ : Int) = (j.val : Int) :=
    fun _ => sw3_2 d3 h3 idx z t j
  have hj := j.isLt
  unfold ScatterDims.resultIdx?
  by_cases hv : 0 ≤ (idx (ix2 t 0)).toInt ∧ (idx (ix2 t 0)).toInt < N
  · have hall : ∀ a, 0 ≤ d3.start (ix3 z t j) idx a + (d3.window (ix3 z t j) a : Int) ∧
        d3.start (ix3 z t j) idx a + (d3.window (ix3 z t j) a : Int) < ((⟨3, ![1, N, M]⟩ : Shape).size a : Nat) := by
      intro a
      match a with
      | ⟨0, h0⟩ => rw [e0 h0]; exact ⟨le_refl _, by show (0 : Int) < ((1 : Nat) : Int); omega⟩
      | ⟨1, h1⟩ => rw [e1 h1]; exact ⟨hv.1, hv.2⟩
      | ⟨2, h2⟩ => rw [e2 h2]; exact ⟨by omega, by show (j.val : Int) < ((M : Nat) : Int); omega⟩
    rw [dif_pos hall, dif_pos hv]
    refine congrArg some ?_
    funext a; refine Fin.ext ?_
    match a with
    | ⟨0, h0⟩ => show (d3.start (ix3 z t j) idx ⟨0, h0⟩ + (d3.window (ix3 z t j) ⟨0, h0⟩ : Int)).toNat = 0; rw [e0 h0]; rfl
    | ⟨1, h1⟩ =>
      show (d3.start (ix3 z t j) idx ⟨1, h1⟩ + (d3.window (ix3 z t j) ⟨1, h1⟩ : Int)).toNat = (idx (ix2 t 0)).toInt.toNat
      rw [e1 h1]
    | ⟨2, h2⟩ =>
      show (d3.start (ix3 z t j) idx ⟨2, h2⟩ + (d3.window (ix3 z t j) ⟨2, h2⟩ : Int)).toNat = j.val
      rw [e2 h2]; exact Int.toNat_natCast _
  · rw [dif_neg (fun hall => hv (by have := hall ⟨1, by show 1 < 3; omega⟩; rw [e1] at this; exact this)), dif_neg hv]

/-- WHERE A ROW WRITE LANDS, plain: update element `(t, j)` lands at `(v, j)` with `v` token `t`'s start index read
    signed, when `0 ≤ v < N`; otherwise it is dropped. -/
theorem resultIdx2
    (d2 : ScatterDims ⟨2, ![N, M]⟩ ⟨2, ![n, 1]⟩ ⟨2, ![n, M]⟩)
    (h2 : d2.updateWindowDims = [1] ∧ d2.insertedWindowDims = [0] ∧ d2.scatterDimsToOperandDims = [0] ∧
      d2.indexVectorDim = 1)
    (idx : IVec ⟨2, ![n, 1]⟩ w) (t : Fin n) (j : Fin M) :
    d2.resultIdx? (ix2 t j) idx =
      if hv : 0 ≤ (idx (ix2 t 0)).toInt ∧ (idx (ix2 t 0)).toInt < N then
        some (ix2 ⟨(idx (ix2 t 0)).toInt.toNat, by omega⟩ j)
      else none := by
  have e0 : ∀ h0, d2.start (ix2 t j) idx ⟨0, h0⟩ + (d2.window (ix2 t j) ⟨0, h0⟩ : Int) = (idx (ix2 t 0)).toInt :=
    fun _ => sw2_0 d2 h2 idx t j
  have e1 : ∀ h1, d2.start (ix2 t j) idx ⟨1, h1⟩ + (d2.window (ix2 t j) ⟨1, h1⟩ : Int) = (j.val : Int) :=
    fun _ => sw2_1 d2 h2 idx t j
  have hj := j.isLt
  unfold ScatterDims.resultIdx?
  by_cases hv : 0 ≤ (idx (ix2 t 0)).toInt ∧ (idx (ix2 t 0)).toInt < N
  · have hall : ∀ a, 0 ≤ d2.start (ix2 t j) idx a + (d2.window (ix2 t j) a : Int) ∧
        d2.start (ix2 t j) idx a + (d2.window (ix2 t j) a : Int) < ((⟨2, ![N, M]⟩ : Shape).size a : Nat) := by
      intro a
      match a with
      | ⟨0, h0⟩ => rw [e0 h0]; exact ⟨hv.1, hv.2⟩
      | ⟨1, h1⟩ => rw [e1 h1]; exact ⟨by omega, by show (j.val : Int) < ((M : Nat) : Int); omega⟩
    rw [dif_pos hall, dif_pos hv]
    refine congrArg some ?_
    funext a; refine Fin.ext ?_
    match a with
    | ⟨0, h0⟩ =>
      show (d2.start (ix2 t j) idx ⟨0, h0⟩ + (d2.window (ix2 t j) ⟨0, h0⟩ : Int)).toNat = (idx (ix2 t 0)).toInt.toNat
      rw [e0 h0]
    | ⟨1, h1⟩ =>
      show (d2.start (ix2 t j) idx ⟨1, h1⟩ + (d2.window (ix2 t j) ⟨1, h1⟩ : Int)).toNat = j.val
      rw [e1 h1]; exact Int.toNat_natCast _
  · rw [dif_neg (fun hall => hv (by have := hall ⟨0, by show 0 < 2; omega⟩; rw [e0] at this; exact this)), dif_neg hv]

end ScatterFold

section ScatterRun
variable {N M n w : Nat}

/-- A matrix and the same matrix behind a leading unit axis have as many elements. -/
theorem numel_lift (a b : Nat) : (⟨2, ![a, b]⟩ : Shape).numel = (⟨3, ![1, a, b]⟩ : Shape).numel := by
  simp [Shape.numel, Fin.prod_univ_succ]

/-- Row-major order ignores a leading unit axis: position `k` of `[1, a, b]` is `(0, p, q)` where position `k` of
    `[a, b]` is `(p, q)`. -/
theorem unflatten_lift (a b : Nat) (hnum : (⟨2, ![a, b]⟩ : Shape).numel = (⟨3, ![1, a, b]⟩ : Shape).numel)
    (k : Fin (⟨2, ![a, b]⟩ : Shape).numel) (p : Fin a) (q : Fin b)
    (hk : (⟨2, ![a, b]⟩ : Shape).rowMajor.symm k = ix2 p q) :
    (⟨3, ![1, a, b]⟩ : Shape).rowMajor.symm (Fin.cast hnum k) = ix3 0 p q := by
  have key := Shape.reshapeEquiv_cons_one (n := 2) (d := ![a, b]) hnum ((⟨2, ![a, b]⟩ : Shape).rowMajor.symm k)
  simp only [Shape.reshapeEquiv, Equiv.trans_apply, Equiv.apply_symm_apply, finCongr_apply] at key
  rw [key, hk]
  funext c
  match c with
  | ⟨0, _⟩ => rfl
  | ⟨1, _⟩ => rfl
  | ⟨2, _⟩ => rfl

/-- One step of the scatter's fold: update element number `k` (row-major) replaces the accumulator's element at the
    index it lands on by `f` of that element and the update, or is dropped. -/
def step {α : Type} {s si u : Shape} (d : ScatterDims s si u) (f : α → α → α) (idx : IVec si w) (upd : u.Idx → α)
    (r : s.Idx → α) (k : Fin u.numel) : s.Idx → α :=
  match d.resultIdx? (u.rowMajor.symm k) idx with
  | some i => fun i' => if i' = i then f (r i) (upd (u.rowMajor.symm k)) else r i'
  | none => r

/-- The scatter is the left fold of its step over the update positions in order. -/
theorem scatter_eq_foldl {α : Type} {s si u : Shape} (d : ScatterDims s si u) (f : α → α → α) (x : s.Idx → α)
    (idx : IVec si w) (upd : u.Idx → α) :
    Host.scatter d f x idx upd = (List.finRange u.numel).foldl (step d f idx upd) x := rfl

/-- The positions below `a` are the positions below `b`, recast, when `b = a`. -/
theorem finRange_cast {a b : Nat} (h : b = a) : List.finRange a = (List.finRange b).map (Fin.cast h) := by
  subst h
  exact (List.map_id _).symm

/-- ONE STEP keeps a matrix and its copy behind a unit axis equal: the update element lands on the same row and column
    in both, or is dropped in both. -/
theorem step_lift {α : Type} (f : α → α → α)
    (d3 : ScatterDims ⟨3, ![1, N, M]⟩ ⟨2, ![n, 1]⟩ ⟨3, ![1, n, M]⟩)
    (h3 : d3.updateWindowDims = [0, 2] ∧ d3.insertedWindowDims = [1] ∧ d3.scatterDimsToOperandDims = [1] ∧
      d3.indexVectorDim = 1)
    (d2 : ScatterDims ⟨2, ![N, M]⟩ ⟨2, ![n, 1]⟩ ⟨2, ![n, M]⟩)
    (h2 : d2.updateWindowDims = [1] ∧ d2.insertedWindowDims = [0] ∧ d2.scatterDimsToOperandDims = [0] ∧
      d2.indexVectorDim = 1)
    (idx : IVec ⟨2, ![n, 1]⟩ w)
    (u3 : (⟨3, ![1, n, M]⟩ : Shape).Idx → α) (u2 : (⟨2, ![n, M]⟩ : Shape).Idx → α)
    (hu : ∀ (t : Fin n) (j : Fin M), u3 (ix3 0 t j) = u2 (ix2 t j))
    (hnum : (⟨2, ![n, M]⟩ : Shape).numel = (⟨3, ![1, n, M]⟩ : Shape).numel)
    (r3 : (⟨3, ![1, N, M]⟩ : Shape).Idx → α) (r2 : (⟨2, ![N, M]⟩ : Shape).Idx → α)
    (hI : ∀ (r : Fin N) (c : Fin M), r3 (ix3 0 r c) = r2 (ix2 r c))
    (k : Fin (⟨2, ![n, M]⟩ : Shape).numel) (r : Fin N) (c : Fin M) :
    step d3 f idx u3 r3 (Fin.cast hnum k) (ix3 0 r c) = step d2 f idx u2 r2 k (ix2 r c) := by
  obtain ⟨t, j, ej⟩ : ∃ (t : Fin n) (j : Fin M), (⟨2, ![n, M]⟩ : Shape).rowMajor.symm k = ix2 t j :=
    ⟨_, _, eq_ix2 _⟩
  have ej3 := unflatten_lift n M hnum k t j ej
  unfold step
  rw [ej3, ej, resultIdx3 d3 h3 idx 0 t j, resultIdx2 d2 h2 idx t j]
  by_cases hv : 0 ≤ (idx (ix2 t 0)).toInt ∧ (idx (ix2 t 0)).toInt < N
  · rw [dif_pos hv, dif_pos hv]
    have hiff : ∀ ρ : Fin N, (ix3 (0 : Fin 1) r c = ix3 0 ρ j) ↔ (ix2 r c = ix2 ρ j) := by
      intro ρ
      constructor
      · intro h
        have hr : r = ρ := congrFun h 1
        have hc : c = j := congrFun h 2
        rw [hr, hc]
      · intro h
        have hr : r = ρ := congrFun h 0
        have hc : c = j := congrFun h 1
        rw [hr, hc]
    show (if ix3 (0 : Fin 1) r c = ix3 0 _ j then f (r3 (ix3 0 _ j)) (u3 (ix3 0 t j)) else r3 (ix3 0 r c))
      = (if ix2 r c = ix2 _ j then f (r2 (ix2 _ j)) (u2 (ix2 t j)) else r2 (ix2 r c))
    rw [hI, hI, hu]
    by_cases he : ix2 r c = ix2 (⟨(idx (ix2 t 0)).toInt.toNat, by omega⟩ : Fin N) j
    · rw [if_pos he, if_pos ((hiff _).2 he)]
    · rw [if_neg he, if_neg (mt (hiff _).1 he)]
  · rw [dif_neg hv, dif_neg hv]
    exact hI r c

/-- THE FOLD keeps them equal: over any list of update positions, taken in the same order on both sides. -/
theorem foldl_lift {α : Type} (f : α → α → α)
    (d3 : ScatterDims ⟨3, ![1, N, M]⟩ ⟨2, ![n, 1]⟩ ⟨3, ![1, n, M]⟩)
    (h3 : d3.updateWindowDims = [0, 2] ∧ d3.insertedWindowDims = [1] ∧ d3.scatterDimsToOperandDims = [1] ∧
      d3.indexVectorDim = 1)
    (d2 : ScatterDims ⟨2, ![N, M]⟩ ⟨2, ![n, 1]⟩ ⟨2, ![n, M]⟩)
    (h2 : d2.updateWindowDims = [1] ∧ d2.insertedWindowDims = [0] ∧ d2.scatterDimsToOperandDims = [0] ∧
      d2.indexVectorDim = 1)
    (idx : IVec ⟨2, ![n, 1]⟩ w)
    (u3 : (⟨3, ![1, n, M]⟩ : Shape).Idx → α) (u2 : (⟨2, ![n, M]⟩ : Shape).Idx → α)
    (hu : ∀ (t : Fin n) (j : Fin M), u3 (ix3 0 t j) = u2 (ix2 t j))
    (hnum : (⟨2, ![n, M]⟩ : Shape).numel = (⟨3, ![1, n, M]⟩ : Shape).numel)
    (l : List (Fin (⟨2, ![n, M]⟩ : Shape).numel)) :
    ∀ (r3 : (⟨3, ![1, N, M]⟩ : Shape).Idx → α) (r2 : (⟨2, ![N, M]⟩ : Shape).Idx → α),
      (∀ (r : Fin N) (c : Fin M), r3 (ix3 0 r c) = r2 (ix2 r c)) →
      ∀ (r : Fin N) (c : Fin M),
        (l.map (Fin.cast hnum)).foldl (step d3 f idx u3) r3 (ix3 0 r c) = l.foldl (step d2 f idx u2) r2 (ix2 r c) := by
  induction l with
  | nil => intro r3 r2 hI r c; exact hI r c
  | cons k l ih =>
    intro r3 r2 hI
    rw [List.map_cons, List.foldl_cons, List.foldl_cons]
    exact ih _ _ (step_lift f d3 h3 d2 h2 idx u3 u2 hu hnum r3 r2 hI k)

/-- A row write `out.at[ids].set(u)` into a matrix and the write `out.at[:, ids].set(u)` into the same data behind a
    leading unit axis (the updates likewise) give the same matrix: the update elements are taken in the same row-major
    order, each lands on the same row and column or is dropped in both, and `f` combines the same two values. Nothing is
    assumed of the start indices. -/
theorem scatter_rows_lift_gen {α : Type} (f : α → α → α)
    (d3 : ScatterDims ⟨3, ![1, N, M]⟩ ⟨2, ![n, 1]⟩ ⟨3, ![1, n, M]⟩)
    (h3 : d3.updateWindowDims = [0, 2] ∧ d3.insertedWindowDims = [1] ∧ d3.scatterDimsToOperandDims = [1] ∧
      d3.indexVectorDim = 1)
    (d2 : ScatterDims ⟨2, ![N, M]⟩ ⟨2, ![n, 1]⟩ ⟨2, ![n, M]⟩)
    (h2 : d2.updateWindowDims = [1] ∧ d2.insertedWindowDims = [0] ∧ d2.scatterDimsToOperandDims = [0] ∧
      d2.indexVectorDim = 1)
    (x3 : (⟨3, ![1, N, M]⟩ : Shape).Idx → α) (x2 : (⟨2, ![N, M]⟩ : Shape).Idx → α)
    (hx : ∀ (r : Fin N) (c : Fin M), x3 (ix3 0 r c) = x2 (ix2 r c))
    (idx : IVec ⟨2, ![n, 1]⟩ w)
    (u3 : (⟨3, ![1, n, M]⟩ : Shape).Idx → α) (u2 : (⟨2, ![n, M]⟩ : Shape).Idx → α)
    (hu : ∀ (t : Fin n) (j : Fin M), u3 (ix3 0 t j) = u2 (ix2 t j))
    (r : Fin N) (c : Fin M) :
    Host.scatter d3 f x3 idx u3 (ix3 0 r c) = Host.scatter d2 f x2 idx u2 (ix2 r c) := by
  rw [scatter_eq_foldl, scatter_eq_foldl, finRange_cast (numel_lift n M)]
  exact foldl_lift f d3 h3 d2 h2 idx u3 u2 hu (numel_lift n M) _ x3 x2 hx r c

end ScatterRun

/-! ## At the extents 4096 × 4096, 2048 tokens -/

/-- The row lookup `x[ids]` of a `[4096, 4096]` matrix at 2048 start indices and the lookup `x[:, ids]` of the same
    data as `[1, 4096, 4096]` read the same element. -/
theorem gather_rows_lift {α : Type} {w : Nat}
    (d3 : GatherDims ⟨3, ![1, 4096, 4096]⟩ ⟨2, ![2048, 1]⟩ ⟨3, ![1, 2048, 4096]⟩)
    (h3 : d3.offsetDims = [0, 2] ∧ d3.collapsedSliceDims = [1] ∧ d3.operandBatchingDims = [] ∧ d3.startIndicesBatchingDims = [] ∧ d3.startIndexMap = [1] ∧ d3.indexVectorDim = 1 ∧ d3.sliceSizes = ![1, 1, 4096])
    (d2 : GatherDims ⟨2, ![4096, 4096]⟩ ⟨2, ![2048, 1]⟩ ⟨2, ![2048, 4096]⟩)
    (h2 : d2.offsetDims = [1] ∧ d2.collapsedSliceDims = [0] ∧ d2.operandBatchingDims = [] ∧ d2.startIndicesBatchingDims = [] ∧ d2.startIndexMap = [0] ∧ d2.indexVectorDim = 1 ∧ d2.sliceSizes = ![1, 4096])
    (x3 : (⟨3, ![1, 4096, 4096]⟩ : Shape).Idx → α) (x2 : (⟨2, ![4096, 4096]⟩ : Shape).Idx → α)
    (hx : ∀ (r : Fin 4096) (c : Fin 4096), x3 (ix3 0 r c) = x2 (ix2 r c))
    (idx : IVec ⟨2, ![2048, 1]⟩ w) (t : Fin 2048) (h : Fin 4096) :
    Host.gather d3 x3 idx (ix3 0 t h) = Host.gather d2 x2 idx (ix2 t h) :=
  gather_rows_lift_gen d3 h3 d2 h2 x3 x2 hx idx t h

/-- The row write `out.at[ids].set(u)` into a `[4096, 4096]` matrix with `[2048, 4096]` updates and the write
    `out.at[:, ids].set(u)` into the same data as `[1, 4096, 4096]` with the updates as `[1, 2048, 4096]` give the same
    matrix. -/
theorem scatter_rows_lift {α : Type} {w : Nat} (f : α → α → α)
    (d3 : ScatterDims ⟨3, ![1, 4096, 4096]⟩ ⟨2, ![2048, 1]⟩ ⟨3, ![1, 2048, 4096]⟩)
    (h3 : d3.updateWindowDims = [0, 2] ∧ d3.insertedWindowDims = [1] ∧ d3.scatterDimsToOperandDims = [1] ∧ d3.indexVectorDim = 1)
    (d2 : ScatterDims ⟨2, ![4096, 4096]⟩ ⟨2, ![2048, 1]⟩ ⟨2, ![2048, 4096]⟩)
    (h2 : d2.updateWindowDims = [1] ∧ d2.insertedWindowDims = [0] ∧ d2.scatterDimsToOperandDims = [0] ∧ d2.indexVectorDim = 1)
    (x3 : (⟨3, ![1, 4096, 4096]⟩ : Shape).Idx → α) (x2 : (⟨2, ![4096, 4096]⟩ : Shape).Idx → α)
    (hx : ∀ (r : Fin 4096) (c : Fin 4096), x3 (ix3 0 r c) = x2 (ix2 r c))
    (idx : IVec ⟨2, ![2048, 1]⟩ w)
    (u3 : (⟨3, ![1, 2048, 4096]⟩ : Shape).Idx → α) (u2 : (⟨2, ![2048, 4096]⟩ : Shape).Idx → α)
    (hu : ∀ (t : Fin 2048) (j : Fin 4096), u3 (ix3 0 t j) = u2 (ix2 t j))
    (r : Fin 4096) (c : Fin 4096) :
    Host.scatter d3 f x3 idx u3 (ix3 0 r c) = Host.scatter d2 f x2 idx u2 (ix2 r c) :=
  scatter_rows_lift_gen f d3 h3 d2 h2 x3 x2 hx idx u3 u2 hu r c

end Cert.RowLift
-- ==== Proof.Bridge.lean ====
/-
  THE COMPARISON of the idealized kernel program's result with the idealized reference's, index by index.

  Both compute `out = zeros; out[ids₁] = mlp(x[ids₁]; Wgu₁, Wd₁); out[ids₂] = mlp(x[ids₂]; Wgu₂, Wd₂)`, where a negative
  id `i` is first read as `i + 4096`. The kernel program flattens the token array `x : [1, 4096, 4096]` to a matrix,
  works on matrices `[4096, 4096]` / `[2048, 4096]` and puts the unit axis back at the end; the reference keeps the unit
  axis throughout. The steps:

  * the columns of row numbers the two programs build from an index vector are the same term;
  * a row lookup behind the unit axis is the lookup in the flattened matrix, so each expert's gathered tokens agree,
    and with them the expert's MLP rows (the reference's are `Spec.mlpAt` of whatever matrix its gather equals);
  * a row write behind the unit axis is the write into the matrix, applied twice: the inner scatter starts from zeros
    on both sides, the outer one from the inner results.
-/
import proofs.«427235_j25761213841760_3_alg».proof.Proof.KernelIdeal.KernelOut
import proofs.«427235_j25761213841760_3_alg».proof.Proof.RefMlp
import proofs.«427235_j25761213841760_3_alg».proof.Proof.LibRowLift
import proofs.«427235_j25761213841760_3_alg».proof.Proof.Gen.ReferenceIdeal.Read
import proofs.«427235_j25761213841760_3_alg».proof.Proof.Spec

noncomputable section

namespace Cert.Bridge

open Idealize.ShloMosaic Idealize.ShloMosaic.TcCoe Idealize.SL.Sem Idealize.ShloMosaic.StableHlo Idealize.ShloMosaic.ValueIdx

/-! ## The two programs' index columns are one term -/

/-- The column of row numbers the reference's first gather reads is the kernel program's: the same operations on the
    same index vector. -/
theorem v5_eq (x1 : (⟨Cert.ReferenceIdeal.S2048, .i32⟩ : BufTy).Contents (Elt Ideal)) :
    Cert.ReferenceIdeal.Read.val_main_v5 (F := Ideal) x1 = Cert.KernelIdeal.Hand.normIdx (F := Ideal) x1 := rfl

/-- The column the reference's first scatter reads is the same again. -/
theorem v32_eq (x1 : (⟨Cert.ReferenceIdeal.S2048, .i32⟩ : BufTy).Contents (Elt Ideal)) :
    Cert.ReferenceIdeal.Read.val_main_v32 (F := Ideal) x1 = Cert.KernelIdeal.Hand.normIdx (F := Ideal) x1 := rfl

/-- Likewise for the second expert: the column its gather reads … -/
theorem v18_eq (x2 : (⟨Cert.ReferenceIdeal.S2048, .i32⟩ : BufTy).Contents (Elt Ideal)) :
    Cert.ReferenceIdeal.Read.val_main_v18 (F := Ideal) x2 = Cert.KernelIdeal.Hand.normIdx (F := Ideal) x2 := rfl

/-- … and the one its scatter reads. -/
theorem v39_eq (x2 : (⟨Cert.ReferenceIdeal.S2048, .i32⟩ : BufTy).Contents (Elt Ideal)) :
    Cert.ReferenceIdeal.Read.val_main_v39 (F := Ideal) x2 = Cert.KernelIdeal.Hand.normIdx (F := Ideal) x2 := rfl

/-! ## The gathers -/

/-- A row lookup in the token array behind its unit axis is the lookup in the flattened token matrix: flattening
    moves no element, and both lookups clamp the same start index. -/
theorem gather_eq (x0 : (⟨Cert.ReferenceIdeal.S1x4096x4096, .f32⟩ : BufTy).Contents (Elt Ideal))
    (ids : (⟨Cert.ReferenceIdeal.S2048, .i32⟩ : BufTy).Contents (Elt Ideal)) (t : Fin 2048) (h : Fin 4096) :
    Host.gather Cert.ReferenceIdeal.gather_S1x4096x4096_S2048x1_S1x2048x4096_02_1_n_n_1_1_114096 x0
        (Cert.KernelIdeal.Hand.normIdx (F := Ideal) ids) (ix3 0 t h)
      = Cert.KernelIdeal.Hand.gathered (F := Ideal) x0 ids (ix2 t h) := by
  unfold Cert.KernelIdeal.Hand.gathered
  exact Cert.RowLift.gather_rows_lift _ ⟨rfl, rfl, rfl, rfl, rfl, rfl, rfl⟩ _ ⟨rfl, rfl, rfl, rfl, rfl, rfl, rfl⟩ x0 _
    (fun r c => (Cert.KernelIdeal.Hand.reshape_apply x0 r c).symm) _ t h

/-! ## The updates: each expert's MLP rows -/

/-- The first expert's rows in the reference, behind the unit axis, are the kernel program's: the MLP of the same
    gathered tokens (rounding them to sixteen bits changes nothing over the extended reals). -/
theorem v12_eq_expertOut (x0 : (⟨Cert.ReferenceIdeal.S1x4096x4096, .f32⟩ : BufTy).Contents (Elt Ideal))
    (x1 : (⟨Cert.ReferenceIdeal.S2048, .i32⟩ : BufTy).Contents (Elt Ideal))
    (x3 : (⟨Cert.ReferenceIdeal.S4096x22016, .f32⟩ : BufTy).Contents (Elt Ideal))
    (x4 : (⟨Cert.ReferenceIdeal.S11008x4096, .f32⟩ : BufTy).Contents (Elt Ideal)) (t : Fin 2048) (j : Fin 4096) :
    Cert.ReferenceIdeal.Read.val_main_v12 (F := Ideal) x0 x1 x3 x4 (ix3 0 t j)
      = Cert.KernelIdeal.Hand.expertOut x0 x1 x3 x4 (ix2 t j) := by
  refine Cert.RefMlp.v12_eq_mlp x0 x1 x3 x4 _ (fun t h => ?_) t j
  show Host.gather Cert.ReferenceIdeal.gather_S1x4096x4096_S2048x1_S1x2048x4096_02_1_n_n_1_1_114096 x0
      (Cert.ReferenceIdeal.Read.val_main_v5 (F := Ideal) x1) (ix3 0 t h)
    = Cert.KernelIdeal.Hand.gathered (F := Ideal) x0 x1 (ix2 t h)
  rw [v5_eq]
  exact gather_eq x0 x1 t h

/-- The second expert's rows likewise. -/
theorem v25_eq_expertOut (x0 : (⟨Cert.ReferenceIdeal.S1x4096x4096, .f32⟩ : BufTy).Contents (Elt Ideal))
    (x2 : (⟨Cert.ReferenceIdeal.S2048, .i32⟩ : BufTy).Contents (Elt Ideal))
    (x5 : (⟨Cert.ReferenceIdeal.S4096x22016, .f32⟩ : BufTy).Contents (Elt Ideal))
    (x6 : (⟨Cert.ReferenceIdeal.S11008x4096, .f32⟩ : BufTy).Contents (Elt Ideal)) (t : Fin 2048) (j : Fin 4096) :
    Cert.ReferenceIdeal.Read.val_main_v25 (F := Ideal) x0 x2 x5 x6 (ix3 0 t j)
      = Cert.KernelIdeal.Hand.expertOut x0 x2 x5 x6 (ix2 t j) := by
  refine Cert.RefMlp.v25_eq_mlp x0 x2 x5 x6 _ (fun t h => ?_) t j
  show Host.gather Cert.ReferenceIdeal.gather_S1x4096x4096_S2048x1_S1x2048x4096_02_1_n_n_1_1_114096 x0
      (Cert.ReferenceIdeal.Read.val_main_v18 (F := Ideal) x2) (ix3 0 t h)
    = Cert.KernelIdeal.Hand.gathered (F := Ideal) x0 x2 (ix2 t h)
  rw [v18_eq]
  exact gather_eq x0 x2 t h

/-! ## The scatters, and the comparison -/

/-- Both programs start their scatters from zeros. -/
theorem zeros_eq (r c : Fin 4096) :
    Cert.ReferenceIdeal.Read.val_main_v26 (F := Ideal) (ix3 0 r c)
      = broadcastInDim Cert.KernelIdeal.S4096x4096 ![] Cert.KernelIdeal.Facts₀.bcast_S_S4096x4096
          (constant (F := Ideal) Cert.KernelIdeal.S_ .f32 0x00000000#32) (ix2 r c) := by
  rw [Cert.KernelIdeal.Hand.zeros2_apply]
  exact Cert.KernelIdeal.Hand.zeros_apply _ _ _

/-- THE COMPARISON. The idealized kernel program's result is the idealized reference's: both write the first expert's
    MLP rows, then the second's over them, into zeros at the rows the (normalised) ids name — the kernel program in a
    matrix it then puts behind a unit axis, the reference behind the unit axis throughout. -/
theorem kernelOut_eq_ref (x0 : (⟨Cert.ReferenceIdeal.S1x4096x4096, .f32⟩ : BufTy).Contents (Elt Ideal))
    (x1 x2 : (⟨Cert.ReferenceIdeal.S2048, .i32⟩ : BufTy).Contents (Elt Ideal))
    (x3 : (⟨Cert.ReferenceIdeal.S4096x22016, .f32⟩ : BufTy).Contents (Elt Ideal))
    (x4 : (⟨Cert.ReferenceIdeal.S11008x4096, .f32⟩ : BufTy).Contents (Elt Ideal))
    (x5 : (⟨Cert.ReferenceIdeal.S4096x22016, .f32⟩ : BufTy).Contents (Elt Ideal))
    (x6 : (⟨Cert.ReferenceIdeal.S11008x4096, .f32⟩ : BufTy).Contents (Elt Ideal)) :
    Cert.KernelIdeal.Hand.kernelOut x0 x1 x2 x3 x4 x5 x6
      = Cert.ReferenceIdeal.Read.val_main_v40 (F := Ideal) x0 x1 x2 x3 x4 x5 x6 := by
  funext i
  obtain ⟨z, r, c, rfl⟩ : ∃ (z : Fin 1) (r : Fin 4096) (c : Fin 4096), i = ix3 z r c := ⟨i 0, i 1, i 2, eq_ix3 i⟩
  obtain rfl : z = 0 := Subsingleton.elim _ _
  unfold Cert.KernelIdeal.Hand.kernelOut Cert.ReferenceIdeal.Read.val_main_v40 Cert.ReferenceIdeal.Read.val_main_v33
  rw [Cert.KernelIdeal.Hand.bcast12_apply, v39_eq, v32_eq]
  symm
  refine Cert.RowLift.scatter_rows_lift (fun _ b => b) _ ⟨rfl, rfl, rfl, rfl⟩ _ ⟨rfl, rfl, rfl, rfl⟩ _ _ (fun r c => ?_) _ _ _
    (v25_eq_expertOut x0 x2 x5 x6) r c
  exact Cert.RowLift.scatter_rows_lift (fun _ b => b) _ ⟨rfl, rfl, rfl, rfl⟩ _ ⟨rfl, rfl, rfl, rfl⟩ _ _ zeros_eq _ _ _
    (v12_eq_expertOut x0 x1 x3 x4) r c

end Cert.Bridge

end
-- ==== Proof.lean ====
/-
  The certificate of the two-expert SwiGLU MLP with token routing: a Pallas kernel per expert (a 4 × 86 grid: 512 tokens
  by 128 hidden units per point, the down projection accumulated in the output block over the 86 hidden blocks) between
  plain gathers of each expert's tokens and scatters of its results, against the jnp reference (two einsums per expert).

  Over the extended reals both programs compute, for each expert, `out[t, j] = Σ_k (g·σ(g)·u)[t, k] · Wd[k, j]` with
  `g = x·Wgu[:, :11008]`, `u = x·Wgu[:, 11008:]` and `σ` the logistic function (the kernel's `tpu.logistic` and the
  reference's `1 / (1 + exp(−g))` are one function there; the conversions to bf16 are the identity): the kernel sums the
  hidden axis block by block, which is the same finite sum regrouped. The gathers pick the same rows (the same clamped
  index on a matrix and on the matrix with a leading unit axis) and the scatters write the same rows in the same order,
  so the results agree whatever the ids are. No finiteness of the inputs is used.

  The frames: each program's @main is three stretches of host operations around two launches; each launch is run by
  the pipeline rule over proof data that follow the output block's running sum point by point, the fused gate/up weight
  being held at half shares by the two windows that read it.
-/
import proofs.«427235_j25761213841760_3_alg».proof.Defs
import proofs.«427235_j25761213841760_3_alg».proof.Proof.Gen.Kernel
import proofs.«427235_j25761213841760_3_alg».proof.Proof.Gen.KernelIdeal
import proofs.«427235_j25761213841760_3_alg».proof.Proof.Gen.ReferenceIdeal
import proofs.«427235_j25761213841760_3_alg».proof.Proof.Gen.Pre_finite_inputs
import proofs.«427235_j25761213841760_3_alg».proof.Proof.Kernel.Run
import proofs.«427235_j25761213841760_3_alg».proof.Proof.Kernel.Args
import proofs.«427235_j25761213841760_3_alg».proof.Proof.KernelIdeal.Run
import proofs.«427235_j25761213841760_3_alg».proof.Proof.KernelIdeal.Args
import proofs.«427235_j25761213841760_3_alg».proof.Proof.KernelIdeal.KernelValue
import proofs.«427235_j25761213841760_3_alg».proof.Proof.Gen.ReferenceIdeal.Run
import proofs.«427235_j25761213841760_3_alg».proof.Proof.Gen.ReferenceIdeal.Read
import proofs.«427235_j25761213841760_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W5_arg0 m c),
      (h c _ (Cert.Kernel.Hand.mem_uc Cert.Kernel.main_arg1 (by decide))).trans (Cert.Kernel.Hand.W5_arg1 m c),
      (h c _ (Cert.Kernel.Hand.mem_uc Cert.Kernel.main_arg2 (by decide))).trans (Cert.Kernel.Hand.W5_arg2 m c),
      (h c _ (Cert.Kernel.Hand.mem_uc Cert.Kernel.main_arg3 (by decide))).trans (Cert.Kernel.Hand.W5_arg3 m c),
      (h c _ (Cert.Kernel.Hand.mem_uc Cert.Kernel.main_arg4 (by decide))).trans (Cert.Kernel.Hand.W5_arg4 m c),
      (h c _ (Cert.Kernel.Hand.mem_uc Cert.Kernel.main_arg5 (by decide))).trans (Cert.Kernel.Hand.W5_arg5 m c),
      (h c _ (Cert.Kernel.Hand.mem_uc Cert.Kernel.main_arg6 (by decide))).trans (Cert.Kernel.Hand.W5_arg6 m c)⟩)
    (Cert.Kernel.Hand.run_main (F := Bits) m ρ)

/-- The idealized kernel runs and leaves its arguments as launched. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W5_arg0 m c),
      (h c _ (Cert.KernelIdeal.Hand.mem_uc Cert.KernelIdeal.main_arg1 (by decide))).trans (Cert.KernelIdeal.Hand.W5_arg1 m c),
      (h c _ (Cert.KernelIdeal.Hand.mem_uc Cert.KernelIdeal.main_arg2 (by decide))).trans (Cert.KernelIdeal.Hand.W5_arg2 m c),
      (h c _ (Cert.KernelIdeal.Hand.mem_uc Cert.KernelIdeal.main_arg3 (by decide))).trans (Cert.KernelIdeal.Hand.W5_arg3 m c),
      (h c _ (Cert.KernelIdeal.Hand.mem_uc Cert.KernelIdeal.main_arg4 (by decide))).trans (Cert.KernelIdeal.Hand.W5_arg4 m c),
      (h c _ (Cert.KernelIdeal.Hand.mem_uc Cert.KernelIdeal.main_arg5 (by decide))).trans (Cert.KernelIdeal.Hand.W5_arg5 m c),
      (h c _ (Cert.KernelIdeal.Hand.mem_uc Cert.KernelIdeal.main_arg6 (by decide))).trans (Cert.KernelIdeal.Hand.W5_arg6 m c)⟩)
    (Cert.KernelIdeal.Hand.run_main (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel ends at `kernelOut` of its arguments; the reference at its composed term, which is the same
    function of the same arguments. -/
theorem algebraic :
    Cert.algebraic_KernelIdeal_ReferenceIdeal := by
  intro m ρ m' ρ' _ hagree
  refine ⟨fun c => Cert.KernelIdeal.Hand.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono (fun r h c =>
      ⟨(h c _ (Cert.KernelIdeal.Hand.mem_uc Cert.KernelIdeal.main_v34 (by decide))).trans (Cert.KernelIdeal.Hand.W5_v34 m c),
      (h c _ (Cert.KernelIdeal.Hand.mem_uc Cert.KernelIdeal.main_arg0 (by decide))).trans (Cert.KernelIdeal.Hand.W5_arg0 m c),
      (h c _ (Cert.KernelIdeal.Hand.mem_uc Cert.KernelIdeal.main_arg1 (by decide))).trans (Cert.KernelIdeal.Hand.W5_arg1 m c),
      (h c _ (Cert.KernelIdeal.Hand.mem_uc Cert.KernelIdeal.main_arg2 (by decide))).trans (Cert.KernelIdeal.Hand.W5_arg2 m c),
      (h c _ (Cert.KernelIdeal.Hand.mem_uc Cert.KernelIdeal.main_arg3 (by decide))).trans (Cert.KernelIdeal.Hand.W5_arg3 m c),
      (h c _ (Cert.KernelIdeal.Hand.mem_uc Cert.KernelIdeal.main_arg4 (by decide))).trans (Cert.KernelIdeal.Hand.W5_arg4 m c),
      (h c _ (Cert.KernelIdeal.Hand.mem_uc Cert.KernelIdeal.main_arg5 (by decide))).trans (Cert.KernelIdeal.Hand.W5_arg5 m c),
      (h c _ (Cert.KernelIdeal.Hand.mem_uc Cert.KernelIdeal.main_arg6 (by decide))).trans (Cert.KernelIdeal.Hand.W5_arg6 m c)⟩)
      (Cert.KernelIdeal.Hand.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v40_eq, (hagree c).1, (hagree c).2.1, (hagree c).2.2.1, (hagree c).2.2.2.1,
      (hagree c).2.2.2.2.1, (hagree c).2.2.2.2.2.1, (hagree c).2.2.2.2.2.2]
    exact (Cert.Bridge.kernelOut_eq_ref _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
